-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x1 : Shape := ⟨3, ![4, 2048, 1]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x2048x1 : S_.BroadcastsInDim S4x2048x1 (![] : Fin 0 → Fin S4x2048x1.rank)
  reducesTo_S4x2048x1_S_d0_1_2 : S4x2048x1.ReducesTo [0, 1, 2] S_
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S4x2048x1 .f32) (main_arg2 : FVec F S3072x1024 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1 .f32 := Host.absf main_arg1
  let main_cst_0 : FVec F S_ .f32 := constant S_ .f32 0x7F800000#32
  let main_v5 : FVec F S4x2048x1 .f32 := broadcastInDim S4x2048x1 ![] bcast_S_S4x2048x1 main_cst_0
  let main_v6 : IVec S4x2048x1 1 := cmpf .olt main_v4 main_v5
  let main_c_1 : IVec S_ 1 := constantI S_ 1 1#1
  let main_v7 : IVec S_ 1 := (fun x v => Host.reduce IntOp.andi x v reducesTo_S4x2048x1_S_d0_1_2 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S4x2048x1 : Shape := ⟨3, ![4, 2048, 1]⟩
abbrev S3072x1024 : Shape := ⟨2, ![3072, 1024]⟩
abbrev S1024x1024 : Shape := ⟨2, ![1024, 1024]⟩
abbrev S1024 : Shape := ⟨1, ![1024]⟩
abbrev S8192x1024 : Shape := ⟨2, ![8192, 1024]⟩
abbrev S8192x3072 : Shape := ⟨2, ![8192, 3072]⟩
abbrev S1024x3072 : Shape := ⟨2, ![1024, 3072]⟩
abbrev S4x2048x3072 : Shape := ⟨3, ![4, 2048, 3072]⟩
abbrev S4x2048 : Shape := ⟨2, ![4, 2048]⟩
abbrev S4x1x2048 : Shape := ⟨3, ![4, 1, 2048]⟩
abbrev S1x1024 : Shape := ⟨2, ![1, 1024]⟩
abbrev S1x512x1024 : Shape := ⟨3, ![1, 512, 1024]⟩
abbrev S1x2048x1024 : Shape := ⟨3, ![1, 2048, 1024]⟩
abbrev S1x1x2048 : Shape := ⟨3, ![1, 1, 2048]⟩
abbrev S512x1024 : Shape := ⟨2, ![512, 1024]⟩
abbrev S1x2048 : Shape := ⟨2, ![1, 2048]⟩
abbrev S1x512x64 : Shape := ⟨3, ![1, 512, 64]⟩
abbrev S512x64 : Shape := ⟨2, ![512, 64]⟩
abbrev S1x2048x64 : Shape := ⟨3, ![1, 2048, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1, .f32⟩
  | .hbm, ⟨2, _⟩ => ⟨S3072x1024, .f32⟩
  | .hbm, ⟨3, _⟩ => ⟨S1024x1024, .f32⟩
  | .hbm, ⟨4, _⟩ => ⟨S1024, .f32⟩
  | .hbm, ⟨5, _⟩ => ⟨S3072x1024, .bf16⟩
  | .hbm, ⟨6, _⟩ => ⟨S1024x1024, .bf16⟩
  | .hbm, ⟨7, _⟩ => ⟨S8192x1024, .f32⟩
  | .hbm, ⟨8, _⟩ => ⟨S8192x3072, .bf16⟩
  | .hbm, ⟨9, _⟩ => ⟨S4x2048x3072, .bf16⟩
  | .hbm, ⟨10, _⟩ => ⟨S4x2048, .f32⟩
  | .hbm, ⟨11, _⟩ => ⟨S4x1x2048, .f32⟩
  | .hbm, ⟨12, _⟩ => ⟨S1x1024, .f32⟩
  | .hbm, ⟨13, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S3072x1024, .bf16⟩
  | .local _ .vmem, ⟨3, _⟩ => ⟨S1024x3072, .bf16⟩
  | .local _ .vmem, ⟨4, _⟩ => ⟨S1024x3072, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x1x2048, .f32⟩
  | .local _ .vmem, ⟨12, _⟩ => ⟨S1x1x2048, .f32⟩
  | .local _ .vmem, ⟨13, _⟩ => ⟨S1024x1024, .bf16⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | .local _ .vmem, ⟨17, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  bitsLt_bf16_f32 : FTy.bits .bf16 < FTy.bits .f32
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1024x3072_S1024x3072_0_0 : ∀ a, (![0, 0] : Fin 2 → Nat) a + S1024x3072.size a ≤ S1024x3072.size a
  h_S1024x3072 : 0 < S1024x3072.numel
  packedbf16_S1024x3072_S1024x3072_0_0 : (Rect.unit (s := S1024x3072) ![0, 0] S1024x3072.size inb_S1024x3072_S1024x3072_0_0).PackedRows (EltTy.packing .bf16)
  shapeCasts_S8192x3072_S4x2048x3072 : S8192x3072.ShapeCasts S4x2048x3072
  shapeCasts_S4x2048x1_S4x2048 : S4x2048x1.ShapeCasts S4x2048
  bcast_S4x2048_S4x1x2048_0_2 : S4x2048.BroadcastsInDim S4x1x2048 (![0, 2] : Fin 2 → Fin S4x1x2048.rank)
  shapeCasts_S1024_S1x1024 : S1024.ShapeCasts S1x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  inb_S1x512x1024_S1x512x64_0_0_0 : ∀ a, (![0, 0, 0] : Fin 3 → Nat) a + S1x512x64.size a ≤ S1x512x1024.size a
  h_S1x512x64 : 0 < S1x512x64.numel
  shapeCasts_S1x512x64_S512x64 : S1x512x64.ShapeCasts S512x64
  inb_S1x2048x1024_S1x2048x64_0_0_0 : ∀ a, (![0, 0, 0] : Fin 3 → Nat) a + S1x2048x64.size a ≤ S1x2048x1024.size a
  h_S1x2048x64 : 0 < S1x2048x64.numel
  shapeCasts_S1x2048x64_S2048x64 : S1x2048x64.ShapeCasts S2048x64
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  inb_S512x1024_S512x64_0_0 : ∀ a, (![0, 0] : Fin 2 → Nat) a + S512x64.size a ≤ S512x1024.size a
  h_S512x64 : 0 < S512x64.numel
  shapeCasts_S512x64_S512x64 : S512x64.ShapeCasts S512x64
  packedbf16_S512x1024_S512x64_0_0 : (Rect.unit (s := S512x1024) ![0, 0] S512x64.size inb_S512x1024_S512x64_0_0).PackedRows (EltTy.packing .bf16)
  inb_S1x512x1024_S1x512x64_0_0_64 : ∀ a, (![0, 0, 64] : Fin 3 → Nat) a + S1x512x64.size a ≤ S1x512x1024.size a
  inb_S1x2048x1024_S1x2048x64_0_0_64 : ∀ a, (![0, 0, 64] : Fin 3 → Nat) a + S1x2048x64.size a ≤ S1x2048x1024.size a
  inb_S512x1024_S512x64_0_64 : ∀ a, (![0, 64] : Fin 2 → Nat) a + S512x64.size a ≤ S512x1024.size a
  packedbf16_S512x1024_S512x64_0_64 : (Rect.unit (s := S512x1024) ![0, 64] S512x64.size inb_S512x1024_S512x64_0_64).PackedRows (EltTy.packing .bf16)
  inb_S1x512x1024_S1x512x64_0_0_128 : ∀ a, (![0, 0, 128] : Fin 3 → Nat) a + S1x512x64.size a ≤ S1x512x1024.size a
  inb_S1x2048x1024_S1x2048x64_0_0_128 : ∀ a, (![0, 0, 128] : Fin 3 → Nat) a + S1x2048x64.size a ≤ S1x2048x1024.size a
  inb_S512x1024_S512x64_0_128 : ∀ a, (![0, 128] : Fin 2 → Nat) a + S512x64.size a ≤ S512x1024.size a
  packedbf16_S512x1024_S512x64_0_128 : (Rect.unit (s := S512x1024) ![0, 128] S512x64.size inb_S512x1024_S512x64_0_128).PackedRows (EltTy.packing .bf16)
  inb_S1x512x1024_S1x512x64_0_0_192 : ∀ a, (![0, 0, 192] : Fin 3 → Nat) a + S1x512x64.size a ≤ S1x512x1024.size a
  inb_S1x2048x1024_S1x2048x64_0_0_192 : ∀ a, (![0, 0, 192] : Fin 3 → Nat) a + S1x2048x64.size a ≤ S1x2048x1024.size a
  inb_S512x1024_S512x64_0_192 : ∀ a, (![0, 192] : Fin 2 → Nat) a + S512x64.size a ≤ S512x1024.size a
  packedbf16_S512x1024_S512x64_0_192 : (Rect.unit (s := S512x1024) ![0, 192] S512x64.size inb_S512x1024_S512x64_0_192).PackedRows (EltTy.packing .bf16)
  inb_S1x512x1024_S1x512x64_0_0_256 : ∀ a, (![0, 0, 256] : Fin 3 → Nat) a + S1x512x64.size a ≤ S1x512x1024.size a
  inb_S1x2048x1024_S1x2048x64_0_0_256 : ∀ a, (![0, 0, 256] : Fin 3 → Nat) a + S1x2048x64.size a ≤ S1x2048x1024.size a
  inb_S512x1024_S512x64_0_256 : ∀ a, (![0, 256] : Fin 2 → Nat) a + S512x64.size a ≤ S512x1024.size a
  packedbf16_S512x1024_S512x64_0_256 : (Rect.unit (s := S512x1024) ![0, 256] S512x64.size inb_S512x1024_S512x64_0_256).PackedRows (EltTy.packing .bf16)
  inb_S1x512x1024_S1x512x64_0_0_320 : ∀ a, (![0, 0, 320] : Fin 3 → Nat) a + S1x512x64.size a ≤ S1x512x1024.size a
  inb_S1x2048x1024_S1x2048x64_0_0_320 : ∀ a, (![0, 0, 320] : Fin 3 → Nat) a + S1x2048x64.size a ≤ S1x2048x1024.size a
  inb_S512x1024_S512x64_0_320 : ∀ a, (![0, 320] : Fin 2 → Nat) a + S512x64.size a ≤ S512x1024.size a
  packedbf16_S512x1024_S512x64_0_320 : (Rect.unit (s := S512x1024) ![0, 320] S512x64.size inb_S512x1024_S512x64_0_320).PackedRows (EltTy.packing .bf16)
  inb_S1x512x1024_S1x512x64_0_0_384 : ∀ a, (![0, 0, 384] : Fin 3 → Nat) a + S1x512x64.size a ≤ S1x512x1024.size a
  inb_S1x2048x1024_S1x2048x64_0_0_384 : ∀ a, (![0, 0, 384] : Fin 3 → Nat) a + S1x2048x64.size a ≤ S1x2048x1024.size a
  inb_S512x1024_S512x64_0_384 : ∀ a, (![0, 384] : Fin 2 → Nat) a + S512x64.size a ≤ S512x1024.size a
  packedbf16_S512x1024_S512x64_0_384 : (Rect.unit (s := S512x1024) ![0, 384] S512x64.size inb_S512x1024_S512x64_0_384).PackedRows (EltTy.packing .bf16)
  inb_S1x512x1024_S1x512x64_0_0_448 : ∀ a, (![0, 0, 448] : Fin 3 → Nat) a + S1x512x64.size a ≤ S1x512x1024.size a
  inb_S1x2048x1024_S1x2048x64_0_0_448 : ∀ a, (![0, 0, 448] : Fin 3 → Nat) a + S1x2048x64.size a ≤ S1x2048x1024.size a
  inb_S512x1024_S512x64_0_448 : ∀ a, (![0, 448] : Fin 2 → Nat) a + S512x64.size a ≤ S512x1024.size a
  packedbf16_S512x1024_S512x64_0_448 : (Rect.unit (s := S512x1024) ![0, 448] S512x64.size inb_S512x1024_S512x64_0_448).PackedRows (EltTy.packing .bf16)
  inb_S1x512x1024_S1x512x64_0_0_512 : ∀ a, (![0, 0, 512] : Fin 3 → Nat) a + S1x512x64.size a ≤ S1x512x1024.size a
  inb_S1x2048x1024_S1x2048x64_0_0_512 : ∀ a, (![0, 0, 512] : Fin 3 → Nat) a + S1x2048x64.size a ≤ S1x2048x1024.size a
  inb_S512x1024_S512x64_0_512 : ∀ a, (![0, 512] : Fin 2 → Nat) a + S512x64.size a ≤ S512x1024.size a
  packedbf16_S512x1024_S512x64_0_512 : (Rect.unit (s := S512x1024) ![0, 512] S512x64.size inb_S512x1024_S512x64_0_512).PackedRows (EltTy.packing .bf16)
  inb_S1x512x1024_S1x512x64_0_0_576 : ∀ a, (![0, 0, 576] : Fin 3 → Nat) a + S1x512x64.size a ≤ S1x512x1024.size a
  inb_S1x2048x1024_S1x2048x64_0_0_576 : ∀ a, (![0, 0, 576] : Fin 3 → Nat) a + S1x2048x64.size a ≤ S1x2048x1024.size a
  inb_S512x1024_S512x64_0_576 : ∀ a, (![0, 576] : Fin 2 → Nat) a + S512x64.size a ≤ S512x1024.size a
  packedbf16_S512x1024_S512x64_0_576 : (Rect.unit (s := S512x1024) ![0, 576] S512x64.size inb_S512x1024_S512x64_0_576).PackedRows (EltTy.packing .bf16)
  inb_S1x512x1024_S1x512x64_0_0_640 : ∀ a, (![0, 0, 640] : Fin 3 → Nat) a + S1x512x64.size a ≤ S1x512x1024.size a
  inb_S1x2048x1024_S1x2048x64_0_0_640 : ∀ a, (![0, 0, 640] : Fin 3 → Nat) a + S1x2048x64.size a ≤ S1x2048x1024.size a
  inb_S512x1024_S512x64_0_640 : ∀ a, (![0, 640] : Fin 2 → Nat) a + S512x64.size a ≤ S512x1024.size a
  packedbf16_S512x1024_S512x64_0_640 : (Rect.unit (s := S512x1024) ![0, 640] S512x64.size inb_S512x1024_S512x64_0_640).PackedRows (EltTy.packing .bf16)
  inb_S1x512x1024_S1x512x64_0_0_704 : ∀ a, (![0, 0, 704] : Fin 3 → Nat) a + S1x512x64.size a ≤ S1x512x1024.size a
  inb_S1x2048x1024_S1x2048x64_0_0_704 : ∀ a, (![0, 0, 704] : Fin 3 → Nat) a + S1x2048x64.size a ≤ S1x2048x1024.size a
  inb_S512x1024_S512x64_0_704 : ∀ a, (![0, 704] : Fin 2 → Nat) a + S512x64.size a ≤ S512x1024.size a
  packedbf16_S512x1024_S512x64_0_704 : (Rect.unit (s := S512x1024) ![0, 704] S512x64.size inb_S512x1024_S512x64_0_704).PackedRows (EltTy.packing .bf16)
  inb_S1x512x1024_S1x512x64_0_0_768 : ∀ a, (![0, 0, 768] : Fin 3 → Nat) a + S1x512x64.size a ≤ S1x512x1024.size a
  inb_S1x2048x1024_S1x2048x64_0_0_768 : ∀ a, (![0, 0, 768] : Fin 3 → Nat) a + S1x2048x64.size a ≤ S1x2048x1024.size a
  inb_S512x1024_S512x64_0_768 : ∀ a, (![0, 768] : Fin 2 → Nat) a + S512x64.size a ≤ S512x1024.size a
  packedbf16_S512x1024_S512x64_0_768 : (Rect.unit (s := S512x1024) ![0, 768] S512x64.size inb_S512x1024_S512x64_0_768).PackedRows (EltTy.packing .bf16)
  inb_S1x512x1024_S1x512x64_0_0_832 : ∀ a, (![0, 0, 832] : Fin 3 → Nat) a + S1x512x64.size a ≤ S1x512x1024.size a
  inb_S1x2048x1024_S1x2048x64_0_0_832 : ∀ a, (![0, 0, 832] : Fin 3 → Nat) a + S1x2048x64.size a ≤ S1x2048x1024.size a
  inb_S512x1024_S512x64_0_832 : ∀ a, (![0, 832] : Fin 2 → Nat) a + S512x64.size a ≤ S512x1024.size a
  packedbf16_S512x1024_S512x64_0_832 : (Rect.unit (s := S512x1024) ![0, 832] S512x64.size inb_S512x1024_S512x64_0_832).PackedRows (EltTy.packing .bf16)
  inb_S1x512x1024_S1x512x64_0_0_896 : ∀ a, (![0, 0, 896] : Fin 3 → Nat) a + S1x512x64.size a ≤ S1x512x1024.size a
  inb_S1x2048x1024_S1x2048x64_0_0_896 : ∀ a, (![0, 0, 896] : Fin 3 → Nat) a + S1x2048x64.size a ≤ S1x2048x1024.size a
  inb_S512x1024_S512x64_0_896 : ∀ a, (![0, 896] : Fin 2 → Nat) a + S512x64.size a ≤ S512x1024.size a
  packedbf16_S512x1024_S512x64_0_896 : (Rect.unit (s := S512x1024) ![0, 896] S512x64.size inb_S512x1024_S512x64_0_896).PackedRows (EltTy.packing .bf16)
  inb_S1x512x1024_S1x512x64_0_0_960 : ∀ a, (![0, 0, 960] : Fin 3 → Nat) a + S1x512x64.size a ≤ S1x512x1024.size a
  inb_S1x2048x1024_S1x2048x64_0_0_960 : ∀ a, (![0, 0, 960] : Fin 3 → Nat) a + S1x2048x64.size a ≤ S1x2048x1024.size a
  inb_S512x1024_S512x64_0_960 : ∀ a, (![0, 960] : Fin 2 → Nat) a + S512x64.size a ≤ S512x1024.size a
  packedbf16_S512x1024_S512x64_0_960 : (Rect.unit (s := S512x1024) ![0, 960] S512x64.size inb_S512x1024_S512x64_0_960).PackedRows (EltTy.packing .bf16)
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S1024x1024_S3072x1024_S1024x3072_1_1_0_0_n_n_wf : DotDims.WF S1024x1024 S3072x1024 S1024x3072 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S8192x3072.size a
  hwx0_2 : ∀ i : grid0.Coords, EltTy.bits .bf16 = 32 ∨ (Rect.block (s := S8192x3072) S1024x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x3072.size a
  hwx1_0 : ∀ i : grid1.Coords, EltTy.bits .bf16 = 32 ∨ (Rect.block (s := S4x2048x3072) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x3072.size a
  hwx1_1 : ∀ i : grid1.Coords, EltTy.bits .bf16 = 32 ∨ (Rect.block (s := S4x2048x3072) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x3072.size a
  hwx1_2 : ∀ i : grid1.Coords, EltTy.bits .bf16 = 32 ∨ (Rect.block (s := S4x2048x3072) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2048.size a ≤ S4x1x2048.size a
  hwx1_3 : ∀ i : grid1.Coords, EltTy.bits .f32 = 32 ∨ (Rect.block (s := S4x1x2048) S1x1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x1024.size a ≤ S4x2048x1024.size a
  hwx1_6 : ∀ i : grid1.Coords, EltTy.bits .f32 = 32 ∨ (Rect.block (s := S4x2048x1024) S1x512x1024.size (cc1_transform_6 i) (hinb1_6 i)).WholeWords (EltTy.packing .f32)

variable [Facts₀]

def dot_S1024x1024_S3072x1024_S1024x3072_1_1_0_0_n_n : DotDims S1024x1024 S3072x1024 S1024x3072 where
  lhsContracting := [1]
  rhsContracting := [1]
  lhsNonContracting := [0]
  rhsNonContracting := [0]
  lhsBatch := []
  rhsBatch := []
  wf := dot_S1024x1024_S3072x1024_S1024x3072_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x512x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S4x2048x1 : Shape := ⟨3, ![4, 2048, 1]⟩
abbrev S3072x1024 : Shape := ⟨2, ![3072, 1024]⟩
abbrev S1024x1024 : Shape := ⟨2, ![1024, 1024]⟩
abbrev S1024 : Shape := ⟨1, ![1024]⟩
abbrev S4x2048x3072 : Shape := ⟨3, ![4, 2048, 3072]⟩
abbrev S4x2048x3x16x64 : Shape := ⟨5, ![4, 2048, 3, 16, 64]⟩
abbrev S3x4x16x2048x64 : Shape := ⟨5, ![3, 4, 16, 2048, 64]⟩
abbrev S1x4x16x2048x64 : Shape := ⟨5, ![1, 4, 16, 2048, 64]⟩
abbrev S4x16x2048x64 : Shape := ⟨4, ![4, 16, 2048, 64]⟩
abbrev S_ : Shape := ⟨0, ![]⟩
abbrev S4x16x2048x2048 : Shape := ⟨4, ![4, 16, 2048, 2048]⟩
abbrev S4x2048 : Shape := ⟨2, ![4, 2048]⟩
abbrev S4x1x1x2048 : Shape := ⟨4, ![4, 1, 1, 2048]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1, .f32⟩
  | .hbm, ⟨2, _⟩ => ⟨S3072x1024, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S4x2048x3x16x64, .f32⟩
  | .hbm, ⟨7, _⟩ => ⟨S3x4x16x2048x64, .f32⟩
  | .hbm, ⟨8, _⟩ => ⟨S1x4x16x2048x64, .f32⟩
  | .hbm, ⟨9, _⟩ => ⟨S4x16x2048x64, .f32⟩
  | .hbm, ⟨10, _⟩ => ⟨S1x4x16x2048x64, .f32⟩
  | .hbm, ⟨11, _⟩ => ⟨S4x16x2048x64, .f32⟩
  | .hbm, ⟨12, _⟩ => ⟨S1x4x16x2048x64, .f32⟩
  | .hbm, ⟨13, _⟩ => ⟨S4x16x2048x64, .f32⟩
  | .hbm, ⟨14, _⟩ => ⟨S_, .f32⟩
  | .hbm, ⟨15, _⟩ => ⟨S4x16x2048x64, .f32⟩
  | .hbm, ⟨16, _⟩ => ⟨S4x16x2048x64, .f32⟩
  | .hbm, ⟨17, _⟩ => ⟨S4x16x2048x2048, .f32⟩
  | .hbm, ⟨18, _⟩ => ⟨S4x2048, .f32⟩
  | .hbm, ⟨19, _⟩ => ⟨S4x1x1x2048, .f32⟩
  | .hbm, ⟨20, _⟩ => ⟨S_, .f32⟩
  | .hbm, ⟨21, _⟩ => ⟨S4x1x1x2048, .f32⟩
  | .hbm, ⟨22, _⟩ => ⟨S4x1x1x2048, .f32⟩
  | .hbm, ⟨23, _⟩ => ⟨S_, .f32⟩
  | .hbm, ⟨24, _⟩ => ⟨S4x1x1x2048, .f32⟩
  | .hbm, ⟨25, _⟩ => ⟨S4x1x1x2048, .f32⟩
  | .hbm, ⟨26, _⟩ => ⟨S4x16x2048x2048, .f32⟩
  | .hbm, ⟨27, _⟩ => ⟨S4x16x2048x2048, .f32⟩
  | .hbm, ⟨28, _⟩ => ⟨S_, .f32⟩
  | .hbm, ⟨29, _⟩ => ⟨S4x16x2048, .f32⟩
  | .hbm, ⟨30, _⟩ => ⟨S_, .f32⟩
  | .hbm, ⟨31, _⟩ => ⟨S4x16x2048, .f32⟩
  | .hbm, ⟨32, _⟩ => ⟨S4x16x2048, .f32⟩
  | .hbm, ⟨33, _⟩ => ⟨S4x16x2048x1, .f32⟩
  | .hbm, ⟨34, _⟩ => ⟨S4x16x2048x2048, .f32⟩
  | .hbm, ⟨35, _⟩ => ⟨S4x16x2048x2048, .f32⟩
  | .hbm, ⟨36, _⟩ => ⟨S4x16x2048x2048, .f32⟩
  | .hbm, ⟨37, _⟩ => ⟨S_, .f32⟩
  | .hbm, ⟨38, _⟩ => ⟨S4x16x2048, .f32⟩
  | .hbm, ⟨39, _⟩ => ⟨S4x16x2048x1, .f32⟩
  | .hbm, ⟨40, _⟩ => ⟨S4x16x2048x2048, .f32⟩
  | .hbm, ⟨41, _⟩ => ⟨S4x16x2048x2048, .f32⟩
  | .hbm, ⟨42, _⟩ => ⟨S4x16x2048x64, .f32⟩
  | .hbm, ⟨43, _⟩ => ⟨S4x2048x16x64, .f32⟩
  | .hbm, ⟨44, _⟩ => ⟨S4x2048x1024, .f32⟩
  | .hbm, ⟨45, _⟩ => ⟨S4x2048x1024, .f32⟩
  | .hbm, ⟨46, _⟩ => ⟨S1x1x1024, .f32⟩
  | .hbm, ⟨47, _⟩ => ⟨S4x2048x1024, .f32⟩
  | .hbm, ⟨48, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]

class Facts₀ : Prop where
  shapeCasts_S4x2048x3072_S4x2048x3x16x64 : S4x2048x3072.ShapeCasts S4x2048x3x16x64
  transposes_S4x2048x3x16x64_S3x4x16x2048x64_2_0_3_1_4 : S4x2048x3x16x64.Transposes [2, 0, 3, 1, 4] S3x4x16x2048x64
  slices_S3x4x16x2048x64_S1x4x16x2048x64_0_0_0_0_0 : S3x4x16x2048x64.Slices ![0, 0, 0, 0, 0] S1x4x16x2048x64
  shapeCasts_S1x4x16x2048x64_S4x16x2048x64 : S1x4x16x2048x64.ShapeCasts S4x16x2048x64
  slices_S3x4x16x2048x64_S1x4x16x2048x64_1_0_0_0_0 : S3x4x16x2048x64.Slices ![1, 0, 0, 0, 0] S1x4x16x2048x64
  slices_S3x4x16x2048x64_S1x4x16x2048x64_2_0_0_0_0 : S3x4x16x2048x64.Slices ![2, 0, 0, 0, 0] S1x4x16x2048x64
  bcast_S_S4x16x2048x64 : S_.BroadcastsInDim S4x16x2048x64 (![] : Fin 0 → Fin S4x16x2048x64.rank)
  shapeCasts_S4x2048x1_S4x2048 : S4x2048x1.ShapeCasts S4x2048
  bcast_S4x2048_S4x1x1x2048_0_3 : S4x2048.BroadcastsInDim S4x1x1x2048 (![0, 3] : Fin 2 → Fin S4x1x1x2048.rank)
  bcast_S_S4x1x1x2048 : S_.BroadcastsInDim S4x1x1x2048 (![] : Fin 0 → Fin S4x1x1x2048.rank)
  bcast_S4x1x1x2048_S4x16x2048x2048_0_1_2_3 : S4x1x1x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.K_R0.lean ====
/-
  The first pallas_call (the fused query/key/value projection), as the pipeline runs it on a grid of 8 row
  blocks: at point `t` the body multiplies the 1024 × 1024 block `t` of the flattened activations by the whole
  3072 × 1024 weight matrix, contracted over the channel axis, and stores the 1024 × 3072 product as block `t` of
  the result.  This module states what each window's staging buffer holds after the body at a point (the inputs
  their blocks, the output the product), proves the body's triple, and assembles the pipeline's proof data and its
  body obligation, all at an arbitrary valuation `V` of the buffers at the region's entry and at any float
  instance.
-/
import proofs.«414892_j56607668961917_3_alg».proof.Proof.Gen.Kernel.Launch
import proofs.«414892_j56607668961917_3_alg».proof.Proof.Gen.Kernel.Skeleton
import proofs.«414892_j56607668961917_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds block `t` at point `t`. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole matrix at every point, fetched at the first only. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body loads and stores through: each the whole staging buffer. -/
abbrev r0_0 : Rect S1024x1024 := Rect.unit (s := S1024x1024) ![0, 0] S1024x1024.size inb_S1024x1024_S1024x1024_0_0
abbrev r0_1 : Rect S3072x1024 := Rect.unit (s := S3072x1024) ![0, 0] S3072x1024.size inb_S3072x1024_S3072x1024_0_0
abbrev r0_2 : Rect S1024x3072 := Rect.unit (s := S1024x3072) ![0, 0] S1024x3072.size inb_S1024x3072_S1024x3072_0_0

/-- The output staging buffer after the body: its one store, of the product of the two loaded blocks. -/
def out0_2 (x0 : Vec F S1024x1024 .f32) (x1 : Vec F S3072x1024 .bf16) : Vec F S1024x3072 .bf16 :=
  View.canon [⟨r0_2, k0_pay1 (View.ld x0 r0_0) (View.ld x1 r0_1)⟩]

/-- The one store covers the buffer. -/
theorem cover0_2 (p0 : Vec F S1024x3072 .bf16) (y : S1024x3072.Idx) :
    ∃ pc ∈ ([⟨r0_2, p0⟩] : List (View.Piece (Elt F) S1024x3072 .bf16)), y ∈ pc.1.set :=
  View.cover_of_tiled [⟨r0_2, p0⟩] S1024x3072.size (by rfl) y

set_option maxHeartbeats 1000000 in
/-- The body on whole staging buffers: the inputs at `x0`, `x1` and the output at anything run to the inputs
    unchanged and the output at the product. -/
theorem sound_kernel0 (c : Dev nD) (E : Set ℕ) (i : grid0.Coords) (arg1 : Memref sig .tc .vmem S1024x1024 .f32) (harg1 : arg1.IsWhole)
    (arg2 : Memref sig .tc .vmem S3072x1024 .bf16) (harg2 : arg2.IsWhole) (arg3 : Memref sig .tc .vmem S1024x3072 .bf16) (harg3 : arg3.IsWhole)
    (x0 : Vec F S1024x1024 .f32) (x1 : Vec F S3072x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays at the entry contents; after the body each input's buffer at its
    block and the output's at the product of the two; the scoped rest and the generator register ride along;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K_Heads.lean ====
/-
  One attention head of the fused kernel as ONE function of the bias row, the head's 512 × 64 query block and its
  2048 × 64 key and value blocks: scale the queries by ⅛, multiply by the keys (contracting the 64 lanes), add the
  bias row to every query row, take the row-wise softmax (maximum subtracted, quotient by the sum of exponentials),
  multiply by the values.  The kernel's body computes the sixteen heads by sixteen copies of this text, some of them
  cut in the middle by the printed text's division into parts (the values computed before the cut handed on); each
  copy is this function.
-/
import proofs.«414892_j56607668961917_3_alg».proof.Proof.Gen.Kernel.Skeleton

noncomputable section

namespace Cert.Kernel.Hand

open Cert.Kernel Cert.Kernel.Gen
open Idealize.ShloMosaic

variable {F : FTy → Type} [FloatOps F]

/-- The bias row from the window weights: `m · 100 − 100`. -/
abbrev biasRow (m : Vec F S1x1x2048 .f32) : FVec F S1x2048 .f32 := k1_pay3 m

/-- One head's output block. -/
abbrev headOut (b : FVec F S1x2048 .f32) (q : Vec F S1x512x64 .bf16) (k v : Vec F S1x2048x64 .bf16) : FVec F S512x64 .bf16 :=
  k1_pay5 b q k v

variable (m : Vec F S1x1x2048 .f32) (b : FVec F S1x2048 .f32) (q : Vec F S1x512x64 .bf16) (k v : Vec F S1x2048x64 .bf16)

/-- The first head computes its own bias row. -/
theorem head_0 : k1_pay4 m q k v = headOut (biasRow m) q k v := rfl

/-- The heads printed whole. -/
theorem head_4 : k1_pay14 b q k v = headOut b q k v := rfl
theorem head_5 : k1_pay15 b q k v = headOut b q k v := rfl
theorem head_8 : k1_pay24 b q k v = headOut b q k v := rfl
theorem head_9 : k1_pay25 b q k v = headOut b q k v := rfl
theorem head_12 : k1_pay34 b q k v = headOut b q k v := rfl
theorem head_13 : k1_pay35 b q k v = headOut b q k v := rfl

/-- The heads cut after the loads: the reshaped keys and values, the widened queries and the scale are handed on. -/
theorem head_2 : k1_pay9 b (k1_pay6 k) (k1_pay7 v) (k1_pay8 q) (FloatOps.ofBits .f32 0x3E000000#32) = headOut b q k v := rfl
theorem head_6 : k1_pay19 b (k1_pay16 k) (k1_pay17 v) (k1_pay18 q) (FloatOps.ofBits .f32 0x3E000000#32) = headOut b q k v := rfl
theorem head_10 : k1_pay29 b (k1_pay26 k) (k1_pay27 v) (k1_pay28 q) (FloatOps.ofBits .f32 0x3E000000#32) = headOut b q k v := rfl
theorem head_14 : k1_pay39 b (k1_pay36 k) (k1_pay37 v) (k1_pay38 q) (FloatOps.ofBits .f32 0x3E000000#32) = headOut b q k v := rfl

/-- The heads cut after the sum of exponentials: the reshaped values, the exponentials and their row sums are handed on. -/
theorem head_3 : k1_pay13 (k1_pay10 v) (k1_pay11 b q k) (k1_pay12 b q k) = headOut b q k v := rfl
theorem head_7 : k1_pay23 (k1_pay20 v) (k1_pay21 b q k) (k1_pay22 b q k) = headOut b q k v := rfl
theorem head_11 : k1_pay33 (k1_pay30 v) (k1_pay31 b q k) (k1_pay32 b q k) = headOut b q k v := rfl
theorem head_15 : k1_pay1 (k1_pay40 v) (k1_pay41 b q k) (k1_pay42 b q k) = headOut b q k v := rfl

end Cert.Kernel.Hand

end
-- ==== Proof.K_R1Run.lean ====
/-
  The second pallas_call's body (sixteen attention heads and the output projection on one 512-row query tile), run
  once at symbolic operands: from the six input staging buffers held whole at their contents, the output buffer and
  the scratch slab at anything, the body runs to its return with the inputs as they were and the stores it made into
  the output buffer and the slab listed (last first).  The lists are found by the run.
-/
import proofs.«414892_j56607668961917_3_alg».proof.Proof.Gen.Kernel.Launch
import proofs.«414892_j56607668961917_3_alg».proof.Proof.Gen.Kernel.Skeleton
import proofs.«414892_j56607668961917_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the output buffer (`L6`) and into the scratch slab (`LS`), with the body's triple. -/
noncomputable def kernelRun1 (c : Dev nD) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x1x2048 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .bf16) (harg9 : arg9.IsWhole)
    (x0 : Vec F S1x512x1024 .bf16) (x1 : Vec F S1x2048x1024 .bf16) (x2 : Vec F S1x2048x1024 .bf16) (x3 : Vec F S1x1x2048 .f32) (x4 : Vec F S1024x1024 .bf16) (x5 : Vec F S1x1024 .f32) :
    Σ' (L6 : List (View.Piece (Elt F) S1x512x1024 .f32)), { LS : List (View.Piece (Elt F) S512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS)) -∗ K ⟨⟩))
          ⊢ wp frame (wpE (defs₀ (F := F)) Variants.none c none) E (cc1__fused_attn_kernel i arg2 harg2 arg3 harg3 arg4 harg4 arg5 harg5 arg6 harg6 arg7 harg7 arg8 harg8 arg9 harg9) K } := by
  refine ⟨?_, ?_, fun E K => ?run⟩
  case run =>
    simp only [cc1__fused_attn_kernel_eq_skeleton]; unfold cc1__fused_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    iexists _; iexact HS

end Cert.Kernel.Hand

end
-- ==== Proof.K_R1.lean ====
/-
  The second pallas_call (sixteen attention heads and the output projection), as the pipeline runs it on a grid of
  4 batches × 4 query tiles: at a point the body reads the tile's 512 query rows, the batch's 2048 key and value rows
  (three column blocks of ONE array, the fused projection), the batch's window weights, the output projection and
  its bias; for each head it writes the head's 512 × 64 output into its 64 columns of a 512 × 1024 slab, reads the
  slab back whole, projects it and adds the bias.  This module names what the output staging buffer holds after the
  body (`out1_6`) through the one-head function `headOut`, proves the body's triple in that form from the run of
  the body, and assembles the pipeline's proof data and its body obligation at an arbitrary valuation of the
  buffers at the region's entry and at any float instance.  The three windows on the fused projection hold a half,
  a quarter and a quarter of its share.
-/
import proofs.«414892_j56607668961917_3_alg».proof.Proof.Gen.Kernel.Launch
import proofs.«414892_j56607668961917_3_alg».proof.Proof.Gen.Kernel.Skeleton
import proofs.«414892_j56607668961917_3_alg».proof.Proof.Gen.Kernel.Points
import proofs.«414892_j56607668961917_3_alg».proof.Proof.K_Heads
import proofs.«414892_j56607668961917_3_alg».proof.Proof.K_R1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through -/

abbrev r1_3 : Rect S1x1x2048 := Rect.unit (s := S1x1x2048) ![0, 0, 0] S1x1x2048.size inb_S1x1x2048_S1x1x2048_0_0_0
abbrev r1_4 : Rect S1024x1024 := Rect.unit (s := S1024x1024) ![0, 0] S1024x1024.size inb_S1024x1024_S1024x1024_0_0
abbrev r1_5 : Rect S1x1024 := Rect.unit (s := S1x1024) ![0, 0] S1x1024.size inb_S1x1024_S1x1024_0_0
abbrev r1_6 : Rect S1x512x1024 := Rect.unit (s := S1x512x1024) ![0, 0, 0] S1x512x1024.size inb_S1x512x1024_S1x512x1024_0_0_0
abbrev rSw : Rect S512x1024 := Rect.unit (s := S512x1024) ![0, 0] S512x1024.size inb_S512x1024_S512x1024_0_0
abbrev rQ0 : Rect S1x512x1024 := Rect.unit (s := S1x512x1024) ![0, 0, 0] S1x512x64.size inb_S1x512x1024_S1x512x64_0_0_0
abbrev rK0 : Rect S1x2048x1024 := Rect.unit (s := S1x2048x1024) ![0, 0, 0] S1x2048x64.size inb_S1x2048x1024_S1x2048x64_0_0_0
abbrev rS0 : Rect S512x1024 := Rect.unit (s := S512x1024) ![0, 0] S512x64.size inb_S512x1024_S512x64_0_0
abbrev rQ1 : Rect S1x512x1024 := Rect.unit (s := S1x512x1024) ![0, 0, 64] S1x512x64.size inb_S1x512x1024_S1x512x64_0_0_64
abbrev rK1 : Rect S1x2048x1024 := Rect.unit (s := S1x2048x1024) ![0, 0, 64] S1x2048x64.size inb_S1x2048x1024_S1x2048x64_0_0_64
abbrev rS1 : Rect S512x1024 := Rect.unit (s := S512x1024) ![0, 64] S512x64.size inb_S512x1024_S512x64_0_64
abbrev rQ2 : Rect S1x512x1024 := Rect.unit (s := S1x512x1024) ![0, 0, 128] S1x512x64.size inb_S1x512x1024_S1x512x64_0_0_128
abbrev rK2 : Rect S1x2048x1024 := Rect.unit (s := S1x2048x1024) ![0, 0, 128] S1x2048x64.size inb_S1x2048x1024_S1x2048x64_0_0_128
abbrev rS2 : Rect S512x1024 := Rect.unit (s := S512x1024) ![0, 128] S512x64.size inb_S512x1024_S512x64_0_128
abbrev rQ3 : Rect S1x512x1024 := Rect.unit (s := S1x512x1024) ![0, 0, 192] S1x512x64.size inb_S1x512x1024_S1x512x64_0_0_192
abbrev rK3 : Rect S1x2048x1024 := Rect.unit (s := S1x2048x1024) ![0, 0, 192] S1x2048x64.size inb_S1x2048x1024_S1x2048x64_0_0_192
abbrev rS3 : Rect S512x1024 := Rect.unit (s := S512x1024) ![0, 192] S512x64.size inb_S512x1024_S512x64_0_192
abbrev rQ4 : Rect S1x512x1024 := Rect.unit (s := S1x512x1024) ![0, 0, 256] S1x512x64.size inb_S1x512x1024_S1x512x64_0_0_256
abbrev rK4 : Rect S1x2048x1024 := Rect.unit (s := S1x2048x1024) ![0, 0, 256] S1x2048x64.size inb_S1x2048x1024_S1x2048x64_0_0_256
abbrev rS4 : Rect S512x1024 := Rect.unit (s := S512x1024) ![0, 256] S512x64.size inb_S512x1024_S512x64_0_256
abbrev rQ5 : Rect S1x512x1024 := Rect.unit (s := S1x512x1024) ![0, 0, 320] S1x512x64.size inb_S1x512x1024_S1x512x64_0_0_320
abbrev rK5 : Rect S1x2048x1024 := Rect.unit (s := S1x2048x1024) ![0, 0, 320] S1x2048x64.size inb_S1x2048x1024_S1x2048x64_0_0_320
abbrev rS5 : Rect S512x1024 := Rect.unit (s := S512x1024) ![0, 320] S512x64.size inb_S512x1024_S512x64_0_320
abbrev rQ6 : Rect S1x512x1024 := Rect.unit (s := S1x512x1024) ![0, 0, 384] S1x512x64.size inb_S1x512x1024_S1x512x64_0_0_384
abbrev rK6 : Rect S1x2048x1024 := Rect.unit (s := S1x2048x1024) ![0, 0, 384] S1x2048x64.size inb_S1x2048x1024_S1x2048x64_0_0_384
abbrev rS6 : Rect S512x1024 := Rect.unit (s := S512x1024) ![0, 384] S512x64.size inb_S512x1024_S512x64_0_384
abbrev rQ7 : Rect S1x512x1024 := Rect.unit (s := S1x512x1024) ![0, 0, 448] S1x512x64.size inb_S1x512x1024_S1x512x64_0_0_448
abbrev rK7 : Rect S1x2048x1024 := Rect.unit (s := S1x2048x1024) ![0, 0, 448] S1x2048x64.size inb_S1x2048x1024_S1x2048x64_0_0_448
abbrev rS7 : Rect S512x1024 := Rect.unit (s := S512x1024) ![0, 448] S512x64.size inb_S512x1024_S512x64_0_448
abbrev rQ8 : Rect S1x512x1024 := Rect.unit (s := S1x512x1024) ![0, 0, 512] S1x512x64.size inb_S1x512x1024_S1x512x64_0_0_512
abbrev rK8 : Rect S1x2048x1024 := Rect.unit (s := S1x2048x1024) ![0, 0, 512] S1x2048x64.size inb_S1x2048x1024_S1x2048x64_0_0_512
abbrev rS8 : Rect S512x1024 := Rect.unit (s := S512x1024) ![0, 512] S512x64.size inb_S512x1024_S512x64_0_512
abbrev rQ9 : Rect S1x512x1024 := Rect.unit (s := S1x512x1024) ![0, 0, 576] S1x512x64.size inb_S1x512x1024_S1x512x64_0_0_576
abbrev rK9 : Rect S1x2048x1024 := Rect.unit (s := S1x2048x1024) ![0, 0, 576] S1x2048x64.size inb_S1x2048x1024_S1x2048x64_0_0_576
abbrev rS9 : Rect S512x1024 := Rect.unit (s := S512x1024) ![0, 576] S512x64.size inb_S512x1024_S512x64_0_576
abbrev rQ10 : Rect S1x512x1024 := Rect.unit (s := S1x512x1024) ![0, 0, 640] S1x512x64.size inb_S1x512x1024_S1x512x64_0_0_640
abbrev rK10 : Rect S1x2048x1024 := Rect.unit (s := S1x2048x1024) ![0, 0, 640] S1x2048x64.size inb_S1x2048x1024_S1x2048x64_0_0_640
abbrev rS10 : Rect S512x1024 := Rect.unit (s := S512x1024) ![0, 640] S512x64.size inb_S512x1024_S512x64_0_640
abbrev rQ11 : Rect S1x512x1024 := Rect.unit (s := S1x512x1024) ![0, 0, 704] S1x512x64.size inb_S1x512x1024_S1x512x64_0_0_704
abbrev rK11 : Rect S1x2048x1024 := Rect.unit (s := S1x2048x1024) ![0, 0, 704] S1x2048x64.size inb_S1x2048x1024_S1x2048x64_0_0_704
abbrev rS11 : Rect S512x1024 := Rect.unit (s := S512x1024) ![0, 704] S512x64.size inb_S512x1024_S512x64_0_704
abbrev rQ12 : Rect S1x512x1024 := Rect.unit (s := S1x512x1024) ![0, 0, 768] S1x512x64.size inb_S1x512x1024_S1x512x64_0_0_768
abbrev rK12 : Rect S1x2048x1024 := Rect.unit (s := S1x2048x1024) ![0, 0, 768] S1x2048x64.size inb_S1x2048x1024_S1x2048x64_0_0_768
abbrev rS12 : Rect S512x1024 := Rect.unit (s := S512x1024) ![0, 768] S512x64.size inb_S512x1024_S512x64_0_768
abbrev rQ13 : Rect S1x512x1024 := Rect.unit (s := S1x512x1024) ![0, 0, 832] S1x512x64.size inb_S1x512x1024_S1x512x64_0_0_832
abbrev rK13 : Rect S1x2048x1024 := Rect.unit (s := S1x2048x1024) ![0, 0, 832] S1x2048x64.size inb_S1x2048x1024_S1x2048x64_0_0_832
abbrev rS13 : Rect S512x1024 := Rect.unit (s := S512x1024) ![0, 832] S512x64.size inb_S512x1024_S512x64_0_832
abbrev rQ14 : Rect S1x512x1024 := Rect.unit (s := S1x512x1024) ![0, 0, 896] S1x512x64.size inb_S1x512x1024_S1x512x64_0_0_896
abbrev rK14 : Rect S1x2048x1024 := Rect.unit (s := S1x2048x1024) ![0, 0, 896] S1x2048x64.size inb_S1x2048x1024_S1x2048x64_0_0_896
abbrev rS14 : Rect S512x1024 := Rect.unit (s := S512x1024) ![0, 896] S512x64.size inb_S512x1024_S512x64_0_896
abbrev rQ15 : Rect S1x512x1024 := Rect.unit (s := S1x512x1024) ![0, 0, 960] S1x512x64.size inb_S1x512x1024_S1x512x64_0_0_960
abbrev rK15 : Rect S1x2048x1024 := Rect.unit (s := S1x2048x1024) ![0, 0, 960] S1x2048x64.size inb_S1x2048x1024_S1x2048x64_0_0_960
abbrev rS15 : Rect S512x1024 := Rect.unit (s := S512x1024) ![0, 960] S512x64.size inb_S512x1024_S512x64_0_960

/-! ## What the body leaves -/

/-- The slab's sixteen stores, last first: head `h`'s output in columns `64 h … 64 h + 63`. -/
def slabPieces (x0 : Vec F S1x512x1024 .bf16) (x1 : Vec F S1x2048x1024 .bf16) (x2 : Vec F S1x2048x1024 .bf16) (x3 : Vec F S1x1x2048 .f32) : List (View.Piece (Elt F) S512x1024 .bf16) :=
  [
    ⟨rS15, headOut (biasRow (View.ld x3 r1_3)) (View.ld x0 rQ15) (View.ld x1 rK15) (View.ld x2 rK15)⟩,
    ⟨rS14, headOut (biasRow (View.ld x3 r1_3)) (View.ld x0 rQ14) (View.ld x1 rK14) (View.ld x2 rK14)⟩,
    ⟨rS13, headOut (biasRow (View.ld x3 r1_3)) (View.ld x0 rQ13) (View.ld x1 rK13) (View.ld x2 rK13)⟩,
    ⟨rS12, headOut (biasRow (View.ld x3 r1_3)) (View.ld x0 rQ12) (View.ld x1 rK12) (View.ld x2 rK12)⟩,
    ⟨rS11, headOut (biasRow (View.ld x3 r1_3)) (View.ld x0 rQ11) (View.ld x1 rK11) (View.ld x2 rK11)⟩,
    ⟨rS10, headOut (biasRow (View.ld x3 r1_3)) (View.ld x0 rQ10) (View.ld x1 rK10) (View.ld x2 rK10)⟩,
    ⟨rS9, headOut (biasRow (View.ld x3 r1_3)) (View.ld x0 rQ9) (View.ld x1 rK9) (View.ld x2 rK9)⟩,
    ⟨rS8, headOut (biasRow (View.ld x3 r1_3)) (View.ld x0 rQ8) (View.ld x1 rK8) (View.ld x2 rK8)⟩,
    ⟨rS7, headOut (biasRow (View.ld x3 r1_3)) (View.ld x0 rQ7) (View.ld x1 rK7) (View.ld x2 rK7)⟩,
    ⟨rS6, headOut (biasRow (View.ld x3 r1_3)) (View.ld x0 rQ6) (View.ld x1 rK6) (View.ld x2 rK6)⟩,
    ⟨rS5, headOut (biasRow (View.ld x3 r1_3)) (View.ld x0 rQ5) (View.ld x1 rK5) (View.ld x2 rK5)⟩,
    ⟨rS4, headOut (biasRow (View.ld x3 r1_3)) (View.ld x0 rQ4) (View.ld x1 rK4) (View.ld x2 rK4)⟩,
    ⟨rS3, headOut (biasRow (View.ld x3 r1_3)) (View.ld x0 rQ3) (View.ld x1 rK3) (View.ld x2 rK3)⟩,
    ⟨rS2, headOut (biasRow (View.ld x3 r1_3)) (View.ld x0 rQ2) (View.ld x1 rK2) (View.ld x2 rK2)⟩,
    ⟨rS1, headOut (biasRow (View.ld x3 r1_3)) (View.ld x0 rQ1) (View.ld x1 rK1) (View.ld x2 rK1)⟩,
    ⟨rS0, headOut (biasRow (View.ld x3 r1_3)) (View.ld x0 rQ0) (View.ld x1 rK0) (View.ld x2 rK0)⟩ ]

/-- The slab after the sixteen stores. -/
def slab (x0 : Vec F S1x512x1024 .bf16) (x1 : Vec F S1x2048x1024 .bf16) (x2 : Vec F S1x2048x1024 .bf16) (x3 : Vec F S1x1x2048 .f32) : Vec F S512x1024 .bf16 := View.canon (slabPieces x0 x1 x2 x3)

/-- The output staging buffer after the body: its one store, of the projected slab plus the bias. -/
def out1_6 (x0 : Vec F S1x512x1024 .bf16) (x1 : Vec F S1x2048x1024 .bf16) (x2 : Vec F S1x2048x1024 .bf16) (x3 : Vec F S1x1x2048 .f32) (x4 : Vec F S1024x1024 .bf16) (x5 : Vec F S1x1024 .f32) : Vec F S1x512x1024 .f32 :=
  View.canon [⟨r1_6, k1_pay2 (View.ld (slab x0 x1 x2 x3) rSw) (View.ld x4 r1_4) (View.ld x5 r1_5)⟩]

/-- The one store covers the buffer. -/
theorem cover1_6 (p0 : Vec F S1x512x1024 .f32) (y : S1x512x1024.Idx) :
    ∃ pc ∈ ([⟨r1_6, p0⟩] : List (View.Piece (Elt F) S1x512x1024 .f32)), y ∈ pc.1.set :=
  View.cover_of_tiled [⟨r1_6, p0⟩] S1x512x1024.size (by rfl) y

/-- The pieces the run found for the output buffer are that store. -/
theorem L6_eq (c : Dev nD) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x1x2048 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .bf16) (harg9 : arg9.IsWhole) (x0 : Vec F S1x512x1024 .bf16) (x1 : Vec F S1x2048x1024 .bf16) (x2 : Vec F S1x2048x1024 .bf16) (x3 : Vec F S1x1x2048 .f32) (x4 : Vec F S1024x1024 .bf16) (x5 : Vec F S1x1024 .f32) :
    (kernelRun1 c i arg2 harg2 arg3 harg3 arg4 harg4 arg5 harg5 arg6 harg6 arg7 harg7 arg8 harg8 arg9 harg9 x0 x1 x2 x3 x4 x5).1
      = [⟨r1_6, k1_pay2 (View.ld (slab x0 x1 x2 x3) rSw) (View.ld x4 r1_4) (View.ld x5 r1_5)⟩] := by
  unfold kernelRun1
  dsimp only
  sl_unfold_run_names
  rw [View.readCov_eq_canon']
  simp only [View.readAt_eq_ld, Memref.IsWhole.read_unread, head_0, head_2, head_3, head_4, head_5, head_6, head_7, head_8, head_9,
    head_10, head_11, head_12, head_13, head_14, head_15]
  rfl

set_option maxHeartbeats 1000000 in
/-- The body on whole staging buffers: the six inputs at their contents, the output and the slab at anything, run to
    the inputs unchanged, the output at `out1_6` of the inputs and the slab at something. -/
theorem sound_kernel1 (c : Dev nD) (E : Set ℕ) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x1x2048 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .bf16) (harg9 : arg9.IsWhole) (x0 : Vec F S1x512x1024 .bf16) (x1 : Vec F S1x2048x1024 .bf16) (x2 : Vec F S1x2048x1024 .bf16) (x3 : Vec F S1x1x2048 .f32) (x4 : Vec F S1024x1024 .bf16) (x5 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 x0 x1 x2 x3 x4 x5) ∗ (∃ d, owns (c : Thread nD τ) arg9 fullShare d)) -∗ K ⟨⟩))
      ⊢ wp frame (wpE (defs₀ (F := F)) Variants.none c none) E (cc1__fused_attn_kernel i arg2 harg2 arg3 harg3 arg4 harg4 arg5 harg5 arg6 harg6 arg7 harg7 arg8 harg8 arg9 harg9) K := by
  have hrun := (kernelRun1 c i arg2 harg2 arg3 harg3 arg4 harg4 arg5 harg5 arg6 harg6 arg7 harg7 arg8 harg8 arg9 harg9 x0 x1 x2 x3 x4 x5).2.2 E K
  refine BIBase.Entails.trans ?_ hrun
  iintro ⟨H0, H1, H2, H3, H4, H5, H6, HS, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, ⟨%f6, H6⟩, ⟨%fs, HS⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns
    iexists _; isplitr
    swap; · iexact H6
    ipureintro
    rw [L6_eq]
    exact View.read_writes_eq_canon _ _ _ (cover1_6 _)
  iexists _
  unfold owns
  iexists _; isplitr
  swap; · iexact HS
  ipureintro; rfl

section Region1

variable (V : (c : Dev nD) → (b : Ref sig .tc) → Buf (Elt F) ((c : Thread nD τ).loc b))

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The pipeline's proof data on core `c`: the arrays at the entry contents; after the body each input's buffer at its
    block and the output's at `out1_6` of the six; the scoped rest (the slab among it) and the generator register
    ride along; nothing owed; the fused projection's share dealt among its three windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- The slab is a whole scoped buffer of the kernel's own. -/
abbrev scM1 : Memref sig .tc .vmem S512x1024 .bf16 := Memref.whole cc1_scratch0

/-- The invariant with the slab as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1 fullShare d)) ∗ (∃ r, prngReg c r)) := by
  unfold Pipeline.ΦA; rw [scopedRest1_eq]; simp only [scM1, owns_whole]; try rfl

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5, after1_6, PhiA1_eq]
  iintro ⟨⟨⟨Ha, Hb, Hc, Hd, He, HS⟩, Hp⟩, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, H6, HS⟩
  isplitl [Ha Hb Hc Hd He HS Hp]
  · isplitr [Hp]
    · isplitl [Ha]; · iexact Ha
      isplitl [Hb]; · iexact Hb
      isplitl [Hc]; · iexact Hc
      isplitl [Hd]; · iexact Hd
      isplitl [He]; · iexact He
      iexact HS
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K_Launch.lean ====
/-
  The whole program's run: @main is four stretches — the host operations that cast the two weight matrices and
  flatten the activations, the first pallas_call, the host operations that reshape its result and lay out the window
  weights and the bias, the second pallas_call.  The contents of every unscoped buffer at each boundary are named
  (a stretch of host operations applies them; a pallas_call changes its one result array, to what its write-backs
  leave), each pallas_call is entered from and left at those contents, and every weakly fair execution ends with each
  unscoped buffer at the last boundary's contents.  The second pallas_call reads the fused projection through three
  windows: its points-to is split in a half and two quarters on entry and joined again on exit.
-/
import proofs.«414892_j56607668961917_3_alg».proof.Proof.Gen.Kernel.Launch
import proofs.«414892_j56607668961917_3_alg».proof.Proof.Gen.Kernel.Skeleton
import proofs.«414892_j56607668961917_3_alg».proof.Proof.Gen.Kernel.Points
import proofs.«414892_j56607668961917_3_alg».proof.Proof.Gen.Kernel.Regions
import proofs.«414892_j56607668961917_3_alg».proof.Proof.K_R0
import proofs.«414892_j56607668961917_3_alg».proof.Proof.K_R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents at each boundary -/

/-- At launch. -/
abbrev Wt0 : Dev nD → Valuation τ sig (Elt F) := fun c b => m (c, b)
/-- After the first host stretch (the first pallas_call's entry). -/
abbrev Wt1 : Dev nD → Valuation τ sig (Elt F) := fun c => StableHlo.after hostOps0 (Wt0 m c)
abbrev Vt1 : (c : Dev nD) → (b : Ref sig .tc) → Buf (Elt F) ((c : Thread nD τ).loc b) := fun c b => Wt1 m c b
/-- After the first pallas_call: its result array at what the write-backs leave. -/
def Wt2 (c : Dev nD) : Valuation τ sig (Elt F) :=
  Function.update (Wt1 m c) main_v3 ((dat0 (Vt1 m) c).arrAt 2 cfg0.N)
abbrev Vt2 : (c : Dev nD) → (b : Ref sig .tc) → Buf (Elt F) ((c : Thread nD τ).loc b) := fun c b => Wt2 m c b
/-- After the second host stretch (the second pallas_call's entry). -/
abbrev Wt3 : Dev nD → Valuation τ sig (Elt F) := fun c => StableHlo.after hostOps1 (Wt2 m c)
abbrev Vt3 : (c : Dev nD) → (b : Ref sig .tc) → Buf (Elt F) ((c : Thread nD τ).loc b) := fun c b => Wt3 m c b
/-- After the second pallas_call. -/
def Wt4 (c : Dev nD) : Valuation τ sig (Elt F) :=
  Function.update (Wt3 m c) main_v8 ((dat1 (Vt3 m) c).arrAt 6 cfg1.N)
abbrev Vt4 : (c : Dev nD) → (b : Ref sig .tc) → Buf (Elt F) ((c : Thread nD τ).loc b) := fun c b => Wt4 m c b

theorem Wt2_res (c : Dev nD) : Wt2 m c main_v3 = (dat0 (Vt1 m) c).arrAt 2 cfg0.N := by
  unfold Wt2; exact Function.update_self _ _ _
theorem Wt2_of_ne (c : Dev nD) (r : Ref sig .tc) (h : r ≠ main_v3) : Wt2 m c r = Wt1 m c r := by
  unfold Wt2; exact Function.update_of_ne (StableHlo.devRef_ne_of_ne h) _ _
theorem Wt4_res (c : Dev nD) : Wt4 m c main_v8 = (dat1 (Vt3 m) c).arrAt 6 cfg1.N := by
  unfold Wt4; exact Function.update_self _ _ _
theorem Wt4_of_ne (c : Dev nD) (r : Ref sig .tc) (h : r ≠ main_v8) : Wt4 m c r = Wt3 m c r := by
  unfold Wt4; exact Function.update_of_ne (StableHlo.devRef_ne_of_ne h) _ _
theorem Wt1_of (c : Dev nD) (r : Ref sig .tc) (h : r ∉ hostOps0_W) : Wt1 m c r = Wt0 m c r :=
  StableHlo.after_of_writes_sub hostOps0 _ hostOps0_writes h
theorem Wt3_of (c : Dev nD) (r : Ref sig .tc) (h : r ∉ hostOps1_W) : Wt3 m c r = Wt2 m c r :=
  StableHlo.after_of_writes_sub hostOps1 _ hostOps1_writes h

/-- An argument array reaches the end as launched: no host stretch writes it and no pallas_call's result is one. -/
theorem Wt4_arg (c : Dev nD) (r : Ref sig .tc) (h8 : r ≠ main_v8) (h1 : r ∉ hostOps1_W) (h3 : r ≠ main_v3) (h0 : r ∉ hostOps0_W) :
    Wt4 m c r = m ((c : Thread nD τ).loc r) :=
  (Wt4_of_ne m c r h8).trans <| (Wt3_of m c r h1).trans <| (Wt2_of_ne m c r h3).trans <| (Wt1_of m c r h0).trans rfl

/-! ## The proof data family and what rides along -/

def pdats : (p : Fin 2) → (c : Dev nD) → Dat τ (Elt F) Unit ℕ (UR sig nD τ) ℕ (Pipeline.pin (pcfgs (F := F)) adm p) c
  | ⟨0, _⟩ => fun c => dat0 (Vt1 m) c
  | ⟨1, _⟩ => fun c => dat1 (Vt3 m) c
abbrev 𝒱₀ : Variants := Variants.none
abbrev Lz : GSem nD τ sig → Finset Unit := fun _ => ∅
abbrev lvz : GSem nD τ sig → Unit → ℕ := fun _ _ => 0
/-- The generator register at some state and nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (Wt4 m c) ∗ ∃ r, prngReg c r)

/-! ## The second pallas_call's arrays: five buffers, seven windows -/

/-- The distinct buffers behind the seven windows. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4) ↦{fullShare} V main_v4) ∗ (((c : Thread nD τ).loc main_v6) ↦{fullShare} V main_v6)
          ∗ (((c : Thread nD τ).loc main_v1) ↦{fullShare} V main_v1) ∗ (((c : Thread nD τ).loc main_v7) ↦{fullShare} V main_v7)
          ∗ (((c : Thread nD τ).loc main_v8) ↦{fullShare} V main_v8)) := by
  unfold Pipeline.arrBufs
  exact bigSep_eq_bigSepL_of_eq [main_v4, main_v6, main_v1, main_v7, main_v8] (by decide) (by decide) _

/-- The share each window holds its array at. -/
theorem share1 (c : Dev nD) (V : (c : Dev nD) → (b : Ref sig .tc) → Buf (Elt F) ((c : Thread nD τ).loc b)) :
    (dat1 V c).share 0 = fullShare.left ∧ (dat1 V c).share 1 = fullShare.right.left ∧ (dat1 V c).share 2 = fullShare.right.right
      ∧ (dat1 V c).share 3 = fullShare ∧ (dat1 V c).share 4 = fullShare ∧ (dat1 V c).share 5 = fullShare ∧ (dat1 V c).share 6 = fullShare := by
  unfold Dat.share
  refine ⟨?_, ?_, ?_, ?_, ?_, ?_, ?_⟩
  · rw [if_neg (by decide)]; dsimp only [dat1]
  · rw [if_neg (by decide)]; dsimp only [dat1]
  · rw [if_neg (by decide)]; dsimp only [dat1]
  · rw [if_neg (by decide)]; dsimp only [dat1]
  · rw [if_neg (by decide)]; dsimp only [dat1]
  · rw [if_neg (by decide)]; dsimp only [dat1]
  · rw [if_pos (by decide)]

/-- The seven windows' points-tos, one by one: the fused projection three times, at a half and two quarters. -/
theorem arrays1_eq (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = iprop((((c : Thread nD τ).loc main_v4) ↦{fullShare.left} G 0) ∗ (((c : Thread nD τ).loc main_v4) ↦{fullShare.right.left} G 1)
          ∗ (((c : Thread nD τ).loc main_v4) ↦{fullShare.right.right} G 2) ∗ (((c : Thread nD τ).loc main_v6) ↦{fullShare} G 3)
          ∗ (((c : Thread nD τ).loc main_v1) ↦{fullShare} G 4) ∗ (((c : Thread nD τ).loc main_v7) ↦{fullShare} G 5)
          ∗ (((c : Thread nD τ).loc main_v8) ↦{fullShare} G 6)) := by
  unfold Dat.arrays
  rw [bigSep_W1]
  obtain ⟨h0, h1, h2, h3, h4, h5, h6⟩ := share1 c V
  rw [h0, h1, h2, h3, h4, h5, h6, (arr_whole1 0).set_eq_univ, (arr_whole1 3).set_eq_univ, (arr_whole1 4).set_eq_univ,
    (arr_whole1 5).set_eq_univ, (arr_whole1 6).set_eq_univ]

/-- All unscoped buffers at a valuation: the five buffers behind the second pallas_call's windows and the rest. -/
theorem held_eq1 (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec1 c (fun b => W b)
          ∗ Pipeline.unscopedRest (Ix := Unit) (Name := ℕ) (U := UR sig nD τ) (Lvl := ℕ) spec1 c (fun b => W b)) :=
  (Pipeline.unscopedBufs_held c W).symm.trans (Pipeline.unscopedBufs_split₀ cfgs 1 winFacts₀1.arr_unscoped c _)

/-- ENTRY of the second pallas_call: its arrays out of the unscoped buffers, the fused projection's points-to split. -/
theorem entry1 (c : Dev nD) :
    (StableHlo.held (c : Thread nD τ) (Pipeline.ucRefs τ sig) (Wt3 m c) : sProp 𝕄)
      ⊢ iprop((dat1 (Vt3 m) c).arrays ((dat1 (Vt3 m) c).arrAt · 0)
          ∗ Pipeline.unscopedRest (Ix := Unit) (Name := ℕ) (U := UR sig nD τ) (Lvl := ℕ) spec1 c (Vt3 m c)) := by
  rw [held_eq1, arrBufs1_eq, arrays1_eq]
  iintro ⟨⟨H4, H6, H1, H7, H8⟩, Hr⟩
  ihave Hq := (pointsTo_share (PosShare.mem_left_op_right fullShare)).1 $$ H4
  icases Hq with ⟨H4a, H4r⟩
  ihave Hqr := (pointsTo_share (PosShare.mem_left_op_right fullShare.right)).1 $$ H4r
  icases Hqr with ⟨H4b, H4c⟩
  isplitr [Hr]
  · isplitl [H4a]; · iexact H4a
    isplitl [H4b]; · iexact H4b
    isplitl [H4c]; · iexact H4c
    isplitl [H6]; · iexact H6
    isplitl [H1]; · iexact H1
    isplitl [H7]; · iexact H7
    iexact H8
  iexact Hr

/-- EXIT of the second pallas_call: its arrays at what the write-backs leave (the inputs as entered, the result at
    its final contents) and the rest are all unscoped buffers at the next boundary's contents. -/
theorem exit1 (c : Dev nD) :
    iprop((dat1 (Vt3 m) c).arrays ((dat1 (Vt3 m) c).arrAt · cfg1.N)
        ∗ Pipeline.unscopedRest (Ix := Unit) (Name := ℕ) (U := UR sig nD τ) (Lvl := ℕ) spec1 c (Vt3 m c))
      ⊢ (StableHlo.held (c : Thread nD τ) (Pipeline.ucRefs τ sig) (Wt4 m c) : sProp 𝕄) := by
  have hrest : (Pipeline.unscopedRest (Ix := Unit) (Name := ℕ) (U := UR sig nD τ) (Lvl := ℕ) spec1 c (fun b => Wt4 m c b) : sProp 𝕄)
      = Pipeline.unscopedRest spec1 c (Vt3 m c) := by
    unfold Pipeline.unscopedRest
    exact bigSep_congr fun b hb => by
      beta_reduce
      rw [Wt4_of_ne m c b (fun e => (Finset.mem_sdiff.mp hb).2 (e ▸ (by decide : main_v8 ∈ Finset.univ.image (Pipeline.arrRef spec1))))]
  have e0 : (dat1 (Vt3 m) c).arrAt (0 : Fin cfg1.W) cfg1.N = Wt4 m c main_v4 :=
    (((dat1 (Vt3 m) c).arrAt_in 0 rfl _).trans (A_eq1 (Vt3 m) c 0)).trans (Wt4_of_ne m c main_v4 (by decide)).symm
  have e1 : (dat1 (Vt3 m) c).arrAt (1 : Fin cfg1.W) cfg1.N = Wt4 m c main_v4 :=
    (((dat1 (Vt3 m) c).arrAt_in 1 rfl _).trans (A_eq1 (Vt3 m) c 1)).trans (Wt4_of_ne m c main_v4 (by decide)).symm
  have e2 : (dat1 (Vt3 m) c).arrAt (2 : Fin cfg1.W) cfg1.N = Wt4 m c main_v4 :=
    (((dat1 (Vt3 m) c).arrAt_in 2 rfl _).trans (A_eq1 (Vt3 m) c 2)).trans (Wt4_of_ne m c main_v4 (by decide)).symm
  have e3 : (dat1 (Vt3 m) c).arrAt (3 : Fin cfg1.W) cfg1.N = Wt4 m c main_v6 :=
    (((dat1 (Vt3 m) c).arrAt_in 3 rfl _).trans (A_eq1 (Vt3 m) c 3)).trans (Wt4_of_ne m c main_v6 (by decide)).symm
  have e4 : (dat1 (Vt3 m) c).arrAt (4 : Fin cfg1.W) cfg1.N = Wt4 m c main_v1 :=
    (((dat1 (Vt3 m) c).arrAt_in 4 rfl _).trans (A_eq1 (Vt3 m) c 4)).trans (Wt4_of_ne m c main_v1 (by decide)).symm
  have e5 : (dat1 (Vt3 m) c).arrAt (5 : Fin cfg1.W) cfg1.N = Wt4 m c main_v7 :=
    (((dat1 (Vt3 m) c).arrAt_in 5 rfl _).trans (A_eq1 (Vt3 m) c 5)).trans (Wt4_of_ne m c main_v7 (by decide)).symm
  have e6 : (dat1 (Vt3 m) c).arrAt (6 : Fin cfg1.W) cfg1.N = Wt4 m c main_v8 := (Wt4_res m c).symm
  rw [held_eq1, arrBufs1_eq, arrays1_eq, hrest]
  beta_reduce
  rw [e0, e1, e2, e3, e4, e5, e6]
  iintro ⟨⟨H4a, H4b, H4c, H6, H1, H7, H8⟩, Hr⟩
  ihave H4r := (pointsTo_share (PosShare.mem_left_op_right fullShare.right)).2 $$ [H4b H4c]
  · isplitl [H4b]; · iexact H4b
    iexact H4c
  ihave H4 := (pointsTo_share (PosShare.mem_left_op_right fullShare)).2 $$ [H4a H4r]
  · isplitl [H4a]; · iexact H4a
    iexact H4r
  isplitr [Hr]
  · isplitl [H4]; · iexact H4
    isplitl [H6]; · iexact H6
    isplitl [H1]; · iexact H1
    isplitl [H7]; · iexact H7
    iexact H8
  iexact Hr

/-! ## The pallas_calls as segments -/

theorem hF0 (c : Dev nD) (w : Fin cfg0.W) : (dat0 (Vt1 m) c).arrAt w cfg0.N = Vt2 m c (Pipeline.arrRef spec0 w) := by
  match w with
  | ⟨0, _⟩ => exact (((dat0 (Vt1 m) c).arrAt_in 0 rfl _).trans (A_eq0 (Vt1 m) c 0)).trans (Wt2_of_ne m c main_v2 (by decide)).symm
  | ⟨1, _⟩ => exact (((dat0 (Vt1 m) c).arrAt_in 1 rfl _).trans (A_eq0 (Vt1 m) c 1)).trans (Wt2_of_ne m c main_v0 (by decide)).symm
  | ⟨2, _⟩ => exact (Wt2_res m c).symm
theorem hrest0 (c : Dev nD) : ∀ b, b ∉ Finset.univ.image (Pipeline.arrRef spec0) → Vt2 m c b = Vt1 m c b :=
  fun b hb => Wt2_of_ne m c b (fun e => hb (e ▸ (by decide : main_v3 ∈ Finset.univ.image (Pipeline.arrRef spec0))))

set_option backward.isDefEq.respectTransparency.types false in
/-- The first pallas_call: entered from every unscoped buffer at the first boundary's contents, left at the second's. -/
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (Vt1 m) c).loose
  hwaits := Pipeline.hwaits_of_owed_zero _ _ _ _ Lz lvz 0 fun _ _ => rfl
  pre c := iprop(StableHlo.held (c : Thread nD τ) (Pipeline.ucRefs τ sig) (Wt1 m c) ∗ Rr c)
  post c := iprop(StableHlo.held (c : Thread nD τ) (Pipeline.ucRefs τ sig) (Wt2 m c) ∗ Rr c)
  X c := iprop(∃ r, prngReg c r)
  Y c := iprop(∃ r, prngReg c r)
  Z c := Pipeline.unscopedRest (Ix := Unit) (Name := ℕ) (U := UR sig nD τ) (Lvl := ℕ) spec0 c (Vt1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vt1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vt1 m c) (Vt2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered from every unscoped buffer at the third boundary's contents, left at the last's. -/
def reg1 : Pipeline.RegionSeg (pcfgs (F := F)) adm (pdats m) () defs₀ 𝒱₀ Lz lvz 1 where
  win := winFacts₀1
  block_pos := block_pos1
  stage_whole := stage_whole1
  K := PEmpty
  osem k := k.elim
  ho := Pipeline.OwnSemFacts.none _
  hbody c := (body_obligation1 (Vt3 m) c).loose
  hwaits := Pipeline.hwaits_of_owed_zero _ _ _ _ Lz lvz 1 fun _ _ => rfl
  pre c := iprop(StableHlo.held (c : Thread nD τ) (Pipeline.ucRefs τ sig) (Wt3 m c) ∗ Rr c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vt3 m c)
  hentry c := by
    rw [Pipeline.ownSems0_none]
    have hsplit : (StableHlo.held (c : Thread nD τ) (Pipeline.ucRefs τ sig) (Wt3 m c) : sProp 𝕄)
        ⊢ iprop((pdats m 1 c).arrays ((pdats m 1 c).arrAt · 0)
          ∗ Pipeline.unscopedRest (Ix := Unit) (Name := ℕ) (U := UR sig nD τ) (Lvl := ℕ) spec1 c (Vt3 m c)) := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (Vt3 m c))
        ⊢ (StableHlo.held (c : Thread nD τ) (Pipeline.ucRefs τ sig) (Wt4 m c) : sProp 𝕄) := exit1 m c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ Lz lvz) :=
  [ .host (hseg hostOps0 hostOps0_sub hostOps0_fresh (Wt0 m)),
    .region (reg0 m),
    .host (hseg hostOps1 hostOps1_sub hostOps1_fresh (Wt2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wt4 m c b) :=
  Pipeline.θ_run_regions_kit (pcfgs (F := F)) adm (pdats m) () cellOf_inj emb₁ defs₀ 𝒱₀ Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wt0 m c) ∗ Rr c)) (Tₙ := Tend m)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (Wt0 m c)
        from Pipeline.unscopedBufs_held c (Wt0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wt4 m c b)
    (hfin := fun c s' => by
      iintro ⟨⟨Hh, -⟩, HSI⟩
      unfold StableHlo.held
      imodintro
      iapply (pointsTo_read_all (Pipeline.ucRefs τ sig) (fun b => (((c : Thread nD τ)).1, b)) (Wt4 m c) s')
      isplitl [Hh] <;> iassumption)
    (hQ := fun s h => h)

/-- Hence the frame: each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (Wt4_arg m c main_arg0 (by decide) (by decide) (by decide) (by decide)),
     (h c _ (mem_uc main_arg1 (by decide))).trans (Wt4_arg m c main_arg1 (by decide) (by decide) (by decide) (by decide)),
     (h c _ (mem_uc main_arg2 (by decide))).trans (Wt4_arg m c main_arg2 (by decide) (by decide) (by decide) (by decide)),
     (h c _ (mem_uc main_arg3 (by decide))).trans (Wt4_arg m c main_arg3 (by decide) (by decide) (by decide) (by decide)),
     (h c _ (mem_uc main_arg4 (by decide))).trans (Wt4_arg m c main_arg4 (by decide) (by decide) (by decide) (by decide))⟩)
    (run_all m ρ)

end Cert.Kernel.Hand

end
-- ==== Proof.KI_R0.lean ====
/-
  The first pallas_call (the fused query/key/value projection), as the pipeline runs it on a grid of 8 row
  blocks: at point `t` the body multiplies the 1024 × 1024 block `t` of the flattened activations by the whole
  3072 × 1024 weight matrix, contracted over the channel axis, and stores the 1024 × 3072 product as block `t` of
  the result.  This module states what each window's staging buffer holds after the body at a point (the inputs
  their blocks, the output the product), proves the body's triple, and assembles the pipeline's proof data and its
  body obligation, all at an arbitrary valuation `V` of the buffers at the region's entry and at any float
  instance.
-/
import proofs.«414892_j56607668961917_3_alg».proof.Proof.Gen.KernelIdeal.Launch
import proofs.«414892_j56607668961917_3_alg».proof.Proof.Gen.KernelIdeal.Skeleton
import proofs.«414892_j56607668961917_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds block `t` at point `t`. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole matrix at every point, fetched at the first only. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body loads and stores through: each the whole staging buffer. -/
abbrev r0_0 : Rect S1024x1024 := Rect.unit (s := S1024x1024) ![0, 0] S1024x1024.size inb_S1024x1024_S1024x1024_0_0
abbrev r0_1 : Rect S3072x1024 := Rect.unit (s := S3072x1024) ![0, 0] S3072x1024.size inb_S3072x1024_S3072x1024_0_0
abbrev r0_2 : Rect S1024x3072 := Rect.unit (s := S1024x3072) ![0, 0] S1024x3072.size inb_S1024x3072_S1024x3072_0_0

/-- The output staging buffer after the body: its one store, of the product of the two loaded blocks. -/
def out0_2 (x0 : Vec F S1024x1024 .f32) (x1 : Vec F S3072x1024 .bf16) : Vec F S1024x3072 .bf16 :=
  View.canon [⟨r0_2, k0_pay1 (View.ld x0 r0_0) (View.ld x1 r0_1)⟩]

/-- The one store covers the buffer. -/
theorem cover0_2 (p0 : Vec F S1024x3072 .bf16) (y : S1024x3072.Idx) :
    ∃ pc ∈ ([⟨r0_2, p0⟩] : List (View.Piece (Elt F) S1024x3072 .bf16)), y ∈ pc.1.set :=
  View.cover_of_tiled [⟨r0_2, p0⟩] S1024x3072.size (by rfl) y

set_option maxHeartbeats 1000000 in
/-- The body on whole staging buffers: the inputs at `x0`, `x1` and the output at anything run to the inputs
    unchanged and the output at the product. -/
theorem sound_kernel0 (c : Dev nD) (E : Set ℕ) (i : grid0.Coords) (arg1 : Memref sig .tc .vmem S1024x1024 .f32) (harg1 : arg1.IsWhole)
    (arg2 : Memref sig .tc .vmem S3072x1024 .bf16) (harg2 : arg2.IsWhole) (arg3 : Memref sig .tc .vmem S1024x3072 .bf16) (harg3 : arg3.IsWhole)
    (x0 : Vec F S1024x1024 .f32) (x1 : Vec F S3072x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays at the entry contents; after the body each input's buffer at its
    block and the output's at the product of the two; the scoped rest and the generator register ride along;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI_Heads.lean ====
/-
  One attention head of the fused kernel as ONE function of the bias row, the head's 512 × 64 query block and its
  2048 × 64 key and value blocks: scale the queries by ⅛, multiply by the keys (contracting the 64 lanes), add the
  bias row to every query row, take the row-wise softmax (maximum subtracted, quotient by the sum of exponentials),
  multiply by the values.  The kernel's body computes the sixteen heads by sixteen copies of this text, some of them
  cut in the middle by the printed text's division into parts (the values computed before the cut handed on); each
  copy is this function.
-/
import proofs.«414892_j56607668961917_3_alg».proof.Proof.Gen.KernelIdeal.Skeleton

noncomputable section

namespace Cert.KernelIdeal.Hand

open Cert.KernelIdeal Cert.KernelIdeal.Gen
open Idealize.ShloMosaic

variable {F : FTy → Type} [FloatOps F]

/-- The bias row from the window weights: `m · 100 − 100`. -/
abbrev biasRow (m : Vec F S1x1x2048 .f32) : FVec F S1x2048 .f32 := k1_pay3 m

/-- One head's output block. -/
abbrev headOut (b : FVec F S1x2048 .f32) (q : Vec F S1x512x64 .bf16) (k v : Vec F S1x2048x64 .bf16) : FVec F S512x64 .bf16 :=
  k1_pay5 b q k v

variable (m : Vec F S1x1x2048 .f32) (b : FVec F S1x2048 .f32) (q : Vec F S1x512x64 .bf16) (k v : Vec F S1x2048x64 .bf16)

/-- The first head computes its own bias row. -/
theorem head_0 : k1_pay4 m q k v = headOut (biasRow m) q k v := rfl

/-- The heads printed whole. -/
theorem head_4 : k1_pay14 b q k v = headOut b q k v := rfl
theorem head_5 : k1_pay15 b q k v = headOut b q k v := rfl
theorem head_8 : k1_pay24 b q k v = headOut b q k v := rfl
theorem head_9 : k1_pay25 b q k v = headOut b q k v := rfl
theorem head_12 : k1_pay34 b q k v = headOut b q k v := rfl
theorem head_13 : k1_pay35 b q k v = headOut b q k v := rfl

/-- The heads cut after the loads: the reshaped keys and values, the widened queries and the scale are handed on. -/
theorem head_2 : k1_pay9 b (k1_pay6 k) (k1_pay7 v) (k1_pay8 q) (FloatOps.ofBits .f32 0x3E000000#32) = headOut b q k v := rfl
theorem head_6 : k1_pay19 b (k1_pay16 k) (k1_pay17 v) (k1_pay18 q) (FloatOps.ofBits .f32 0x3E000000#32) = headOut b q k v := rfl
theorem head_10 : k1_pay29 b (k1_pay26 k) (k1_pay27 v) (k1_pay28 q) (FloatOps.ofBits .f32 0x3E000000#32) = headOut b q k v := rfl
theorem head_14 : k1_pay39 b (k1_pay36 k) (k1_pay37 v) (k1_pay38 q) (FloatOps.ofBits .f32 0x3E000000#32) = headOut b q k v := rfl

/-- The heads cut after the sum of exponentials: the reshaped values, the exponentials and their row sums are handed on. -/
theorem head_3 : k1_pay13 (k1_pay10 v) (k1_pay11 b q k) (k1_pay12 b q k) = headOut b q k v := rfl
theorem head_7 : k1_pay23 (k1_pay20 v) (k1_pay21 b q k) (k1_pay22 b q k) = headOut b q k v := rfl
theorem head_11 : k1_pay33 (k1_pay30 v) (k1_pay31 b q k) (k1_pay32 b q k) = headOut b q k v := rfl
theorem head_15 : k1_pay1 (k1_pay40 v) (k1_pay41 b q k) (k1_pay42 b q k) = headOut b q k v := rfl

end Cert.KernelIdeal.Hand

end
-- ==== Proof.KI_R1Run.lean ====
/-
  The second pallas_call's body (sixteen attention heads and the output projection on one 512-row query tile), run
  once at symbolic operands: from the six input staging buffers held whole at their contents, the output buffer and
  the scratch slab at anything, the body runs to its return with the inputs as they were and the stores it made into
  the output buffer and the slab listed (last first).  The lists are found by the run.
-/
import proofs.«414892_j56607668961917_3_alg».proof.Proof.Gen.KernelIdeal.Launch
import proofs.«414892_j56607668961917_3_alg».proof.Proof.Gen.KernelIdeal.Skeleton
import proofs.«414892_j56607668961917_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the output buffer (`L6`) and into the scratch slab (`LS`), with the body's triple. -/
noncomputable def kernelRun1 (c : Dev nD) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x1x2048 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .bf16) (harg9 : arg9.IsWhole)
    (x0 : Vec F S1x512x1024 .bf16) (x1 : Vec F S1x2048x1024 .bf16) (x2 : Vec F S1x2048x1024 .bf16) (x3 : Vec F S1x1x2048 .f32) (x4 : Vec F S1024x1024 .bf16) (x5 : Vec F S1x1024 .f32) :
    Σ' (L6 : List (View.Piece (Elt F) S1x512x1024 .f32)), { LS : List (View.Piece (Elt F) S512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS)) -∗ K ⟨⟩))
          ⊢ wp frame (wpE (defs₀ (F := F)) Variants.none c none) E (cc1__fused_attn_kernel i arg2 harg2 arg3 harg3 arg4 harg4 arg5 harg5 arg6 harg6 arg7 harg7 arg8 harg8 arg9 harg9) K } := by
  refine ⟨?_, ?_, fun E K => ?run⟩
  case run =>
    simp only [cc1__fused_attn_kernel_eq_skeleton]; unfold cc1__fused_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    iexists _; iexact HS

end Cert.KernelIdeal.Hand

end
-- ==== Proof.KI_R1.lean ====
/-
  The second pallas_call (sixteen attention heads and the output projection), as the pipeline runs it on a grid of
  4 batches × 4 query tiles: at a point the body reads the tile's 512 query rows, the batch's 2048 key and value rows
  (three column blocks of ONE array, the fused projection), the batch's window weights, the output projection and
  its bias; for each head it writes the head's 512 × 64 output into its 64 columns of a 512 × 1024 slab, reads the
  slab back whole, projects it and adds the bias.  This module names what the output staging buffer holds after the
  body (`out1_6`) through the one-head function `headOut`, proves the body's triple in that form from the run of
  the body, and assembles the pipeline's proof data and its body obligation at an arbitrary valuation of the
  buffers at the region's entry and at any float instance.  The three windows on the fused projection hold a half,
  a quarter and a quarter of its share.
-/
import proofs.«414892_j56607668961917_3_alg».proof.Proof.Gen.KernelIdeal.Launch
import proofs.«414892_j56607668961917_3_alg».proof.Proof.Gen.KernelIdeal.Skeleton
import proofs.«414892_j56607668961917_3_alg».proof.Proof.Gen.KernelIdeal.Points
import proofs.«414892_j56607668961917_3_alg».proof.Proof.KI_Heads
import proofs.«414892_j56607668961917_3_alg».proof.Proof.KI_R1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through -/

abbrev r1_3 : Rect S1x1x2048 := Rect.unit (s := S1x1x2048) ![0, 0, 0] S1x1x2048.size inb_S1x1x2048_S1x1x2048_0_0_0
abbrev r1_4 : Rect S1024x1024 := Rect.unit (s := S1024x1024) ![0, 0] S1024x1024.size inb_S1024x1024_S1024x1024_0_0
abbrev r1_5 : Rect S1x1024 := Rect.unit (s := S1x1024) ![0, 0] S1x1024.size inb_S1x1024_S1x1024_0_0
abbrev r1_6 : Rect S1x512x1024 := Rect.unit (s := S1x512x1024) ![0, 0, 0] S1x512x1024.size inb_S1x512x1024_S1x512x1024_0_0_0
abbrev rSw : Rect S512x1024 := Rect.unit (s := S512x1024) ![0, 0] S512x1024.size inb_S512x1024_S512x1024_0_0
abbrev rQ0 : Rect S1x512x1024 := Rect.unit (s := S1x512x1024) ![0, 0, 0] S1x512x64.size inb_S1x512x1024_S1x512x64_0_0_0
abbrev rK0 : Rect S1x2048x1024 := Rect.unit (s := S1x2048x1024) ![0, 0, 0] S1x2048x64.size inb_S1x2048x1024_S1x2048x64_0_0_0
abbrev rS0 : Rect S512x1024 := Rect.unit (s := S512x1024) ![0, 0] S512x64.size inb_S512x1024_S512x64_0_0
abbrev rQ1 : Rect S1x512x1024 := Rect.unit (s := S1x512x1024) ![0, 0, 64] S1x512x64.size inb_S1x512x1024_S1x512x64_0_0_64
abbrev rK1 : Rect S1x2048x1024 := Rect.unit (s := S1x2048x1024) ![0, 0, 64] S1x2048x64.size inb_S1x2048x1024_S1x2048x64_0_0_64
abbrev rS1 : Rect S512x1024 := Rect.unit (s := S512x1024) ![0, 64] S512x64.size inb_S512x1024_S512x64_0_64
abbrev rQ2 : Rect S1x512x1024 := Rect.unit (s := S1x512x1024) ![0, 0, 128] S1x512x64.size inb_S1x512x1024_S1x512x64_0_0_128
abbrev rK2 : Rect S1x2048x1024 := Rect.unit (s := S1x2048x1024) ![0, 0, 128] S1x2048x64.size inb_S1x2048x1024_S1x2048x64_0_0_128
abbrev rS2 : Rect S512x1024 := Rect.unit (s := S512x1024) ![0, 128] S512x64.size inb_S512x1024_S512x64_0_128
abbrev rQ3 : Rect S1x512x1024 := Rect.unit (s := S1x512x1024) ![0, 0, 192] S1x512x64.size inb_S1x512x1024_S1x512x64_0_0_192
abbrev rK3 : Rect S1x2048x1024 := Rect.unit (s := S1x2048x1024) ![0, 0, 192] S1x2048x64.size inb_S1x2048x1024_S1x2048x64_0_0_192
abbrev rS3 : Rect S512x1024 := Rect.unit (s := S512x1024) ![0, 192] S512x64.size inb_S512x1024_S512x64_0_192
abbrev rQ4 : Rect S1x512x1024 := Rect.unit (s := S1x512x1024) ![0, 0, 256] S1x512x64.size inb_S1x512x1024_S1x512x64_0_0_256
abbrev rK4 : Rect S1x2048x1024 := Rect.unit (s := S1x2048x1024) ![0, 0, 256] S1x2048x64.size inb_S1x2048x1024_S1x2048x64_0_0_256
abbrev rS4 : Rect S512x1024 := Rect.unit (s := S512x1024) ![0, 256] S512x64.size inb_S512x1024_S512x64_0_256
abbrev rQ5 : Rect S1x512x1024 := Rect.unit (s := S1x512x1024) ![0, 0, 320] S1x512x64.size inb_S1x512x1024_S1x512x64_0_0_320
abbrev rK5 : Rect S1x2048x1024 := Rect.unit (s := S1x2048x1024) ![0, 0, 320] S1x2048x64.size inb_S1x2048x1024_S1x2048x64_0_0_320
abbrev rS5 : Rect S512x1024 := Rect.unit (s := S512x1024) ![0, 320] S512x64.size inb_S512x1024_S512x64_0_320
abbrev rQ6 : Rect S1x512x1024 := Rect.unit (s := S1x512x1024) ![0, 0, 384] S1x512x64.size inb_S1x512x1024_S1x512x64_0_0_384
abbrev rK6 : Rect S1x2048x1024 := Rect.unit (s := S1x2048x1024) ![0, 0, 384] S1x2048x64.size inb_S1x2048x1024_S1x2048x64_0_0_384
abbrev rS6 : Rect S512x1024 := Rect.unit (s := S512x1024) ![0, 384] S512x64.size inb_S512x1024_S512x64_0_384
abbrev rQ7 : Rect S1x512x1024 := Rect.unit (s := S1x512x1024) ![0, 0, 448] S1x512x64.size inb_S1x512x1024_S1x512x64_0_0_448
abbrev rK7 : Rect S1x2048x1024 := Rect.unit (s := S1x2048x1024) ![0, 0, 448] S1x2048x64.size inb_S1x2048x1024_S1x2048x64_0_0_448
abbrev rS7 : Rect S512x1024 := Rect.unit (s := S512x1024) ![0, 448] S512x64.size inb_S512x1024_S512x64_0_448
abbrev rQ8 : Rect S1x512x1024 := Rect.unit (s := S1x512x1024) ![0, 0, 512] S1x512x64.size inb_S1x512x1024_S1x512x64_0_0_512
abbrev rK8 : Rect S1x2048x1024 := Rect.unit (s := S1x2048x1024) ![0, 0, 512] S1x2048x64.size inb_S1x2048x1024_S1x2048x64_0_0_512
abbrev rS8 : Rect S512x1024 := Rect.unit (s := S512x1024) ![0, 512] S512x64.size inb_S512x1024_S512x64_0_512
abbrev rQ9 : Rect S1x512x1024 := Rect.unit (s := S1x512x1024) ![0, 0, 576] S1x512x64.size inb_S1x512x1024_S1x512x64_0_0_576
abbrev rK9 : Rect S1x2048x1024 := Rect.unit (s := S1x2048x1024) ![0, 0, 576] S1x2048x64.size inb_S1x2048x1024_S1x2048x64_0_0_576
abbrev rS9 : Rect S512x1024 := Rect.unit (s := S512x1024) ![0, 576] S512x64.size inb_S512x1024_S512x64_0_576
abbrev rQ10 : Rect S1x512x1024 := Rect.unit (s := S1x512x1024) ![0, 0, 640] S1x512x64.size inb_S1x512x1024_S1x512x64_0_0_640
abbrev rK10 : Rect S1x2048x1024 := Rect.unit (s := S1x2048x1024) ![0, 0, 640] S1x2048x64.size inb_S1x2048x1024_S1x2048x64_0_0_640
abbrev rS10 : Rect S512x1024 := Rect.unit (s := S512x1024) ![0, 640] S512x64.size inb_S512x1024_S512x64_0_640
abbrev rQ11 : Rect S1x512x1024 := Rect.unit (s := S1x512x1024) ![0, 0, 704] S1x512x64.size inb_S1x512x1024_S1x512x64_0_0_704
abbrev rK11 : Rect S1x2048x1024 := Rect.unit (s := S1x2048x1024) ![0, 0, 704] S1x2048x64.size inb_S1x2048x1024_S1x2048x64_0_0_704
abbrev rS11 : Rect S512x1024 := Rect.unit (s := S512x1024) ![0, 704] S512x64.size inb_S512x1024_S512x64_0_704
abbrev rQ12 : Rect S1x512x1024 := Rect.unit (s := S1x512x1024) ![0, 0, 768] S1x512x64.size inb_S1x512x1024_S1x512x64_0_0_768
abbrev rK12 : Rect S1x2048x1024 := Rect.unit (s := S1x2048x1024) ![0, 0, 768] S1x2048x64.size inb_S1x2048x1024_S1x2048x64_0_0_768
abbrev rS12 : Rect S512x1024 := Rect.unit (s := S512x1024) ![0, 768] S512x64.size inb_S512x1024_S512x64_0_768
abbrev rQ13 : Rect S1x512x1024 := Rect.unit (s := S1x512x1024) ![0, 0, 832] S1x512x64.size inb_S1x512x1024_S1x512x64_0_0_832
abbrev rK13 : Rect S1x2048x1024 := Rect.unit (s := S1x2048x1024) ![0, 0, 832] S1x2048x64.size inb_S1x2048x1024_S1x2048x64_0_0_832
abbrev rS13 : Rect S512x1024 := Rect.unit (s := S512x1024) ![0, 832] S512x64.size inb_S512x1024_S512x64_0_832
abbrev rQ14 : Rect S1x512x1024 := Rect.unit (s := S1x512x1024) ![0, 0, 896] S1x512x64.size inb_S1x512x1024_S1x512x64_0_0_896
abbrev rK14 : Rect S1x2048x1024 := Rect.unit (s := S1x2048x1024) ![0, 0, 896] S1x2048x64.size inb_S1x2048x1024_S1x2048x64_0_0_896
abbrev rS14 : Rect S512x1024 := Rect.unit (s := S512x1024) ![0, 896] S512x64.size inb_S512x1024_S512x64_0_896
abbrev rQ15 : Rect S1x512x1024 := Rect.unit (s := S1x512x1024) ![0, 0, 960] S1x512x64.size inb_S1x512x1024_S1x512x64_0_0_960
abbrev rK15 : Rect S1x2048x1024 := Rect.unit (s := S1x2048x1024) ![0, 0, 960] S1x2048x64.size inb_S1x2048x1024_S1x2048x64_0_0_960
abbrev rS15 : Rect S512x1024 := Rect.unit (s := S512x1024) ![0, 960] S512x64.size inb_S512x1024_S512x64_0_960

/-! ## What the body leaves -/

/-- The slab's sixteen stores, last first: head `h`'s output in columns `64 h … 64 h + 63`. -/
def slabPieces (x0 : Vec F S1x512x1024 .bf16) (x1 : Vec F S1x2048x1024 .bf16) (x2 : Vec F S1x2048x1024 .bf16) (x3 : Vec F S1x1x2048 .f32) : List (View.Piece (Elt F) S512x1024 .bf16) :=
  [
    ⟨rS15, headOut (biasRow (View.ld x3 r1_3)) (View.ld x0 rQ15) (View.ld x1 rK15) (View.ld x2 rK15)⟩,
    ⟨rS14, headOut (biasRow (View.ld x3 r1_3)) (View.ld x0 rQ14) (View.ld x1 rK14) (View.ld x2 rK14)⟩,
    ⟨rS13, headOut (biasRow (View.ld x3 r1_3)) (View.ld x0 rQ13) (View.ld x1 rK13) (View.ld x2 rK13)⟩,
    ⟨rS12, headOut (biasRow (View.ld x3 r1_3)) (View.ld x0 rQ12) (View.ld x1 rK12) (View.ld x2 rK12)⟩,
    ⟨rS11, headOut (biasRow (View.ld x3 r1_3)) (View.ld x0 rQ11) (View.ld x1 rK11) (View.ld x2 rK11)⟩,
    ⟨rS10, headOut (biasRow (View.ld x3 r1_3)) (View.ld x0 rQ10) (View.ld x1 rK10) (View.ld x2 rK10)⟩,
    ⟨rS9, headOut (biasRow (View.ld x3 r1_3)) (View.ld x0 rQ9) (View.ld x1 rK9) (View.ld x2 rK9)⟩,
    ⟨rS8, headOut (biasRow (View.ld x3 r1_3)) (View.ld x0 rQ8) (View.ld x1 rK8) (View.ld x2 rK8)⟩,
    ⟨rS7, headOut (biasRow (View.ld x3 r1_3)) (View.ld x0 rQ7) (View.ld x1 rK7) (View.ld x2 rK7)⟩,
    ⟨rS6, headOut (biasRow (View.ld x3 r1_3)) (View.ld x0 rQ6) (View.ld x1 rK6) (View.ld x2 rK6)⟩,
    ⟨rS5, headOut (biasRow (View.ld x3 r1_3)) (View.ld x0 rQ5) (View.ld x1 rK5) (View.ld x2 rK5)⟩,
    ⟨rS4, headOut (biasRow (View.ld x3 r1_3)) (View.ld x0 rQ4) (View.ld x1 rK4) (View.ld x2 rK4)⟩,
    ⟨rS3, headOut (biasRow (View.ld x3 r1_3)) (View.ld x0 rQ3) (View.ld x1 rK3) (View.ld x2 rK3)⟩,
    ⟨rS2, headOut (biasRow (View.ld x3 r1_3)) (View.ld x0 rQ2) (View.ld x1 rK2) (View.ld x2 rK2)⟩,
    ⟨rS1, headOut (biasRow (View.ld x3 r1_3)) (View.ld x0 rQ1) (View.ld x1 rK1) (View.ld x2 rK1)⟩,
    ⟨rS0, headOut (biasRow (View.ld x3 r1_3)) (View.ld x0 rQ0) (View.ld x1 rK0) (View.ld x2 rK0)⟩ ]

/-- The slab after the sixteen stores. -/
def slab (x0 : Vec F S1x512x1024 .bf16) (x1 : Vec F S1x2048x1024 .bf16) (x2 : Vec F S1x2048x1024 .bf16) (x3 : Vec F S1x1x2048 .f32) : Vec F S512x1024 .bf16 := View.canon (slabPieces x0 x1 x2 x3)

/-- The output staging buffer after the body: its one store, of the projected slab plus the bias. -/
def out1_6 (x0 : Vec F S1x512x1024 .bf16) (x1 : Vec F S1x2048x1024 .bf16) (x2 : Vec F S1x2048x1024 .bf16) (x3 : Vec F S1x1x2048 .f32) (x4 : Vec F S1024x1024 .bf16) (x5 : Vec F S1x1024 .f32) : Vec F S1x512x1024 .f32 :=
  View.canon [⟨r1_6, k1_pay2 (View.ld (slab x0 x1 x2 x3) rSw) (View.ld x4 r1_4) (View.ld x5 r1_5)⟩]

/-- The one store covers the buffer. -/
theorem cover1_6 (p0 : Vec F S1x512x1024 .f32) (y : S1x512x1024.Idx) :
    ∃ pc ∈ ([⟨r1_6, p0⟩] : List (View.Piece (Elt F) S1x512x1024 .f32)), y ∈ pc.1.set :=
  View.cover_of_tiled [⟨r1_6, p0⟩] S1x512x1024.size (by rfl) y

/-- The pieces the run found for the output buffer are that store. -/
theorem L6_eq (c : Dev nD) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x1x2048 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .bf16) (harg9 : arg9.IsWhole) (x0 : Vec F S1x512x1024 .bf16) (x1 : Vec F S1x2048x1024 .bf16) (x2 : Vec F S1x2048x1024 .bf16) (x3 : Vec F S1x1x2048 .f32) (x4 : Vec F S1024x1024 .bf16) (x5 : Vec F S1x1024 .f32) :
    (kernelRun1 c i arg2 harg2 arg3 harg3 arg4 harg4 arg5 harg5 arg6 harg6 arg7 harg7 arg8 harg8 arg9 harg9 x0 x1 x2 x3 x4 x5).1
      = [⟨r1_6, k1_pay2 (View.ld (slab x0 x1 x2 x3) rSw) (View.ld x4 r1_4) (View.ld x5 r1_5)⟩] := by
  unfold kernelRun1
  dsimp only
  sl_unfold_run_names
  rw [View.readCov_eq_canon']
  simp only [View.readAt_eq_ld, Memref.IsWhole.read_unread, head_0, head_2, head_3, head_4, head_5, head_6, head_7, head_8, head_9,
    head_10, head_11, head_12, head_13, head_14, head_15]
  rfl

set_option maxHeartbeats 1000000 in
/-- The body on whole staging buffers: the six inputs at their contents, the output and the slab at anything, run to
    the inputs unchanged, the output at `out1_6` of the inputs and the slab at something. -/
theorem sound_kernel1 (c : Dev nD) (E : Set ℕ) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x1x2048 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .bf16) (harg9 : arg9.IsWhole) (x0 : Vec F S1x512x1024 .bf16) (x1 : Vec F S1x2048x1024 .bf16) (x2 : Vec F S1x2048x1024 .bf16) (x3 : Vec F S1x1x2048 .f32) (x4 : Vec F S1024x1024 .bf16) (x5 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 x0 x1 x2 x3 x4 x5) ∗ (∃ d, owns (c : Thread nD τ) arg9 fullShare d)) -∗ K ⟨⟩))
      ⊢ wp frame (wpE (defs₀ (F := F)) Variants.none c none) E (cc1__fused_attn_kernel i arg2 harg2 arg3 harg3 arg4 harg4 arg5 harg5 arg6 harg6 arg7 harg7 arg8 harg8 arg9 harg9) K := by
  have hrun := (kernelRun1 c i arg2 harg2 arg3 harg3 arg4 harg4 arg5 harg5 arg6 harg6 arg7 harg7 arg8 harg8 arg9 harg9 x0 x1 x2 x3 x4 x5).2.2 E K
  refine BIBase.Entails.trans ?_ hrun
  iintro ⟨H0, H1, H2, H3, H4, H5, H6, HS, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, ⟨%f6, H6⟩, ⟨%fs, HS⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns
    iexists _; isplitr
    swap; · iexact H6
    ipureintro
    rw [L6_eq]
    exact View.read_writes_eq_canon _ _ _ (cover1_6 _)
  iexists _
  unfold owns
  iexists _; isplitr
  swap; · iexact HS
  ipureintro; rfl

section Region1

variable (V : (c : Dev nD) → (b : Ref sig .tc) → Buf (Elt F) ((c : Thread nD τ).loc b))

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The pipeline's proof data on core `c`: the arrays at the entry contents; after the body each input's buffer at its
    block and the output's at `out1_6` of the six; the scoped rest (the slab among it) and the generator register
    ride along; nothing owed; the fused projection's share dealt among its three windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- The slab is a whole scoped buffer of the kernel's own. -/
abbrev scM1 : Memref sig .tc .vmem S512x1024 .bf16 := Memref.whole cc1_scratch0

/-- The invariant with the slab as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1 fullShare d)) ∗ (∃ r, prngReg c r)) := by
  unfold Pipeline.ΦA; rw [scopedRest1_eq]; simp only [scM1, owns_whole]; try rfl

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5, after1_6, PhiA1_eq]
  iintro ⟨⟨⟨Ha, Hb, Hc, Hd, He, HS⟩, Hp⟩, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, H6, HS⟩
  isplitl [Ha Hb Hc Hd He HS Hp]
  · isplitr [Hp]
    · isplitl [Ha]; · iexact Ha
      isplitl [Hb]; · iexact Hb
      isplitl [Hc]; · iexact Hc
      isplitl [Hd]; · iexact Hd
      isplitl [He]; · iexact He
      iexact HS
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI_Launch.lean ====
/-
  The whole program's run: @main is four stretches — the host operations that cast the two weight matrices and
  flatten the activations, the first pallas_call, the host operations that reshape its result and lay out the window
  weights and the bias, the second pallas_call.  The contents of every unscoped buffer at each boundary are named
  (a stretch of host operations applies them; a pallas_call changes its one result array, to what its write-backs
  leave), each pallas_call is entered from and left at those contents, and every weakly fair execution ends with each
  unscoped buffer at the last boundary's contents.  The second pallas_call reads the fused projection through three
  windows: its points-to is split in a half and two quarters on entry and joined again on exit.
-/
import proofs.«414892_j56607668961917_3_alg».proof.Proof.Gen.KernelIdeal.Launch
import proofs.«414892_j56607668961917_3_alg».proof.Proof.Gen.KernelIdeal.Skeleton
import proofs.«414892_j56607668961917_3_alg».proof.Proof.Gen.KernelIdeal.Points
import proofs.«414892_j56607668961917_3_alg».proof.Proof.Gen.KernelIdeal.Regions
import proofs.«414892_j56607668961917_3_alg».proof.Proof.KI_R0
import proofs.«414892_j56607668961917_3_alg».proof.Proof.KI_R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents at each boundary -/

/-- At launch. -/
abbrev Wt0 : Dev nD → Valuation τ sig (Elt F) := fun c b => m (c, b)
/-- After the first host stretch (the first pallas_call's entry). -/
abbrev Wt1 : Dev nD → Valuation τ sig (Elt F) := fun c => StableHlo.after hostOps0 (Wt0 m c)
abbrev Vt1 : (c : Dev nD) → (b : Ref sig .tc) → Buf (Elt F) ((c : Thread nD τ).loc b) := fun c b => Wt1 m c b
/-- After the first pallas_call: its result array at what the write-backs leave. -/
def Wt2 (c : Dev nD) : Valuation τ sig (Elt F) :=
  Function.update (Wt1 m c) main_v3 ((dat0 (Vt1 m) c).arrAt 2 cfg0.N)
abbrev Vt2 : (c : Dev nD) → (b : Ref sig .tc) → Buf (Elt F) ((c : Thread nD τ).loc b) := fun c b => Wt2 m c b
/-- After the second host stretch (the second pallas_call's entry). -/
abbrev Wt3 : Dev nD → Valuation τ sig (Elt F) := fun c => StableHlo.after hostOps1 (Wt2 m c)
abbrev Vt3 : (c : Dev nD) → (b : Ref sig .tc) → Buf (Elt F) ((c : Thread nD τ).loc b) := fun c b => Wt3 m c b
/-- After the second pallas_call. -/
def Wt4 (c : Dev nD) : Valuation τ sig (Elt F) :=
  Function.update (Wt3 m c) main_v8 ((dat1 (Vt3 m) c).arrAt 6 cfg1.N)
abbrev Vt4 : (c : Dev nD) → (b : Ref sig .tc) → Buf (Elt F) ((c : Thread nD τ).loc b) := fun c b => Wt4 m c b

theorem Wt2_res (c : Dev nD) : Wt2 m c main_v3 = (dat0 (Vt1 m) c).arrAt 2 cfg0.N := by
  unfold Wt2; exact Function.update_self _ _ _
theorem Wt2_of_ne (c : Dev nD) (r : Ref sig .tc) (h : r ≠ main_v3) : Wt2 m c r = Wt1 m c r := by
  unfold Wt2; exact Function.update_of_ne (StableHlo.devRef_ne_of_ne h) _ _
theorem Wt4_res (c : Dev nD) : Wt4 m c main_v8 = (dat1 (Vt3 m) c).arrAt 6 cfg1.N := by
  unfold Wt4; exact Function.update_self _ _ _
theorem Wt4_of_ne (c : Dev nD) (r : Ref sig .tc) (h : r ≠ main_v8) : Wt4 m c r = Wt3 m c r := by
  unfold Wt4; exact Function.update_of_ne (StableHlo.devRef_ne_of_ne h) _ _
theorem Wt1_of (c : Dev nD) (r : Ref sig .tc) (h : r ∉ hostOps0_W) : Wt1 m c r = Wt0 m c r :=
  StableHlo.after_of_writes_sub hostOps0 _ hostOps0_writes h
theorem Wt3_of (c : Dev nD) (r : Ref sig .tc) (h : r ∉ hostOps1_W) : Wt3 m c r = Wt2 m c r :=
  StableHlo.after_of_writes_sub hostOps1 _ hostOps1_writes h

/-- An argument array reaches the end as launched: no host stretch writes it and no pallas_call's result is one. -/
theorem Wt4_arg (c : Dev nD) (r : Ref sig .tc) (h8 : r ≠ main_v8) (h1 : r ∉ hostOps1_W) (h3 : r ≠ main_v3) (h0 : r ∉ hostOps0_W) :
    Wt4 m c r = m ((c : Thread nD τ).loc r) :=
  (Wt4_of_ne m c r h8).trans <| (Wt3_of m c r h1).trans <| (Wt2_of_ne m c r h3).trans <| (Wt1_of m c r h0).trans rfl

/-! ## The proof data family and what rides along -/

def pdats : (p : Fin 2) → (c : Dev nD) → Dat τ (Elt F) Unit ℕ (UR sig nD τ) ℕ (Pipeline.pin (pcfgs (F := F)) adm p) c
  | ⟨0, _⟩ => fun c => dat0 (Vt1 m) c
  | ⟨1, _⟩ => fun c => dat1 (Vt3 m) c
abbrev 𝒱₀ : Variants := Variants.none
abbrev Lz : GSem nD τ sig → Finset Unit := fun _ => ∅
abbrev lvz : GSem nD τ sig → Unit → ℕ := fun _ _ => 0
/-- The generator register at some state and nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (Wt4 m c) ∗ ∃ r, prngReg c r)

/-! ## The second pallas_call's arrays: five buffers, seven windows -/

/-- The distinct buffers behind the seven windows. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4) ↦{fullShare} V main_v4) ∗ (((c : Thread nD τ).loc main_v6) ↦{fullShare} V main_v6)
          ∗ (((c : Thread nD τ).loc main_v1) ↦{fullShare} V main_v1) ∗ (((c : Thread nD τ).loc main_v7) ↦{fullShare} V main_v7)
          ∗ (((c : Thread nD τ).loc main_v8) ↦{fullShare} V main_v8)) := by
  unfold Pipeline.arrBufs
  exact bigSep_eq_bigSepL_of_eq [main_v4, main_v6, main_v1, main_v7, main_v8] (by decide) (by decide) _

/-- The share each window holds its array at. -/
theorem share1 (c : Dev nD) (V : (c : Dev nD) → (b : Ref sig .tc) → Buf (Elt F) ((c : Thread nD τ).loc b)) :
    (dat1 V c).share 0 = fullShare.left ∧ (dat1 V c).share 1 = fullShare.right.left ∧ (dat1 V c).share 2 = fullShare.right.right
      ∧ (dat1 V c).share 3 = fullShare ∧ (dat1 V c).share 4 = fullShare ∧ (dat1 V c).share 5 = fullShare ∧ (dat1 V c).share 6 = fullShare := by
  unfold Dat.share
  refine ⟨?_, ?_, ?_, ?_, ?_, ?_, ?_⟩
  · rw [if_neg (by decide)]; dsimp only [dat1]
  · rw [if_neg (by decide)]; dsimp only [dat1]
  · rw [if_neg (by decide)]; dsimp only [dat1]
  · rw [if_neg (by decide)]; dsimp only [dat1]
  · rw [if_neg (by decide)]; dsimp only [dat1]
  · rw [if_neg (by decide)]; dsimp only [dat1]
  · rw [if_pos (by decide)]

/-- The seven windows' points-tos, one by one: the fused projection three times, at a half and two quarters. -/
theorem arrays1_eq (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = iprop((((c : Thread nD τ).loc main_v4) ↦{fullShare.left} G 0) ∗ (((c : Thread nD τ).loc main_v4) ↦{fullShare.right.left} G 1)
          ∗ (((c : Thread nD τ).loc main_v4) ↦{fullShare.right.right} G 2) ∗ (((c : Thread nD τ).loc main_v6) ↦{fullShare} G 3)
          ∗ (((c : Thread nD τ).loc main_v1) ↦{fullShare} G 4) ∗ (((c : Thread nD τ).loc main_v7) ↦{fullShare} G 5)
          ∗ (((c : Thread nD τ).loc main_v8) ↦{fullShare} G 6)) := by
  unfold Dat.arrays
  rw [bigSep_W1]
  obtain ⟨h0, h1, h2, h3, h4, h5, h6⟩ := share1 c V
  rw [h0, h1, h2, h3, h4, h5, h6, (arr_whole1 0).set_eq_univ, (arr_whole1 3).set_eq_univ, (arr_whole1 4).set_eq_univ,
    (arr_whole1 5).set_eq_univ, (arr_whole1 6).set_eq_univ]

/-- All unscoped buffers at a valuation: the five buffers behind the second pallas_call's windows and the rest. -/
theorem held_eq1 (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec1 c (fun b => W b)
          ∗ Pipeline.unscopedRest (Ix := Unit) (Name := ℕ) (U := UR sig nD τ) (Lvl := ℕ) spec1 c (fun b => W b)) :=
  (Pipeline.unscopedBufs_held c W).symm.trans (Pipeline.unscopedBufs_split₀ cfgs 1 winFacts₀1.arr_unscoped c _)

/-- ENTRY of the second pallas_call: its arrays out of the unscoped buffers, the fused projection's points-to split. -/
theorem entry1 (c : Dev nD) :
    (StableHlo.held (c : Thread nD τ) (Pipeline.ucRefs τ sig) (Wt3 m c) : sProp 𝕄)
      ⊢ iprop((dat1 (Vt3 m) c).arrays ((dat1 (Vt3 m) c).arrAt · 0)
          ∗ Pipeline.unscopedRest (Ix := Unit) (Name := ℕ) (U := UR sig nD τ) (Lvl := ℕ) spec1 c (Vt3 m c)) := by
  rw [held_eq1, arrBufs1_eq, arrays1_eq]
  iintro ⟨⟨H4, H6, H1, H7, H8⟩, Hr⟩
  ihave Hq := (pointsTo_share (PosShare.mem_left_op_right fullShare)).1 $$ H4
  icases Hq with ⟨H4a, H4r⟩
  ihave Hqr := (pointsTo_share (PosShare.mem_left_op_right fullShare.right)).1 $$ H4r
  icases Hqr with ⟨H4b, H4c⟩
  isplitr [Hr]
  · isplitl [H4a]; · iexact H4a
    isplitl [H4b]; · iexact H4b
    isplitl [H4c]; · iexact H4c
    isplitl [H6]; · iexact H6
    isplitl [H1]; · iexact H1
    isplitl [H7]; · iexact H7
    iexact H8
  iexact Hr

/-- EXIT of the second pallas_call: its arrays at what the write-backs leave (the inputs as entered, the result at
    its final contents) and the rest are all unscoped buffers at the next boundary's contents. -/
theorem exit1 (c : Dev nD) :
    iprop((dat1 (Vt3 m) c).arrays ((dat1 (Vt3 m) c).arrAt · cfg1.N)
        ∗ Pipeline.unscopedRest (Ix := Unit) (Name := ℕ) (U := UR sig nD τ) (Lvl := ℕ) spec1 c (Vt3 m c))
      ⊢ (StableHlo.held (c : Thread nD τ) (Pipeline.ucRefs τ sig) (Wt4 m c) : sProp 𝕄) := by
  have hrest : (Pipeline.unscopedRest (Ix := Unit) (Name := ℕ) (U := UR sig nD τ) (Lvl := ℕ) spec1 c (fun b => Wt4 m c b) : sProp 𝕄)
      = Pipeline.unscopedRest spec1 c (Vt3 m c) := by
    unfold Pipeline.unscopedRest
    exact bigSep_congr fun b hb => by
      beta_reduce
      rw [Wt4_of_ne m c b (fun e => (Finset.mem_sdiff.mp hb).2 (e ▸ (by decide : main_v8 ∈ Finset.univ.image (Pipeline.arrRef spec1))))]
  have e0 : (dat1 (Vt3 m) c).arrAt (0 : Fin cfg1.W) cfg1.N = Wt4 m c main_v4 :=
    (((dat1 (Vt3 m) c).arrAt_in 0 rfl _).trans (A_eq1 (Vt3 m) c 0)).trans (Wt4_of_ne m c main_v4 (by decide)).symm
  have e1 : (dat1 (Vt3 m) c).arrAt (1 : Fin cfg1.W) cfg1.N = Wt4 m c main_v4 :=
    (((dat1 (Vt3 m) c).arrAt_in 1 rfl _).trans (A_eq1 (Vt3 m) c 1)).trans (Wt4_of_ne m c main_v4 (by decide)).symm
  have e2 : (dat1 (Vt3 m) c).arrAt (2 : Fin cfg1.W) cfg1.N = Wt4 m c main_v4 :=
    (((dat1 (Vt3 m) c).arrAt_in 2 rfl _).trans (A_eq1 (Vt3 m) c 2)).trans (Wt4_of_ne m c main_v4 (by decide)).symm
  have e3 : (dat1 (Vt3 m) c).arrAt (3 : Fin cfg1.W) cfg1.N = Wt4 m c main_v6 :=
    (((dat1 (Vt3 m) c).arrAt_in 3 rfl _).trans (A_eq1 (Vt3 m) c 3)).trans (Wt4_of_ne m c main_v6 (by decide)).symm
  have e4 : (dat1 (Vt3 m) c).arrAt (4 : Fin cfg1.W) cfg1.N = Wt4 m c main_v1 :=
    (((dat1 (Vt3 m) c).arrAt_in 4 rfl _).trans (A_eq1 (Vt3 m) c 4)).trans (Wt4_of_ne m c main_v1 (by decide)).symm
  have e5 : (dat1 (Vt3 m) c).arrAt (5 : Fin cfg1.W) cfg1.N = Wt4 m c main_v7 :=
    (((dat1 (Vt3 m) c).arrAt_in 5 rfl _).trans (A_eq1 (Vt3 m) c 5)).trans (Wt4_of_ne m c main_v7 (by decide)).symm
  have e6 : (dat1 (Vt3 m) c).arrAt (6 : Fin cfg1.W) cfg1.N = Wt4 m c main_v8 := (Wt4_res m c).symm
  rw [held_eq1, arrBufs1_eq, arrays1_eq, hrest]
  beta_reduce
  rw [e0, e1, e2, e3, e4, e5, e6]
  iintro ⟨⟨H4a, H4b, H4c, H6, H1, H7, H8⟩, Hr⟩
  ihave H4r := (pointsTo_share (PosShare.mem_left_op_right fullShare.right)).2 $$ [H4b H4c]
  · isplitl [H4b]; · iexact H4b
    iexact H4c
  ihave H4 := (pointsTo_share (PosShare.mem_left_op_right fullShare)).2 $$ [H4a H4r]
  · isplitl [H4a]; · iexact H4a
    iexact H4r
  isplitr [Hr]
  · isplitl [H4]; · iexact H4
    isplitl [H6]; · iexact H6
    isplitl [H1]; · iexact H1
    isplitl [H7]; · iexact H7
    iexact H8
  iexact Hr

/-! ## The pallas_calls as segments -/

theorem hF0 (c : Dev nD) (w : Fin cfg0.W) : (dat0 (Vt1 m) c).arrAt w cfg0.N = Vt2 m c (Pipeline.arrRef spec0 w) := by
  match w with
  | ⟨0, _⟩ => exact (((dat0 (Vt1 m) c).arrAt_in 0 rfl _).trans (A_eq0 (Vt1 m) c 0)).trans (Wt2_of_ne m c main_v2 (by decide)).symm
  | ⟨1, _⟩ => exact (((dat0 (Vt1 m) c).arrAt_in 1 rfl _).trans (A_eq0 (Vt1 m) c 1)).trans (Wt2_of_ne m c main_v0 (by decide)).symm
  | ⟨2, _⟩ => exact (Wt2_res m c).symm
theorem hrest0 (c : Dev nD) : ∀ b, b ∉ Finset.univ.image (Pipeline.arrRef spec0) → Vt2 m c b = Vt1 m c b :=
  fun b hb => Wt2_of_ne m c b (fun e => hb (e ▸ (by decide : main_v3 ∈ Finset.univ.image (Pipeline.arrRef spec0))))

set_option backward.isDefEq.respectTransparency.types false in
/-- The first pallas_call: entered from every unscoped buffer at the first boundary's contents, left at the second's. -/
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (Vt1 m) c).loose
  hwaits := Pipeline.hwaits_of_owed_zero _ _ _ _ Lz lvz 0 fun _ _ => rfl
  pre c := iprop(StableHlo.held (c : Thread nD τ) (Pipeline.ucRefs τ sig) (Wt1 m c) ∗ Rr c)
  post c := iprop(StableHlo.held (c : Thread nD τ) (Pipeline.ucRefs τ sig) (Wt2 m c) ∗ Rr c)
  X c := iprop(∃ r, prngReg c r)
  Y c := iprop(∃ r, prngReg c r)
  Z c := Pipeline.unscopedRest (Ix := Unit) (Name := ℕ) (U := UR sig nD τ) (Lvl := ℕ) spec0 c (Vt1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vt1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vt1 m c) (Vt2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered from every unscoped buffer at the third boundary's contents, left at the last's. -/
def reg1 : Pipeline.RegionSeg (pcfgs (F := F)) adm (pdats m) () defs₀ 𝒱₀ Lz lvz 1 where
  win := winFacts₀1
  block_pos := block_pos1
  stage_whole := stage_whole1
  K := PEmpty
  osem k := k.elim
  ho := Pipeline.OwnSemFacts.none _
  hbody c := (body_obligation1 (Vt3 m) c).loose
  hwaits := Pipeline.hwaits_of_owed_zero _ _ _ _ Lz lvz 1 fun _ _ => rfl
  pre c := iprop(StableHlo.held (c : Thread nD τ) (Pipeline.ucRefs τ sig) (Wt3 m c) ∗ Rr c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vt3 m c)
  hentry c := by
    rw [Pipeline.ownSems0_none]
    have hsplit : (StableHlo.held (c : Thread nD τ) (Pipeline.ucRefs τ sig) (Wt3 m c) : sProp 𝕄)
        ⊢ iprop((pdats m 1 c).arrays ((pdats m 1 c).arrAt · 0)
          ∗ Pipeline.unscopedRest (Ix := Unit) (Name := ℕ) (U := UR sig nD τ) (Lvl := ℕ) spec1 c (Vt3 m c)) := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (Vt3 m c))
        ⊢ (StableHlo.held (c : Thread nD τ) (Pipeline.ucRefs τ sig) (Wt4 m c) : sProp 𝕄) := exit1 m c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ Lz lvz) :=
  [ .host (hseg hostOps0 hostOps0_sub hostOps0_fresh (Wt0 m)),
    .region (reg0 m),
    .host (hseg hostOps1 hostOps1_sub hostOps1_fresh (Wt2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wt4 m c b) :=
  Pipeline.θ_run_regions_kit (pcfgs (F := F)) adm (pdats m) () cellOf_inj emb₁ defs₀ 𝒱₀ Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wt0 m c) ∗ Rr c)) (Tₙ := Tend m)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (Wt0 m c)
        from Pipeline.unscopedBufs_held c (Wt0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wt4 m c b)
    (hfin := fun c s' => by
      iintro ⟨⟨Hh, -⟩, HSI⟩
      unfold StableHlo.held
      imodintro
      iapply (pointsTo_read_all (Pipeline.ucRefs τ sig) (fun b => (((c : Thread nD τ)).1, b)) (Wt4 m c) s')
      isplitl [Hh] <;> iassumption)
    (hQ := fun s h => h)

/-- Hence the frame: each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (Wt4_arg m c main_arg0 (by decide) (by decide) (by decide) (by decide)),
     (h c _ (mem_uc main_arg1 (by decide))).trans (Wt4_arg m c main_arg1 (by decide) (by decide) (by decide) (by decide)),
     (h c _ (mem_uc main_arg2 (by decide))).trans (Wt4_arg m c main_arg2 (by decide) (by decide) (by decide) (by decide)),
     (h c _ (mem_uc main_arg3 (by decide))).trans (Wt4_arg m c main_arg3 (by decide) (by decide) (by decide) (by decide)),
     (h c _ (mem_uc main_arg4 (by decide))).trans (Wt4_arg m c main_arg4 (by decide) (by decide) (by decide) (by decide))⟩)
    (run_all m ρ)

end Cert.KernelIdeal.Hand

end
-- ==== Proof.KI_Val0.lean ====
/-
  The value the fused query/key/value projection leaves in its result array, at the ideal values: the
  8192 × 3072 product of the flattened activations (8192 rows of 1024 channels) with the projection weights
  (3072 rows of 1024 channels), each entry the sum over the channel of the products, as ONE function of the two
  arrays the region finds at its entry.  The body's product of one 1024-row block with the whole weight matrix is
  read entry by entry; each grid point's written-back block is the block of that whole-array product its index map
  names; and the 8 blocks tile the result's rows.
-/
import proofs.«414892_j56607668961917_3_alg».proof.Proof.KI_R0
import Idealize.ShloMosaic.Lib.Pipeline.Value
import Idealize.ShloMosaic.Lib.ValueIdx
import Idealize.ShloMosaic.PureOps.Ideal.Laws

set_option maxRecDepth 16384

noncomputable section

namespace Cert.KernelIdeal.Val0

open Cert.KernelIdeal Cert.KernelIdeal.Gen Cert.KernelIdeal.Hand Idealize.ShloMosaic Idealize.ShloMosaic.ValueIdx
open Idealize.ShloMosaic.TcCoe
open Idealize.ShloMosaic.Pipeline (Dat)

/-! ## The block product at an entry -/

/-- The left operand's row is the output's row. -/
theorem lhs_row (i : S1024x3072.Idx) (q : dot_S1024x1024_S3072x1024_S1024x3072_1_1_0_0_n_n.contr.Idx) :
    (dot_S1024x1024_S3072x1024_S1024x3072_1_1_0_0_n_n.lhsIdx i q 0).val = (i 0).val := by
  unfold DotDims.lhsIdx
  rw [dif_neg (show ¬(0 : Fin S1024x1024.rank) ∈ dot_S1024x1024_S3072x1024_S1024x3072_1_1_0_0_n_n.lhsBatch by decide), dif_pos (show (0 : Fin S1024x1024.rank) ∈ dot_S1024x1024_S3072x1024_S1024x3072_1_1_0_0_n_n.lhsNonContracting by decide)]
  rfl
/-- The left operand's column is the contracted channel. -/
theorem lhs_chan (i : S1024x3072.Idx) (q : dot_S1024x1024_S3072x1024_S1024x3072_1_1_0_0_n_n.contr.Idx) :
    (dot_S1024x1024_S3072x1024_S1024x3072_1_1_0_0_n_n.lhsIdx i q 1).val = (q ⟨0, by decide⟩).val :=
  dot_S1024x1024_S3072x1024_S1024x3072_1_1_0_0_n_n.lhsIdx_val_of_single rfl i q
/-- The right operand's row is the output's column. -/
theorem rhs_row (i : S1024x3072.Idx) (q : dot_S1024x1024_S3072x1024_S1024x3072_1_1_0_0_n_n.contr.Idx) :
    (dot_S1024x1024_S3072x1024_S1024x3072_1_1_0_0_n_n.rhsIdx i q 0).val = (i 1).val := by
  unfold DotDims.rhsIdx
  rw [dif_neg (show ¬(0 : Fin S3072x1024.rank) ∈ dot_S1024x1024_S3072x1024_S1024x3072_1_1_0_0_n_n.rhsBatch by decide), dif_pos (show (0 : Fin S3072x1024.rank) ∈ dot_S1024x1024_S3072x1024_S1024x3072_1_1_0_0_n_n.rhsNonContracting by decide)]
  rfl
/-- The right operand's column is the contracted channel. -/
theorem rhs_chan (i : S1024x3072.Idx) (q : dot_S1024x1024_S3072x1024_S1024x3072_1_1_0_0_n_n.contr.Idx) :
    (dot_S1024x1024_S3072x1024_S1024x3072_1_1_0_0_n_n.rhsIdx i q 1).val = (q ⟨0, by decide⟩).val :=
  dot_S1024x1024_S3072x1024_S1024x3072_1_1_0_0_n_n.rhsIdx_val_of_single rfl i q

/-- The product of a 1024 × 1024 block with the 3072 × 1024 matrix, accumulated into zero, at entry (p, j): row p of
    the block against row j of the matrix, summed over the 1024 channels. -/
theorem prod_apply (a : FVec Ideal S1024x1024 .bf16) (b : FVec Ideal S3072x1024 .bf16) (p : Fin 1024) (j : Fin 3072) :
    matmul dot_S1024x1024_S3072x1024_S1024x3072_1_1_0_0_n_n none a b (constant S1024x3072 .f32 0x00000000#32) (ix2 p j)
      = ∑ cc : Fin 1024, a (ix2 p cc) * b (ix2 j cc) := by
  show FloatOps.matmul dot_S1024x1024_S3072x1024_S1024x3072_1_1_0_0_n_n none a b (constant S1024x3072 .f32 0x00000000#32) (ix2 p j) = _
  rw [Ideal.matmul_constant_zero_apply, ← Equiv.sum_comp (ValueIdx.contrEquiv1 dot_S1024x1024_S3072x1024_S1024x3072_1_1_0_0_n_n 1024 rfl rfl).symm]
  refine Finset.sum_congr rfl fun k _ => ?_
  have hk := ValueIdx.contrEquiv1_symm_val dot_S1024x1024_S3072x1024_S1024x3072_1_1_0_0_n_n 1024 rfl rfl k
  have el : dot_S1024x1024_S3072x1024_S1024x3072_1_1_0_0_n_n.lhsIdx (ix2 p j) ((ValueIdx.contrEquiv1 dot_S1024x1024_S3072x1024_S1024x3072_1_1_0_0_n_n 1024 rfl rfl).symm k) = ix2 p k := funext fun a => Fin.ext (by
    match a with
    | ⟨0, _⟩ => exact lhs_row _ _
    | ⟨1, _⟩ => exact (lhs_chan _ _).trans hk)
  have er : dot_S1024x1024_S3072x1024_S1024x3072_1_1_0_0_n_n.rhsIdx (ix2 p j) ((ValueIdx.contrEquiv1 dot_S1024x1024_S3072x1024_S1024x3072_1_1_0_0_n_n 1024 rfl rfl).symm k) = ix2 j k := funext fun a => Fin.ext (by
    match a with
    | ⟨0, _⟩ => exact rhs_row _ _
    | ⟨1, _⟩ => exact (rhs_chan _ _).trans hk)
  rw [el, er]

/-- The body's payload at entry (p, j): that sum for the activations' block and the weights (the casts keep the
    shapes and the format changes are the identity at the ideal values). -/
theorem pay_apply (x0 : Vec Ideal S1024x1024 .f32) (x1 : Vec Ideal S3072x1024 .bf16) (p : Fin 1024) (j : Fin 3072) :
    k0_pay1 x0 x1 (ix2 p j) = ∑ cc : Fin 1024, x0 (ix2 p cc) * x1 (ix2 j cc) := by
  unfold k0_pay1
  simp only [shapeCast_self]
  exact prod_apply (truncf .bf16 x0 bitsLt_bf16_f32) x1 p j

/-! ## From the blocks to the array -/

section Region0

variable (V : (c : Dev nD) → (b : Ref sig .tc) → Buf (Elt Ideal) ((c : Thread nD τ).loc b))

/-- Row r of the flattened activations against row j of the weights, summed over the 1024 channels. -/
def qkvFlat (x : Vec Ideal S8192x1024 .f32) (w : Vec Ideal S3072x1024 .bf16) : Vec Ideal S8192x3072 .bf16 :=
  fun y => ∑ cc : Fin 1024, x (ix2 ⟨(y 0).val, (y 0).isLt⟩ cc) * w (ix2 ⟨(y 1).val, (y 1).isLt⟩ cc)

/-- The stores' and loads' offsets are all zero. -/
theorem zero_offsets : (![0, 0] : Fin 2 → Nat) = fun _ => 0 := funext fun a => by fin_cases a <;> rfl

/-- The index maps, decided over the 8 grid points: the activations' and the result's blocks are row block `t`, the
    weights' block is the whole matrix. -/
theorem blk_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, cc) of the activations' block at point `t` is entry (1024 t + p, cc) of the array. -/
theorem act_blk_apply (c : Dev nD) (t : Fin cfg0.N) (p cc : Fin 1024) (i : S8192x1024.Idx)
    (h0 : (i 0).val = t.val * 1024 + p.val) (h1 : (i 1).val = cc.val) :
    (iblk0 V c 0 t : Vec Ideal S1024x1024 .f32) (ix2 p cc) = V c main_v2 i := by
  obtain ⟨e0, e1, -⟩ := blk_index t
  show V c main_v2 (((cfg0.win 0).blk t).view.emb (ix2 p cc)) = V c main_v2 i
  refine congrArg (V c main_v2) (funext fun a => Fin.ext ?_)
  match a with
  | ⟨0, _⟩ => show win0_0.index t (0 : Fin 2) * 1024 + 1 * p.val = (i 0).val; omega
  | ⟨1, _⟩ => show win0_0.index t (1 : Fin 2) * 1024 + 1 * cc.val = (i 1).val; omega

/-- Entry (j, cc) of the weights' block at any point is entry (j, cc) of the matrix. -/
theorem wt_blk_apply (c : Dev nD) (t : Fin cfg0.N) (j : Fin 3072) (cc : Fin 1024) (i : S3072x1024.Idx)
    (h0 : (i 0).val = j.val) (h1 : (i 1).val = cc.val) :
    (iblk0 V c 1 t : Vec Ideal S3072x1024 .bf16) (ix2 j cc) = V c main_v0 i := by
  obtain ⟨-, -, e2, e3, -⟩ := blk_index t
  show V c main_v0 (((cfg0.win 1).blk t).view.emb (ix2 j cc)) = V c main_v0 i
  refine congrArg (V c main_v0) (funext fun a => Fin.ext ?_)
  match a with
  | ⟨0, _⟩ => show win0_1.index t (0 : Fin 2) * 3072 + 1 * j.val = (i 0).val; omega
  | ⟨1, _⟩ => show win0_1.index t (1 : Fin 2) * 1024 + 1 * cc.val = (i 1).val; omega

/-- What point `t` writes back is block `t` of the whole-array product: entry (p, j) of the body's product is row
    1024 t + p of the activations against row j of the weights. -/
theorem flushed_eq (c : Dev nD) (t : Fin cfg0.N) :
    (dat0 V c).flushed 2 t = ((cfg0.win 2).blk t).view.read (Elt Ideal) (qkvFlat (V c main_v2) (V c main_v0)) := by
  show (cfg0.win 2).cut (grid0.coords t) ((dat0 V c).after 2 t) = _
  rw [after0_2]
  unfold out0_2
  rw [View.canon_unit_zero zero_offsets]
  simp only [View.ld_unit_zero (S := S1024x1024) zero_offsets, View.ld_unit_zero (S := S3072x1024) zero_offsets]
  obtain ⟨-, -, -, -, e4, e5⟩ := blk_index t
  funext y
  have hy0 : (y 0).val < 1024 := (y 0).isLt
  have hy1 : (y 1).val < 3072 := (y 1).isLt
  have hx : (cfg0.win 2).xinj (grid0.coords t) y = ix2 (⟨(y 0).val, hy0⟩ : Fin 1024) (⟨(y 1).val, hy1⟩ : Fin 3072) := funext fun a => by
    match a with
    | ⟨0, _⟩ => rfl
    | ⟨1, _⟩ => rfl
  show k0_pay1 (iblk0 V c 0 t) (iblk0 V c 1 t) ((cfg0.win 2).xinj (grid0.coords t) y)
    = qkvFlat (V c main_v2) (V c main_v0) (((cfg0.win 2).blk t).view.emb y)
  rw [hx, pay_apply]
  unfold qkvFlat
  refine Finset.sum_congr rfl fun cc _ => congrArg₂ (· * ·) ?_ ?_
  · refine act_blk_apply V c t _ cc _ ?_ rfl
    show win0_2.index t (0 : Fin 2) * 1024 + 1 * (y 0).val = t.val * 1024 + (y 0).val
    omega
  · refine wt_blk_apply V c t _ cc _ ?_ rfl
    show win0_2.index t (1 : Fin 2) * 3072 + 1 * (y 1).val = (y 1).val
    omega

/-- An index of the result is in point `t`'s block iff each coordinate is in the block's range on its axis. -/
theorem mem_blk (t : Fin cfg0.N) (i : S8192x3072.Idx) :
    i ∈ ((cfg0.win 2).blk t).view.set ↔ ∀ a : Fin 2, win0_2.index t a * S1024x3072.size a ≤ (i a).val ∧ (i a).val < win0_2.index t a * S1024x3072.size a + S1024x3072.size a := by
  show i ∈ ((View.whole main_v3).slice (win0_2.rect t)).set ↔ _
  rw [View.set_slice_whole, Rect.mem_set_unit]
  exact Iff.rfl

/-- The 8 blocks tile the result's rows: row r is in the block of point r / 1024, whatever the column. -/
theorem cover (i : S8192x3072.Idx) : ∃ t : Fin cfg0.N, (cfg0.win 2).flush t = true ∧ i ∈ ((cfg0.win 2).blk t).view.set := by
  have hi0 : (i 0).val < 8192 := (i 0).isLt
  have hi1 : (i 1).val < 3072 := (i 1).isLt
  have hlt : (i 0).val / 1024 < grid0.N := by rw [N_0]; omega
  obtain ⟨-, -, -, -, e4, e5⟩ := blk_index ⟨(i 0).val / 1024, hlt⟩
  have e4' : win0_2.index ⟨(i 0).val / 1024, hlt⟩ (0 : Fin 2) = (i 0).val / 1024 := e4
  refine ⟨⟨(i 0).val / 1024, hlt⟩, flush0_2 _, ?_⟩
  rw [mem_blk]
  intro a
  match a with
  | ⟨0, _⟩ =>
    show win0_2.index ⟨(i 0).val / 1024, hlt⟩ (0 : Fin 2) * 1024 ≤ (i 0).val ∧ (i 0).val < win0_2.index ⟨(i 0).val / 1024, hlt⟩ (0 : Fin 2) * 1024 + 1024
    omega
  | ⟨1, _⟩ =>
    show win0_2.index ⟨(i 0).val / 1024, hlt⟩ (1 : Fin 2) * 3072 ≤ (i 1).val ∧ (i 1).val < win0_2.index ⟨(i 0).val / 1024, hlt⟩ (1 : Fin 2) * 3072 + 3072
    omega

/-- THE ARRAY after the region: the whole 8192 × 3072 product of the flattened activations with the weights. -/
theorem arr0_final (c : Dev nD) : (dat0 (F := Ideal) V c).arrAt 2 cfg0.N = qkvFlat (V c main_v2) (V c main_v0) :=
  (dat0 V c).arrAt_eq_of_cover 2 (qkvFlat (V c main_v2) (V c main_v0)) (fun t _ => flushed_eq V c t) cover

end Region0

end Cert.KernelIdeal.Val0

end
-- ==== Proof.Spec.lean ====
/-
  The mathematics both programs compute, written once over plain coordinates.

  Inputs: an activation tensor `X b n c` (4 × 2048 × 1024), a per-key window weight `M b k`
  (4 × 2048), the fused projection `Wq j c` (3072 × 1024, rows 0–1023 the queries, 1024–2047 the
  keys, 2048–3071 the values, each split into 16 heads of 64 channels), the output projection
  `Wp j c` (1024 × 1024) and its bias `Bp j`.

  `qkv b n j = ∑ c, X b n c · Wq j c`.
  For head `h`: the score of query row `q` against key row `k` is
  `∑ d, (Q·⅛) · K + (M b k · 100 − 100)`; a row of scores is normalised by the softmax written with
  the row maximum subtracted (maximum taken from −∞, quotient by the row's sum of exponentials);
  the head's output is the probabilities times the values; the heads' outputs, laid side by side
  along the channel axis (channel `c` belongs to head `c / 64`, lane `c % 64`), are projected by
  `Wp` and `Bp` is added.

  Every operation is the extended-real one (`*`, `+`, `-`, `max`, `Ideal.exp`, `Ideal.div`);
  the three float literals are kept as their bit patterns.
-/
import Idealize.ShloMosaic.PureOps.Ideal
import Idealize.ShloMosaic.PureOps.Ideal.Laws
import Idealize.ShloMosaic.Lib.ValueIdx

noncomputable section

namespace Cert.Spec

open Idealize.ShloMosaic

/-- The literal 100.0. -/
abbrev c100 : EReal := Ideal.ofBits .f32 0x42C80000#32
/-- The literal 0.125 = 64^(-1/2). -/
abbrev cScale : EReal := Ideal.ofBits .f32 0x3E000000#32
/-- The literal −∞ a row maximum starts from. -/
abbrev cBot : EReal := Ideal.ofBits .f32 0xFF800000#32

/-- Column of the fused projection holding lane `d` of head `h`'s query. -/
def colQ (h : Fin 16) (d : Fin 64) : Fin 3072 := ⟨h.val * 64 + d.val, by omega⟩
/-- … of its key. -/
def colK (h : Fin 16) (d : Fin 64) : Fin 3072 := ⟨1024 + (h.val * 64 + d.val), by omega⟩
/-- … of its value. -/
def colV (h : Fin 16) (d : Fin 64) : Fin 3072 := ⟨2048 + (h.val * 64 + d.val), by omega⟩

/-- Head of channel `c`. -/
def headOf (c : Fin 1024) : Fin 16 := ⟨c.val / 64, by omega⟩
/-- Lane of channel `c` inside its head. -/
def laneOf (c : Fin 1024) : Fin 64 := ⟨c.val % 64, by omega⟩

section

variable (QKV : Fin 4 → Fin 2048 → Fin 3072 → EReal) (M : Fin 4 → Fin 2048 → EReal)
  (Wp : Fin 1024 → Fin 1024 → EReal) (Bp : Fin 1024 → EReal)

/-- The additive window bias of key row `k`. -/
def bias (b : Fin 4) (k : Fin 2048) : EReal := M b k * c100 - c100

/-- Scaled dot-product score of query row `q` against key row `k` in head `h`, bias added, from a fused
    query/key/value tensor `QKV b n j`. -/
def score (b : Fin 4) (h : Fin 16) (q k : Fin 2048) : EReal :=
  (∑ d : Fin 64, (QKV b q (colQ h d) * cScale) * QKV b k (colK h d)) + bias M b k

/-- The row maximum of the scores, taken from −∞. -/
def rowMax (b : Fin 4) (h : Fin 16) (q : Fin 2048) : EReal :=
  (Finset.univ : Finset (Fin 2048)).fold max cBot (fun k => score QKV M b h q k)

/-- The shifted exponential. -/
def expo (b : Fin 4) (h : Fin 16) (q k : Fin 2048) : EReal :=
  Ideal.exp (score QKV M b h q k - rowMax QKV M b h q)

/-- The row's normaliser. -/
def denom (b : Fin 4) (h : Fin 16) (q : Fin 2048) : EReal := ∑ k : Fin 2048, expo QKV M b h q k

/-- The attention probability. -/
def prob (b : Fin 4) (h : Fin 16) (q k : Fin 2048) : EReal :=
  Ideal.div (expo QKV M b h q k) (denom QKV M b h q)

/-- Head `h`'s output at query row `q`, lane `d`. -/
def head (b : Fin 4) (h : Fin 16) (q : Fin 2048) (d : Fin 64) : EReal :=
  ∑ k : Fin 2048, prob QKV M b h q k * QKV b k (colV h d)

/-- The heads side by side along the channel axis. -/
def attn (b : Fin 4) (n : Fin 2048) (c : Fin 1024) : EReal := head QKV M b (headOf c) n (laneOf c)

/-- The output projection of the attention rows plus its bias, from a fused tensor `QKV`. -/
def outOf (b : Fin 4) (n : Fin 2048) (j : Fin 1024) : EReal :=
  (∑ c : Fin 1024, attn QKV M b n c * Wp j c) + Bp j

end

/-- The fused query/key/value projection. -/
def qkv (X : Fin 4 → Fin 2048 → Fin 1024 → EReal) (Wq : Fin 3072 → Fin 1024 → EReal)
    (b : Fin 4) (n : Fin 2048) (j : Fin 3072) : EReal := ∑ c : Fin 1024, X b n c * Wq j c

/-- The result: attention over the projected tensor. -/
def out (X : Fin 4 → Fin 2048 → Fin 1024 → EReal) (M : Fin 4 → Fin 2048 → EReal)
    (Wq : Fin 3072 → Fin 1024 → EReal) (Wp : Fin 1024 → Fin 1024 → EReal) (Bp : Fin 1024 → EReal)
    (b : Fin 4) (n : Fin 2048) (j : Fin 1024) : EReal := outOf (qkv X Wq) M Wp Bp b n j

/-! ## One head on blocks

The same head written over a block of query rows `Qf r d` (any number of rows), the head's keys `Kf k d` and values
`Vf k d` (2048 rows of 64 lanes) and the bias row `Bf k`: what a kernel that works tile by tile computes. -/

section Head

variable {nq : Nat} (Qf : Fin nq → Fin 64 → EReal) (Kf Vf : Fin 2048 → Fin 64 → EReal) (Bf : Fin 2048 → EReal)

def hScore (r : Fin nq) (k : Fin 2048) : EReal := (∑ d : Fin 64, (Qf r d * cScale) * Kf k d) + Bf k
def hMax (r : Fin nq) : EReal := (Finset.univ : Finset (Fin 2048)).fold max cBot (fun k => hScore Qf Kf Bf r k)
def hExp (r : Fin nq) (k : Fin 2048) : EReal := Ideal.exp (hScore Qf Kf Bf r k - hMax Qf Kf Bf r)
def hDen (r : Fin nq) : EReal := ∑ k : Fin 2048, hExp Qf Kf Bf r k
def hProb (r : Fin nq) (k : Fin 2048) : EReal := Ideal.div (hExp Qf Kf Bf r k) (hDen Qf Kf Bf r)
def hOut (r : Fin nq) (d : Fin 64) : EReal := ∑ k : Fin 2048, hProb Qf Kf Bf r k * Vf k d

end Head

/-- A row of a head's output depends on that query row only. -/
theorem hOut_row {nq nq' : Nat} (Qf : Fin nq → Fin 64 → EReal) (Qf' : Fin nq' → Fin 64 → EReal)
    (Kf Vf : Fin 2048 → Fin 64 → EReal) (Bf : Fin 2048 → EReal) (r : Fin nq) (r' : Fin nq')
    (h : Qf r = Qf' r') (d : Fin 64) : hOut Qf Kf Vf Bf r d = hOut Qf' Kf Vf Bf r' d := by
  unfold hOut hProb hDen hExp hMax hScore
  rw [h]

/-- The head of the whole tensor is the block form at all 2048 query rows. -/
theorem head_eq_hOut (QKV : Fin 4 → Fin 2048 → Fin 3072 → EReal) (M : Fin 4 → Fin 2048 → EReal)
    (b : Fin 4) (h : Fin 16) (q : Fin 2048) (d : Fin 64) :
    head QKV M b h q d
      = hOut (fun n d => QKV b n (colQ h d)) (fun k d => QKV b k (colK h d)) (fun k d => QKV b k (colV h d)) (bias M b) q d := rfl

open Idealize.ShloMosaic.ValueIdx in
/-- The result as an array over the output shape, from the five argument arrays read at their coordinates
    (the window weight's trailing unit axis at 0). -/
def G (x0 : (⟨3, ![4, 2048, 1024]⟩ : Shape).Idx → EReal) (x1 : (⟨3, ![4, 2048, 1]⟩ : Shape).Idx → EReal)
    (x2 : (⟨2, ![3072, 1024]⟩ : Shape).Idx → EReal) (x3 : (⟨2, ![1024, 1024]⟩ : Shape).Idx → EReal)
    (x4 : (⟨1, ![1024]⟩ : Shape).Idx → EReal) : (⟨3, ![4, 2048, 1024]⟩ : Shape).Idx → EReal :=
  fun i => out (fun b n c => x0 (ix3 b n c)) (fun b k => x1 (ix3 b k (0 : Fin 1))) (fun j c => x2 (ix2 j c))
    (fun j c => x3 (ix2 j c)) (fun j => x4 (ix1 j))
    ⟨(i 0).val, (i 0).isLt⟩ ⟨(i 1).val, (i 1).isLt⟩ ⟨(i 2).val, (i 2).isLt⟩

end Cert.Spec

end
-- ==== Proof.KI_HeadVal.lean ====
/-
  One attention head of the fused kernel read at an index, over the extended reals: the head's output block at
  row r and lane d is the specification's block form, Cert.Spec.hOut, of the query block, the key and value blocks
  and the bias row read at their coordinates.  The reading goes one operation at a time: the scaled queries, the
  scores (a contraction over the 64 lanes plus the bias), the row maximum, the exponentials, their row sum, the
  quotient, and the contraction with the values over the 2048 key rows.
-/
import proofs.«414892_j56607668961917_3_alg».proof.Proof.KI_Heads
import proofs.«414892_j56607668961917_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HeadVal

open Cert.KernelIdeal Cert.KernelIdeal.Gen Cert.KernelIdeal.Hand Idealize.ShloMosaic Idealize.ShloMosaic.ValueIdx

/-! ## The bias row -/

theorem biasRow_apply (m : Vec Ideal S1x1x2048 .f32) (kk : Fin 2048) :
    biasRow (F := Ideal) m (ix2 (0 : Fin 1) kk) = m (ix3 (0 : Fin 1) (0 : Fin 1) kk) * Cert.Spec.c100 - Cert.Spec.c100 := by
  show (shapeCast S1x2048 m shapeCasts_S1x1x2048_S1x2048) (ix2 (0 : Fin 1) kk) * Cert.Spec.c100 - Cert.Spec.c100 = _
  rw [shapeCast_1ab_ab_apply]

/-! ## The two contractions at an index -/

/-- Queries times keys: operand axes. -/
theorem lhs_qk_0 (i : S512x2048.Idx) (c : dot_S512x64_S2048x64_S512x2048_1_1_0_0_n_n.contr.Idx) :
    (dot_S512x64_S2048x64_S512x2048_1_1_0_0_n_n.lhsIdx i c 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_qk_1 (i : S512x2048.Idx) (c : dot_S512x64_S2048x64_S512x2048_1_1_0_0_n_n.contr.Idx) :
    (dot_S512x64_S2048x64_S512x2048_1_1_0_0_n_n.lhsIdx i c 1).val = (c ⟨0, by decide⟩).val :=
  dot_S512x64_S2048x64_S512x2048_1_1_0_0_n_n.lhsIdx_val_of_single rfl i c
theorem rhs_qk_0 (i : S512x2048.Idx) (c : dot_S512x64_S2048x64_S512x2048_1_1_0_0_n_n.contr.Idx) :
    (dot_S512x64_S2048x64_S512x2048_1_1_0_0_n_n.rhsIdx i c 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_qk_1 (i : S512x2048.Idx) (c : dot_S512x64_S2048x64_S512x2048_1_1_0_0_n_n.contr.Idx) :
    (dot_S512x64_S2048x64_S512x2048_1_1_0_0_n_n.rhsIdx i c 1).val = (c ⟨0, by decide⟩).val :=
  dot_S512x64_S2048x64_S512x2048_1_1_0_0_n_n.rhsIdx_val_of_single rfl i c

/-- The scores' contraction: row r of the left block against row kk of the right block, over the 64 lanes. -/
theorem mm_qk_apply (x : FVec Ideal S512x64 .bf16) (y : FVec Ideal S2048x64 .bf16) (r : Fin 512) (kk : Fin 2048) :
    matmul dot_S512x64_S2048x64_S512x2048_1_1_0_0_n_n none x y (constant S512x2048 .f32 0x00000000#32) (ix2 r kk)
      = ∑ d : Fin 64, x (ix2 r d) * y (ix2 kk d) := by
  simp only [matmul]
  rw [Ideal.matmul_constant_zero_apply, ← Equiv.sum_comp (contrEquiv1 dot_S512x64_S2048x64_S512x2048_1_1_0_0_n_n 64 rfl rfl).symm]
  refine Finset.sum_congr rfl fun d _ => ?_
  have hd := contrEquiv1_symm_val dot_S512x64_S2048x64_S512x2048_1_1_0_0_n_n 64 rfl rfl d
  have el : dot_S512x64_S2048x64_S512x2048_1_1_0_0_n_n.lhsIdx (ix2 r kk) ((contrEquiv1 dot_S512x64_S2048x64_S512x2048_1_1_0_0_n_n 64 rfl rfl).symm d) = ix2 r d := funext fun a => Fin.ext (by
    match a with
    | ⟨0, _⟩ => exact lhs_qk_0 _ _
    | ⟨1, _⟩ => exact (lhs_qk_1 _ _).trans hd)
  have er : dot_S512x64_S2048x64_S512x2048_1_1_0_0_n_n.rhsIdx (ix2 r kk) ((contrEquiv1 dot_S512x64_S2048x64_S512x2048_1_1_0_0_n_n 64 rfl rfl).symm d) = ix2 kk d := funext fun a => Fin.ext (by
    match a with
    | ⟨0, _⟩ => exact rhs_qk_0 _ _
    | ⟨1, _⟩ => exact (rhs_qk_1 _ _).trans hd)
  rw [el, er]

/-- Probabilities times values: operand axes. -/
theorem lhs_pv_0 (i : S512x64.Idx) (c : dot_S512x2048_S2048x64_S512x64_1_0_0_1_n_n.contr.Idx) :
    (dot_S512x2048_S2048x64_S512x64_1_0_0_1_n_n.lhsIdx i c 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_pv_1 (i : S512x64.Idx) (c : dot_S512x2048_S2048x64_S512x64_1_0_0_1_n_n.contr.Idx) :
    (dot_S512x2048_S2048x64_S512x64_1_0_0_1_n_n.lhsIdx i c 1).val = (c ⟨0, by decide⟩).val :=
  dot_S512x2048_S2048x64_S512x64_1_0_0_1_n_n.lhsIdx_val_of_single rfl i c
theorem rhs_pv_0 (i : S512x64.Idx) (c : dot_S512x2048_S2048x64_S512x64_1_0_0_1_n_n.contr.Idx) :
    (dot_S512x2048_S2048x64_S512x64_1_0_0_1_n_n.rhsIdx i c 0).val = (c ⟨0, by decide⟩).val :=
  dot_S512x2048_S2048x64_S512x64_1_0_0_1_n_n.rhsIdx_val_of_single rfl i c
theorem rhs_pv_1 (i : S512x64.Idx) (c : dot_S512x2048_S2048x64_S512x64_1_0_0_1_n_n.contr.Idx) :
    (dot_S512x2048_S2048x64_S512x64_1_0_0_1_n_n.rhsIdx i c 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The output's contraction: row r of the probabilities against lane d of the values, over the 2048 key rows. -/
theorem mm_pv_apply (p : FVec Ideal S512x2048 .bf16) (y : FVec Ideal S2048x64 .bf16) (r : Fin 512) (d : Fin 64) :
    matmul dot_S512x2048_S2048x64_S512x64_1_0_0_1_n_n none p y (constant S512x64 .f32 0x00000000#32) (ix2 r d)
      = ∑ kk : Fin 2048, p (ix2 r kk) * y (ix2 kk d) := by
  simp only [matmul]
  rw [Ideal.matmul_constant_zero_apply, ← Equiv.sum_comp (contrEquiv1 dot_S512x2048_S2048x64_S512x64_1_0_0_1_n_n 2048 rfl rfl).symm]
  refine Finset.sum_congr rfl fun kk _ => ?_
  have hk := contrEquiv1_symm_val dot_S512x2048_S2048x64_S512x64_1_0_0_1_n_n 2048 rfl rfl kk
  have el : dot_S512x2048_S2048x64_S512x64_1_0_0_1_n_n.lhsIdx (ix2 r d) ((contrEquiv1 dot_S512x2048_S2048x64_S512x64_1_0_0_1_n_n 2048 rfl rfl).symm kk) = ix2 r kk := funext fun a => Fin.ext (by
    match a with
    | ⟨0, _⟩ => exact lhs_pv_0 _ _
    | ⟨1, _⟩ => exact (lhs_pv_1 _ _).trans hk)
  have er : dot_S512x2048_S2048x64_S512x64_1_0_0_1_n_n.rhsIdx (ix2 r d) ((contrEquiv1 dot_S512x2048_S2048x64_S512x64_1_0_0_1_n_n 2048 rfl rfl).symm kk) = ix2 kk d := funext fun a => Fin.ext (by
    match a with
    | ⟨0, _⟩ => exact (rhs_pv_0 _ _).trans hk
    | ⟨1, _⟩ => exact rhs_pv_1 _ _)
  rw [el, er]

/-! ## The row reductions and the column put back over the row -/

/-- A row index with the key coordinate inserted is the pair. -/
theorem lift_ix (h : S512x2048.Reduces [1] S512) (r : Fin 512) (kk : Fin 2048) : h.lift (ix1 r) kk = ix2 r kk :=
  funext fun a => Fin.ext (by
    match a with
    | ⟨0, _⟩ => rfl
    | ⟨1, _⟩ => rfl)

/-- A vector over the 512 rows, made a column and repeated along every row, reads its row's entry. -/
theorem col_apply {α : Type} (x : S512.Idx → α) (h1 : S512.ShapeCasts S512x1) (h2 : S512x1.Broadcasts S512x2048)
    (r : Fin 512) (kk : Fin 2048) :
    broadcastTo S512x2048 (shapeCast S512x1 x h1) h2 (ix2 r kk) = x (ix1 r) := by
  refine (broadcastTo_apply _ h2 (ix2 r kk) (ix2 r (0 : Fin 1)) fun a => ?_).trans ?_
  · match a with
    | ⟨0, _⟩ => rfl
    | ⟨1, _⟩ => rfl
  · exact shapeCast_apply x h1 _ _ (by
      rw [Shape.rowMajor_val_one, Shape.rowMajor_val_two]
      show r.val = r.val * 1 + 0
      omega)

/-- The row maximum, put back over the row: the fold of max from −∞ over the row's 2048 entries. -/
theorem rowMax_apply (x : FVec Ideal S512x2048 .f32) (r : Fin 512) (kk : Fin 2048) :
    broadcastTo S512x2048 (shapeCast S512x1 (multiReduction .maximumf [1] S512 x 0xFF800000#32 reduces_S512x2048_S512 (.inl rfl) rfl)
        shapeCasts_S512_S512x1) broadcasts_S512x1_S512x2048 (ix2 r kk)
      = (Finset.univ : Finset (Fin 2048)).fold max Cert.Spec.cBot (fun kk' => x (ix2 r kk')) := by
  rw [col_apply]
  refine (Ideal.multiReduction_maximumf_single x _ reduces_S512x2048_S512 _ _ (ix1 r)).trans ?_
  exact congrArg (Finset.univ.fold max _) (funext fun kk' => congrArg x (lift_ix _ r kk'))

/-- The row sum, put back over the row. -/
theorem rowSum_apply (x : FVec Ideal S512x2048 .f32) (r : Fin 512) (kk : Fin 2048) :
    broadcastTo S512x2048 (shapeCast S512x1 (multiReduction .add [1] S512 x 0x00000000#32 reduces_S512x2048_S512 (.inl rfl) rfl)
        shapeCasts_S512_S512x1) broadcasts_S512x1_S512x2048 (ix2 r kk)
      = ∑ kk' : Fin 2048, x (ix2 r kk') := by
  rw [col_apply]
  refine (Ideal.multiReduction_add_single x _ reduces_S512x2048_S512 _ _ (ix1 r)).trans ?_
  exact Finset.sum_congr rfl fun kk' _ => congrArg x (lift_ix _ r kk')

/-! ## The head, stage by stage -/

section Head

variable (b : FVec Ideal S1x2048 .f32) (q : Vec Ideal S1x512x64 .bf16) (k v : Vec Ideal S1x2048x64 .bf16)

/-- The score block: scaled queries against the keys, plus the bias row on every query row. -/
def scoreBlk : FVec Ideal S512x2048 .f32 :=
  addf (matmul dot_S512x64_S2048x64_S512x2048_1_1_0_0_n_n none
      (truncf .bf16 (mulf (extf .f32 (shapeCast S512x64 q shapeCasts_S1x512x64_S512x64) bitsLt_bf16_f32)
        (broadcast S512x64 (Scalar.ofBits .f32 0x3E000000#32))) bitsLt_bf16_f32)
      (shapeCast S2048x64 k shapeCasts_S1x2048x64_S2048x64 : FVec Ideal S2048x64 .bf16) (constant S512x2048 .f32 0x00000000#32))
    (broadcastTo S512x2048 b broadcasts_S1x2048_S512x2048)

/-- The exponentials of the scores less their row maximum. -/
def expBlk : FVec Ideal S512x2048 .f32 :=
  exp (subf (scoreBlk b q k) (broadcastTo S512x2048 (shapeCast S512x1
    (multiReduction .maximumf [1] S512 (scoreBlk b q k) 0xFF800000#32 reduces_S512x2048_S512 (.inl rfl) rfl)
    shapeCasts_S512_S512x1) broadcasts_S512x1_S512x2048))

/-- The exponentials over their row sum. -/
def probBlk : FVec Ideal S512x2048 .bf16 :=
  truncf .bf16 (divf (expBlk b q k) (broadcastTo S512x2048 (shapeCast S512x1
    (multiReduction .add [1] S512 (expBlk b q k) 0x00000000#32 reduces_S512x2048_S512 (.inl rfl) rfl)
    shapeCasts_S512_S512x1) broadcasts_S512x1_S512x2048)) bitsLt_bf16_f32

/-- The head's output block is the probabilities against the values. -/
theorem headOut_eq : headOut (F := Ideal) b q k v
    = shapeCast S512x64 (truncf .bf16 (matmul dot_S512x2048_S2048x64_S512x64_1_0_0_1_n_n none (probBlk b q k)
        (shapeCast S2048x64 v shapeCasts_S1x2048x64_S2048x64 : FVec Ideal S2048x64 .bf16) (constant S512x64 .f32 0x00000000#32)) bitsLt_bf16_f32)
        shapeCasts_S512x64_S512x64 := rfl

theorem scoreBlk_apply (r : Fin 512) (kk : Fin 2048) :
    scoreBlk b q k (ix2 r kk)
      = Cert.Spec.hScore (fun r d => q (ix3 (0 : Fin 1) r d)) (fun kk d => k (ix3 (0 : Fin 1) kk d)) (fun kk => b (ix2 (0 : Fin 1) kk)) r kk := by
  unfold scoreBlk Cert.Spec.hScore
  rw [addf_apply, mm_qk_apply, broadcastTo_1b_ab_apply]
  refine congrArg (· + _) (Finset.sum_congr rfl fun d _ => ?_)
  rw [shapeCast_1ab_ab_apply]
  show (shapeCast S512x64 q shapeCasts_S1x512x64_S512x64 (ix2 r d)) * Cert.Spec.cScale * _ = _
  rw [shapeCast_1ab_ab_apply]

theorem expBlk_apply (r : Fin 512) (kk : Fin 2048) :
    expBlk b q k (ix2 r kk)
      = Cert.Spec.hExp (fun r d => q (ix3 (0 : Fin 1) r d)) (fun kk d => k (ix3 (0 : Fin 1) kk d)) (fun kk => b (ix2 (0 : Fin 1) kk)) r kk := by
  unfold expBlk Cert.Spec.hExp Cert.Spec.hMax
  show Ideal.exp (scoreBlk b q k (ix2 r kk) - _) = _
  rw [rowMax_apply, scoreBlk_apply]
  exact congrArg (fun f => Ideal.exp (_ - Finset.univ.fold max Cert.Spec.cBot f)) (funext fun kk' => scoreBlk_apply b q k r kk')

theorem probBlk_apply (r : Fin 512) (kk : Fin 2048) :
    probBlk b q k (ix2 r kk)
      = Cert.Spec.hProb (fun r d => q (ix3 (0 : Fin 1) r d)) (fun kk d => k (ix3 (0 : Fin 1) kk d)) (fun kk => b (ix2 (0 : Fin 1) kk)) r kk := by
  unfold probBlk Cert.Spec.hProb Cert.Spec.hDen
  show Ideal.div (expBlk b q k (ix2 r kk)) _ = _
  rw [rowSum_apply, expBlk_apply]
  exact congrArg (Ideal.div _) (Finset.sum_congr rfl fun kk' _ => expBlk_apply b q k r kk')

end Head

theorem headOut_apply (b : FVec Ideal S1x2048 .f32) (q : Vec Ideal S1x512x64 .bf16) (k v : Vec Ideal S1x2048x64 .bf16) (r : Fin 512) (d : Fin 64) :
    headOut (F := Ideal) b q k v (ix2 r d)
      = Cert.Spec.hOut (fun r d => q (ix3 (0 : Fin 1) r d)) (fun kk d => k (ix3 (0 : Fin 1) kk d)) (fun kk d => v (ix3 (0 : Fin 1) kk d)) (fun kk => b (ix2 (0 : Fin 1) kk)) r d := by
  rw [headOut_eq, shapeCast_self]
  unfold Cert.Spec.hOut
  rw [truncf_apply, mm_pv_apply]
  refine Finset.sum_congr rfl fun kk _ => ?_
  rw [probBlk_apply, shapeCast_1ab_ab_apply]

end Cert.KernelIdeal.HeadVal

end
-- ==== Proof.KI_Val1.lean ====
/-
  The value the fused attention and output projection leave in their result array, at the ideal values, as ONE
  function of the four arrays the region finds at its entry: for batch b, row n and output channel j, the sum over the
  1024 attention channels c of (head c / 64 of the fused query/key/value tensor at row n, lane c % 64) times the
  projection's entry (j, c), plus the projection's bias at j.  The slab the sixteen heads are written into is read
  back as one function of the tile's queries, the batch's keys and values and the window weights; the projection of
  the slab is read entry by entry; each grid point's written-back block is the block of the whole-array function its
  index map names; and the 16 blocks tile the result (4 batches of 4 tiles of 512 rows).
-/
import proofs.«414892_j56607668961917_3_alg».proof.Proof.KI_R1
import proofs.«414892_j56607668961917_3_alg».proof.Proof.KI_Heads
import proofs.«414892_j56607668961917_3_alg».proof.Proof.Spec
import proofs.«414892_j56607668961917_3_alg».proof.Proof.KI_HeadVal
import Idealize.ShloMosaic.Lib.Pipeline.Value
import Idealize.ShloMosaic.Lib.ValueIdx
import Idealize.ShloMosaic.Lib.Ring
import Idealize.ShloMosaic.Lib.Tactic
import Idealize.ShloMosaic.PureOps.Ideal.Laws

set_option maxRecDepth 16384

noncomputable section

namespace Cert.KernelIdeal.Val1

open Cert.KernelIdeal Cert.KernelIdeal.Gen Cert.KernelIdeal.Hand Idealize.ShloMosaic Idealize.ShloMosaic.ValueIdx
open Idealize.ShloMosaic.TcCoe
open Idealize.ShloMosaic.Pipeline (Dat)

/-! ## The slab as one function -/

theorem hz2 : (![0, 0] : Fin 2 → Nat) = fun _ => 0 := funext fun a => by fin_cases a <;> rfl
theorem hz3 : (![0, 0, 0] : Fin 3 → Nat) = fun _ => 0 := funext fun a => by fin_cases a <;> rfl

/-- Channel of lane `d` of head `h`. -/
def chan (h : Fin 16) (d : Fin 64) : Fin 1024 := ⟨h.val * 64 + d.val, by omega⟩

/-- One head on blocks, from equal blocks. -/
theorem hOut_congr {nq : Nat} {Qf Qf' : Fin nq → Fin 64 → EReal} {Kf Kf' Vf Vf' : Fin 2048 → Fin 64 → EReal} {Bf Bf' : Fin 2048 → EReal}
    (hQ : Qf = Qf') (hK : Kf = Kf') (hV : Vf = Vf') (hB : Bf = Bf') (r : Fin nq) (d : Fin 64) :
    Cert.Spec.hOut Qf Kf Vf Bf r d = Cert.Spec.hOut Qf' Kf' Vf' Bf' r d := by
  subst hQ hK hV hB; rfl

/-- Head `h`'s output at row `r`, lane `d`, from the head's 64 channels of a tile of query rows, of the keys and of
    the values, and the bias row `m · 100 − 100` of the window weights. -/
def headAt {nq : Nat} (x0 : (⟨3, ![1, nq, 1024]⟩ : Shape).Idx → EReal) (x1 x2 : Vec Ideal S1x2048x1024 .bf16) (x3 : Vec Ideal S1x1x2048 .f32)
    (h : Fin 16) (r : Fin nq) (d : Fin 64) : EReal :=
  Cert.Spec.hOut (fun r d => x0 (ix3 (0 : Fin 1) r (chan h d))) (fun k d => x1 (ix3 (0 : Fin 1) k (chan h d)))
    (fun k d => x2 (ix3 (0 : Fin 1) k (chan h d))) (fun k => x3 (ix3 (0 : Fin 1) (0 : Fin 1) k) * Cert.Spec.c100 - Cert.Spec.c100) r d

/-- Entry (r, cc) of the slab: head cc / 64 at row r, lane cc % 64. -/
def slabAt (x0 : Vec Ideal S1x512x1024 .bf16) (x1 x2 : Vec Ideal S1x2048x1024 .bf16) (x3 : Vec Ideal S1x1x2048 .f32)
    (r : Fin 512) (cc : Fin 1024) : EReal :=
  headAt (nq := 512) x0 x1 x2 x3 (Cert.Spec.headOf cc) r (Cert.Spec.laneOf cc)

/-- The slab as an array over its shape. -/
def slabFn (x0 : Vec Ideal S1x512x1024 .bf16) (x1 x2 : Vec Ideal S1x2048x1024 .bf16) (x3 : Vec Ideal S1x1x2048 .f32) :
    Vec Ideal S512x1024 .bf16 :=
  fun y => slabAt x0 x1 x2 x3 ⟨(y 0).val, (y 0).isLt⟩ ⟨(y 1).val, (y 1).isLt⟩

variable (x0 : Vec Ideal S1x512x1024 .bf16) (x1 x2 : Vec Ideal S1x2048x1024 .bf16) (x3 : Vec Ideal S1x1x2048 .f32)
  (x4 : Vec Ideal S1024x1024 .bf16) (x5 : Vec Ideal S1x1024 .f32)

/-- At channel 64 h + d the slab holds head h's lane d. -/
theorem slabAt_chan (h : Fin 16) (r : Fin 512) (d : Fin 64) : slabAt x0 x1 x2 x3 r (chan h d) = headAt (nq := 512) x0 x1 x2 x3 h r d := by
  have e1 : Cert.Spec.headOf (chan h d) = h := Fin.ext (by show (h.val * 64 + d.val) / 64 = h.val; omega)
  have e2 : Cert.Spec.laneOf (chan h d) = d := Fin.ext (by show (h.val * 64 + d.val) % 64 = d.val; omega)
  unfold slabAt
  rw [e1, e2]

/-- The store of head h's block, through the rectangle at column offset o = 64 h, holds the slab's function on its
    columns: the head's loads read the 64 channels from o of the queries, keys and values. -/
theorem piece_apply (h : Fin 16) (o : Nat) (ho : o = h.val * 64)
    (inbQ : ∀ a, (![0, 0, o] : Fin 3 → Nat) a + S1x512x64.size a ≤ S1x512x1024.size a)
    (inbK : ∀ a, (![0, 0, o] : Fin 3 → Nat) a + S1x2048x64.size a ≤ S1x2048x1024.size a)
    (inbS : ∀ a, (![0, o] : Fin 2 → Nat) a + S512x64.size a ≤ S512x1024.size a) (r : Fin 512) (d : Fin 64) :
    headOut (F := Ideal) (biasRow (View.ld x3 r1_3)) (View.ld x0 (Rect.unit (s := S1x512x1024) ![0, 0, o] S1x512x64.size inbQ))
        (View.ld x1 (Rect.unit (s := S1x2048x1024) ![0, 0, o] S1x2048x64.size inbK))
        (View.ld x2 (Rect.unit (s := S1x2048x1024) ![0, 0, o] S1x2048x64.size inbK)) (ix2 r d)
      = slabFn x0 x1 x2 x3 ((Rect.unit (s := S512x1024) ![0, o] S512x64.size inbS).emb (ix2 r d)) := by
  have eS : slabFn x0 x1 x2 x3 ((Rect.unit (s := S512x1024) ![0, o] S512x64.size inbS).emb (ix2 r d)) = slabAt x0 x1 x2 x3 r (chan h d) := by
    unfold slabFn
    refine congr (congrArg (slabAt x0 x1 x2 x3) (Fin.ext ?_)) (Fin.ext ?_)
    · show 0 + 1 * r.val = r.val; omega
    · show o + 1 * d.val = h.val * 64 + d.val; omega
  rw [eS, slabAt_chan, HeadVal.headOut_apply]
  unfold headAt
  refine hOut_congr ?_ ?_ ?_ ?_ r d
  · funext r d
    refine congrArg x0 (funext fun a => Fin.ext ?_)
    match a with
    | ⟨0, _⟩ => rfl
    | ⟨1, _⟩ => show 0 + 1 * r.val = r.val; omega
    | ⟨2, _⟩ => show o + 1 * d.val = h.val * 64 + d.val; omega
  · funext k d
    refine congrArg x1 (funext fun a => Fin.ext ?_)
    match a with
    | ⟨0, _⟩ => rfl
    | ⟨1, _⟩ => show 0 + 1 * k.val = k.val; omega
    | ⟨2, _⟩ => show o + 1 * d.val = h.val * 64 + d.val; omega
  · funext k d
    refine congrArg x2 (funext fun a => Fin.ext ?_)
    match a with
    | ⟨0, _⟩ => rfl
    | ⟨1, _⟩ => show 0 + 1 * k.val = k.val; omega
    | ⟨2, _⟩ => show o + 1 * d.val = h.val * 64 + d.val; omega
  · funext k
    rw [HeadVal.biasRow_apply, View.ld_unit_zero (S := S1x1x2048) hz3]

/-- The same for every index of the head's block. -/
theorem piece_ok (h : Fin 16) (o : Nat) (ho : o = h.val * 64)
    (inbQ : ∀ a, (![0, 0, o] : Fin 3 → Nat) a + S1x512x64.size a ≤ S1x512x1024.size a)
    (inbK : ∀ a, (![0, 0, o] : Fin 3 → Nat) a + S1x2048x64.size a ≤ S1x2048x1024.size a)
    (inbS : ∀ a, (![0, o] : Fin 2 → Nat) a + S512x64.size a ≤ S512x1024.size a) (x : S512x64.Idx) :
    headOut (F := Ideal) (biasRow (View.ld x3 r1_3)) (View.ld x0 (Rect.unit (s := S1x512x1024) ![0, 0, o] S1x512x64.size inbQ))
        (View.ld x1 (Rect.unit (s := S1x2048x1024) ![0, 0, o] S1x2048x64.size inbK))
        (View.ld x2 (Rect.unit (s := S1x2048x1024) ![0, 0, o] S1x2048x64.size inbK)) x
      = slabFn x0 x1 x2 x3 ((Rect.unit (s := S512x1024) ![0, o] S512x64.size inbS).emb x) := by
  obtain ⟨r, d, rfl⟩ : ∃ (r : Fin 512) (d : Fin 64), x = ix2 r d := ⟨x 0, x 1, eq_ix2 x⟩
  exact piece_apply x0 x1 x2 x3 h o ho inbQ inbK inbS r d

/-- The slab after the sixteen stores is that function: the sixteen column blocks tile it. -/
theorem slab_eq : slab x0 x1 x2 x3 = slabFn x0 x1 x2 x3 := by
  funext y
  unfold slab
  refine View.canon_apply_of_pieces (slabFn x0 x1 x2 x3) (slabPieces x0 x1 x2 x3) ?_ y
    (View.cover_of_tiledL (slabPieces x0 x1 x2 x3) S512x64.size (by sl_kernel_rfl) y)
  unfold slabPieces
  simp only [List.forall_mem_cons, List.not_mem_nil, false_imp_iff, imp_true_iff, forall_const, and_true]
  refine ⟨?_, ?_, ?_, ?_, ?_, ?_, ?_, ?_, ?_, ?_, ?_, ?_, ?_, ?_, ?_, ?_⟩
  · exact piece_ok x0 x1 x2 x3 15 960 rfl _ _ _
  · exact piece_ok x0 x1 x2 x3 14 896 rfl _ _ _
  · exact piece_ok x0 x1 x2 x3 13 832 rfl _ _ _
  · exact piece_ok x0 x1 x2 x3 12 768 rfl _ _ _
  · exact piece_ok x0 x1 x2 x3 11 704 rfl _ _ _
  · exact piece_ok x0 x1 x2 x3 10 640 rfl _ _ _
  · exact piece_ok x0 x1 x2 x3 9 576 rfl _ _ _
  · exact piece_ok x0 x1 x2 x3 8 512 rfl _ _ _
  · exact piece_ok x0 x1 x2 x3 7 448 rfl _ _ _
  · exact piece_ok x0 x1 x2 x3 6 384 rfl _ _ _
  · exact piece_ok x0 x1 x2 x3 5 320 rfl _ _ _
  · exact piece_ok x0 x1 x2 x3 4 256 rfl _ _ _
  · exact piece_ok x0 x1 x2 x3 3 192 rfl _ _ _
  · exact piece_ok x0 x1 x2 x3 2 128 rfl _ _ _
  · exact piece_ok x0 x1 x2 x3 1 64 rfl _ _ _
  · exact piece_ok x0 x1 x2 x3 0 0 rfl _ _ _

/-- Entry (r, cc) of the slab. -/
theorem slab_apply (r : Fin 512) (cc : Fin 1024) : slab x0 x1 x2 x3 (ix2 r cc) = slabAt x0 x1 x2 x3 r cc := by
  rw [slab_eq]; rfl

/-! ## The projection of the slab at an entry -/

/-- The left operand's row is the output's row. -/
theorem lhs_row (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- The left operand's column is the contracted channel. -/
theorem lhs_chan (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- The right operand's row is the output's column. -/
theorem rhs_row (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- The right operand's column is the contracted channel. -/
theorem rhs_chan (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product of a 512 × 1024 slab with the 1024 × 1024 projection (contracting the channel of both), accumulated
    into zero, at entry (r, j): row r of the slab against row j of the projection, summed over the 1024 channels. -/
theorem prod_apply (a : FVec Ideal S512x1024 .bf16) (b : FVec Ideal S1024x1024 .bf16) (r : Fin 512) (j : Fin 1024) :
    matmul dot_S512x1024_S1024x1024_S512x1024_1_1_0_0_n_n none a b (constant S512x1024 .f32 0x00000000#32) (ix2 r j)
      = ∑ cc : Fin 1024, a (ix2 r cc) * b (ix2 j cc) := by
  show FloatOps.matmul dot_S512x1024_S1024x1024_S512x1024_1_1_0_0_n_n none a b (constant S512x1024 .f32 0x00000000#32) (ix2 r j) = _
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 r j) ((ValueIdx.contrEquiv1 dot_S512x1024_S1024x1024_S512x1024_1_1_0_0_n_n 1024 rfl rfl).symm k) = ix2 r k := funext fun a => Fin.ext (by
    match a with
    | ⟨0, _⟩ => exact lhs_row _ _
    | ⟨1, _⟩ => exact (lhs_chan _ _).trans hk)
  have er : dot_S512x1024_S1024x1024_S512x1024_1_1_0_0_n_n.rhsIdx (ix2 r j) ((ValueIdx.contrEquiv1 dot_S512x1024_S1024x1024_S512x1024_1_1_0_0_n_n 1024 rfl rfl).symm k) = ix2 j k := funext fun a => Fin.ext (by
    match a with
    | ⟨0, _⟩ => exact rhs_row _ _
    | ⟨1, _⟩ => exact (rhs_chan _ _).trans hk)
  rw [el, er]

/-- The body's last payload at entry (0, r, j): the slab's row r against the projection's row j, summed over the 1024
    channels, plus the bias at j (the casts keep the row-major positions; the bias row is repeated down the 512 rows). -/
theorem proj_apply (s : Vec Ideal S512x1024 .bf16) (x4 : Vec Ideal S1024x1024 .bf16) (x5 : Vec Ideal S1x1024 .f32)
    (r : Fin 512) (j : Fin 1024) :
    k1_pay2 s x4 x5 (ix3 (0 : Fin 1) r j) = (∑ cc : Fin 1024, s (ix2 r cc) * x4 (ix2 j cc)) + x5 (ix2 (0 : Fin 1) j) := by
  unfold k1_pay2
  simp only [shapeCast_self]
  rw [shapeCast_addUnit_apply ![512, 1024] _ shapeCasts_S512x1024_S1x512x1024 (ix3 (0 : Fin 1) r j)]
  rw [show (fun a : Fin 2 => (ix3 (0 : Fin 1) r j) a.succ) = ix2 r j from funext fun a => by
    match a with
    | ⟨0, _⟩ => rfl
    | ⟨1, _⟩ => rfl]
  rw [addf_apply, prod_apply]
  congr 1
  refine broadcastTo_apply _ _ _ _ fun a => ?_
  match a with
  | ⟨0, _⟩ => rfl
  | ⟨1, _⟩ => rfl

/-! ## The output staging buffer at an entry -/

/-- Entry (0, r, j) of what the body leaves in the output staging buffer: row r of the slab against row j of the
    projection, plus the bias at j. -/
theorem out_apply (r : Fin 512) (j : Fin 1024) :
    out1_6 x0 x1 x2 x3 x4 x5 (ix3 (0 : Fin 1) r j)
      = (∑ cc : Fin 1024, slabAt x0 x1 x2 x3 r cc * x4 (ix2 j cc)) + x5 (ix2 (0 : Fin 1) j) := by
  unfold out1_6
  rw [View.canon_unit_zero hz3]
  simp only [View.ld_unit_zero (S := S512x1024) hz2, View.ld_unit_zero (S := S1024x1024) hz2, View.ld_unit_zero (S := S1x1024) hz2]
  rw [proj_apply]
  simp only [slab_apply]

/-- The same entry when the six blocks are blocks of the four arrays: the tile's row r is row n of batch b, the
    keys and values are the batch's columns 1024… and 2048… of the fused tensor, the weights the batch's: the
    whole-array function at (b, n, j). -/
theorem tile_apply (A4 : Vec Ideal S4x2048x3072 .bf16) (A6 : Vec Ideal S4x1x2048 .f32) (A1 : Vec Ideal S1024x1024 .bf16) (A7 : Vec Ideal S1x1024 .f32)
    (b : Fin 4) (n : Fin 2048) (r : Fin 512) (j : Fin 1024)
    (hq : ∀ col : Fin 1024, x0 (ix3 (0 : Fin 1) r col) = A4 (ix3 b n (⟨col.val, by omega⟩ : Fin 3072)))
    (hk : ∀ (k : Fin 2048) (col : Fin 1024), x1 (ix3 (0 : Fin 1) k col) = A4 (ix3 b k (⟨1024 + col.val, by omega⟩ : Fin 3072)))
    (hv : ∀ (k : Fin 2048) (col : Fin 1024), x2 (ix3 (0 : Fin 1) k col) = A4 (ix3 b k (⟨2048 + col.val, by omega⟩ : Fin 3072)))
    (hm : ∀ k : Fin 2048, x3 (ix3 (0 : Fin 1) (0 : Fin 1) k) = A6 (ix3 b (0 : Fin 1) k))
    (hw : x4 = A1) (hb : x5 = A7) :
    out1_6 x0 x1 x2 x3 x4 x5 (ix3 (0 : Fin 1) r j)
      = Cert.Spec.outOf (fun b n j => A4 (ix3 b n j)) (fun b k => A6 (ix3 b (0 : Fin 1) k)) (fun j cc => A1 (ix2 j cc))
          (fun j => A7 (ix2 (0 : Fin 1) j)) b n j := by
  subst hw hb
  rw [out_apply]
  unfold Cert.Spec.outOf
  congr 1
  refine Finset.sum_congr rfl fun cc _ => ?_
  congr 1
  unfold Cert.Spec.attn
  rw [Cert.Spec.head_eq_hOut]
  unfold slabAt headAt
  refine (Cert.Spec.hOut_row _ (fun n d => A4 (ix3 b n (Cert.Spec.colQ (Cert.Spec.headOf cc) d))) _ _ _ r n ?_ _).trans
    (hOut_congr rfl ?_ ?_ ?_ n _)
  · funext d; rw [hq]; rfl
  · funext k d; rw [hk]; rfl
  · funext k d; rw [hv]; rfl
  · funext k; rw [hm]; rfl

/-! ## From the blocks to the array -/

section Region1

variable (V : (c : Dev nD) → (b : Ref sig .tc) → Buf (Elt Ideal) ((c : Thread nD τ).loc b))

/-- The result as an array over the output shape: at (b, n, j) the projected attention row of the fused tensor. -/
def attnOut (qkv : Vec Ideal S4x2048x3072 .bf16) (mw : Vec Ideal S4x1x2048 .f32) (wp : Vec Ideal S1024x1024 .bf16) (bp : Vec Ideal S1x1024 .f32) :
    Vec Ideal S4x2048x1024 .f32 :=
  fun y => Cert.Spec.outOf (fun b n j => qkv (ix3 b n j)) (fun b k => mw (ix3 b (0 : Fin 1) k)) (fun j cc => wp (ix2 j cc)) (fun j => bp (ix2 (0 : Fin 1) j))
    ⟨(y 0).val, (y 0).isLt⟩ ⟨(y 1).val, (y 1).isLt⟩ ⟨(y 2).val, (y 2).isLt⟩

/-- The index maps, decided over the 16 grid points (point t is batch t / 4, tile t % 4): the query tile's and the
    result's blocks are (batch, tile, 0); the keys' and values' are the batch's column blocks 1 and 2 of the fused
    tensor; the weights' is the batch's; the projection and its bias are whole. -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 1
    ∧ win1_2.index t (0 : Fin 3) = t.val / 4 ∧ win1_2.index t (1 : Fin 3) = 0 ∧ win1_2.index t (2 : Fin 3) = 2
    ∧ win1_3.index t (0 : Fin 3) = t.val / 4 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) = t.val / 4 ∧ win1_6.index t (1 : Fin 3) = t.val % 4 ∧ win1_6.index t (2 : Fin 3) = 0 :=
  (by decide +kernel : ∀ t : Fin grid1.N, _)

/-- Entry (0, r, col) of the query tile at point `t` is entry (t / 4, 512 (t % 4) + r, col) of the fused tensor. -/
theorem q_blk_apply (c : Dev nD) (t : Fin cfg1.N) (r : Fin 512) (col : Fin 1024) (i : S4x2048x3072.Idx)
    (h0 : (i 0).val = t.val / 4) (h1 : (i 1).val = t.val % 4 * 512 + r.val) (h2 : (i 2).val = col.val) :
    (iblk1 V c 0 t : Vec Ideal S1x512x1024 .bf16) (ix3 (0 : Fin 1) r col) = V c main_v4 i := by
  obtain ⟨e0, e1, e2, -⟩ := idx_facts t
  show V c main_v4 (((cfg1.win 0).blk t).view.emb (ix3 (0 : Fin 1) r col)) = V c main_v4 i
  refine congrArg (V c main_v4) (funext fun a => Fin.ext ?_)
  match a with
  | ⟨0, _⟩ => show win1_0.index t (0 : Fin 3) * 1 + 1 * 0 = (i 0).val; omega
  | ⟨1, _⟩ => show win1_0.index t (1 : Fin 3) * 512 + 1 * r.val = (i 1).val; omega
  | ⟨2, _⟩ => show win1_0.index t (2 : Fin 3) * 1024 + 1 * col.val = (i 2).val; omega

/-- Entry (0, k, col) of the keys' block at point `t` is entry (t / 4, k, 1024 + col) of the fused tensor. -/
theorem k_blk_apply (c : Dev nD) (t : Fin cfg1.N) (k : Fin 2048) (col : Fin 1024) (i : S4x2048x3072.Idx)
    (h0 : (i 0).val = t.val / 4) (h1 : (i 1).val = k.val) (h2 : (i 2).val = 1024 + col.val) :
    (iblk1 V c 1 t : Vec Ideal S1x2048x1024 .bf16) (ix3 (0 : Fin 1) k col) = V c main_v4 i := by
  obtain ⟨-, -, -, e0, e1, e2, -⟩ := idx_facts t
  show V c main_v4 (((cfg1.win 1).blk t).view.emb (ix3 (0 : Fin 1) k col)) = V c main_v4 i
  refine congrArg (V c main_v4) (funext fun a => Fin.ext ?_)
  match a with
  | ⟨0, _⟩ => show win1_1.index t (0 : Fin 3) * 1 + 1 * 0 = (i 0).val; omega
  | ⟨1, _⟩ => show win1_1.index t (1 : Fin 3) * 2048 + 1 * k.val = (i 1).val; omega
  | ⟨2, _⟩ => show win1_1.index t (2 : Fin 3) * 1024 + 1 * col.val = (i 2).val; omega

/-- Entry (0, k, col) of the values' block at point `t` is entry (t / 4, k, 2048 + col) of the fused tensor. -/
theorem v_blk_apply (c : Dev nD) (t : Fin cfg1.N) (k : Fin 2048) (col : Fin 1024) (i : S4x2048x3072.Idx)
    (h0 : (i 0).val = t.val / 4) (h1 : (i 1).val = k.val) (h2 : (i 2).val = 2048 + col.val) :
    (iblk1 V c 2 t : Vec Ideal S1x2048x1024 .bf16) (ix3 (0 : Fin 1) k col) = V c main_v4 i := by
  obtain ⟨-, -, -, -, -, -, e0, e1, e2, -⟩ := idx_facts t
  show V c main_v4 (((cfg1.win 2).blk t).view.emb (ix3 (0 : Fin 1) k col)) = V c main_v4 i
  refine congrArg (V c main_v4) (funext fun a => Fin.ext ?_)
  match a with
  | ⟨0, _⟩ => show win1_2.index t (0 : Fin 3) * 1 + 1 * 0 = (i 0).val; omega
  | ⟨1, _⟩ => show win1_2.index t (1 : Fin 3) * 2048 + 1 * k.val = (i 1).val; omega
  | ⟨2, _⟩ => show win1_2.index t (2 : Fin 3) * 1024 + 1 * col.val = (i 2).val; omega

/-- Entry (0, 0, k) of the weights' block at point `t` is entry (t / 4, 0, k) of the window weights. -/
theorem m_blk_apply (c : Dev nD) (t : Fin cfg1.N) (k : Fin 2048) (i : S4x1x2048.Idx)
    (h0 : (i 0).val = t.val / 4) (h1 : (i 1).val = 0) (h2 : (i 2).val = k.val) :
    (iblk1 V c 3 t : Vec Ideal S1x1x2048 .f32) (ix3 (0 : Fin 1) (0 : Fin 1) k) = V c main_v6 i := by
  obtain ⟨-, -, -, -, -, -, -, -, -, e0, e1, e2, -⟩ := idx_facts t
  show V c main_v6 (((cfg1.win 3).blk t).view.emb (ix3 (0 : Fin 1) (0 : Fin 1) k)) = V c main_v6 i
  refine congrArg (V c main_v6) (funext fun a => Fin.ext ?_)
  match a with
  | ⟨0, _⟩ => show win1_3.index t (0 : Fin 3) * 1 + 1 * 0 = (i 0).val; omega
  | ⟨1, _⟩ => show win1_3.index t (1 : Fin 3) * 1 + 1 * 0 = (i 1).val; omega
  | ⟨2, _⟩ => show win1_3.index t (2 : Fin 3) * 2048 + 1 * k.val = (i 2).val; omega

/-- The projection's block at any point is the projection. -/
theorem w_blk_eq (c : Dev nD) (t : Fin cfg1.N) : (iblk1 V c 4 t : Vec Ideal S1024x1024 .bf16) = V c main_v1 := by
  obtain ⟨-, -, -, -, -, -, -, -, -, -, -, -, e0, e1, -⟩ := idx_facts t
  funext y
  show V c main_v1 (((cfg1.win 4).blk t).view.emb y) = V c main_v1 y
  refine congrArg (V c main_v1) (funext fun a => Fin.ext ?_)
  match a with
  | ⟨0, _⟩ => show win1_4.index t (0 : Fin 2) * 1024 + 1 * (y 0).val = (y 0).val; omega
  | ⟨1, _⟩ => show win1_4.index t (1 : Fin 2) * 1024 + 1 * (y 1).val = (y 1).val; omega

/-- The bias's block at any point is the bias. -/
theorem b_blk_eq (c : Dev nD) (t : Fin cfg1.N) : (iblk1 V c 5 t : Vec Ideal S1x1024 .f32) = V c main_v7 := by
  obtain ⟨-, -, -, -, -, -, -, -, -, -, -, -, -, -, e0, e1, -⟩ := idx_facts t
  funext y
  show V c main_v7 (((cfg1.win 5).blk t).view.emb y) = V c main_v7 y
  refine congrArg (V c main_v7) (funext fun a => Fin.ext ?_)
  match a with
  | ⟨0, _⟩ => show win1_5.index t (0 : Fin 2) * 1 + 1 * (y 0).val = (y 0).val; omega
  | ⟨1, _⟩ => show win1_5.index t (1 : Fin 2) * 1024 + 1 * (y 1).val = (y 1).val; omega

/-- WHAT POINT `t` WRITES BACK is block `t` of the whole-array function of the four arrays as the region finds them. -/
theorem flushed_eq (c : Dev nD) (t : Fin cfg1.N) :
    (dat1 (F := Ideal) V c).flushed 6 t
      = ((cfg1.win 6).blk t).view.read (Elt Ideal) (attnOut (V c main_v4) (V c main_v6) (V c main_v1) (V c main_v7)) := by
  show (cfg1.win 6).cut (grid1.coords t) ((dat1 V c).after 6 t) = _
  rw [after1_6]
  have hN : t.val < 16 := lt_of_lt_of_eq t.isLt (show cfg1.N = 16 from N_1)
  obtain ⟨-, -, -, -, -, -, -, -, -, -, -, -, -, -, -, -, e0, e1, e2⟩ := idx_facts t
  funext y
  obtain ⟨z, r, j, rfl⟩ : ∃ (z : Fin 1) (r : Fin 512) (j : Fin 1024), y = ix3 z r j := ⟨y 0, y 1, y 2, eq_ix3 y⟩
  obtain rfl : z = 0 := Subsingleton.elim _ _
  show out1_6 (iblk1 V c 0 t) (iblk1 V c 1 t) (iblk1 V c 2 t) (iblk1 V c 3 t) (iblk1 V c 4 t) (iblk1 V c 5 t) (ix3 (0 : Fin 1) r j)
    = attnOut (V c main_v4) (V c main_v6) (V c main_v1) (V c main_v7) (((cfg1.win 6).blk t).view.emb (ix3 (0 : Fin 1) r j))
  refine (tile_apply _ _ _ _ _ _ (V c main_v4) (V c main_v6) (V c main_v1) (V c main_v7) ⟨t.val / 4, by omega⟩ ⟨t.val % 4 * 512 + r.val, by omega⟩ r j
    (fun col => q_blk_apply V c t r col _ rfl rfl rfl) (fun k col => k_blk_apply V c t k col _ rfl rfl rfl)
    (fun k col => v_blk_apply V c t k col _ rfl rfl rfl) (fun k => m_blk_apply V c t k _ rfl rfl rfl) (w_blk_eq V c t) (b_blk_eq V c t)).trans ?_
  unfold attnOut
  refine congr (congr (congrArg _ (Fin.ext ?_)) (Fin.ext ?_)) (Fin.ext ?_)
  · show t.val / 4 = win1_6.index t (0 : Fin 3) * 1 + 1 * 0; omega
  · show t.val % 4 * 512 + r.val = win1_6.index t (1 : Fin 3) * 512 + 1 * r.val; omega
  · show j.val = win1_6.index t (2 : Fin 3) * 1024 + 1 * j.val; omega

/-- Every entry of the result is in some point's block: (b, n, j) is in the block of point 4 b + n / 512. -/
theorem cover (c : Dev nD) (i : S4x2048x1024.Idx) :
    ∃ t : Fin cfg1.N, (cfg1.win 6).flush t = true ∧ i ∈ ((cfg1.win 6).blk t).view.set := by
  have h0 : (i 0).val < 4 := (i 0).isLt
  have h1 : (i 1).val < 2048 := (i 1).isLt
  have h2 : (i 2).val < 1024 := (i 2).isLt
  obtain ⟨t, ht⟩ : ∃ t : Fin cfg1.N, t.val = 4 * (i 0).val + (i 1).val / 512 :=
    ⟨⟨4 * (i 0).val + (i 1).val / 512, by rw [show cfg1.N = 16 from N_1]; omega⟩, rfl⟩
  obtain ⟨-, -, -, -, -, -, -, -, -, -, -, -, -, -, -, -, e0, e1, e2⟩ := idx_facts t
  refine ⟨t, flush1_6 t, ?_⟩
  show i ∈ ((View.whole main_v8).slice (win1_6.rect t)).set
  rw [View.set_slice_whole, Rect.mem_set_unit]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 512 ≤ (i 1).val ∧ (i 1).val < win1_6.index t (1 : Fin 3) * 512 + 512; omega
  | ⟨2, _⟩ => show win1_6.index t (2 : Fin 3) * 1024 ≤ (i 2).val ∧ (i 2).val < win1_6.index t (2 : Fin 3) * 1024 + 1024; omega

/-- THE RESULT ARRAY after the region: the whole-array function of the fused tensor, the window weights, the
    projection and its bias as the region finds them. -/
theorem arr1_final (c : Dev nD) :
    (dat1 (F := Ideal) V c).arrAt 6 cfg1.N = attnOut (V c main_v4) (V c main_v6) (V c main_v1) (V c main_v7) :=
  (dat1 (F := Ideal) V c).arrAt_eq_of_cover 6 (attnOut (V c main_v4) (V c main_v6) (V c main_v1) (V c main_v7))
    (fun t _ => flushed_eq V c t) (cover c)

end Region1

end Cert.KernelIdeal.Val1

end
-- ==== Proof.KI_Compose.lean ====
/-
  The two kernels composed, as a statement about arrays at the ideal values.  The first kernel leaves the
  8192 × 3072 product of the flattened activations with the (narrowed) fused projection weights; the host reads it as a
  4 × 2048 × 3072 tensor, reads the window weight's 4 × 2048 × 1 array as a 4 × 1 × 2048 one, narrows the output
  projection, and reads the bias vector as a 1 × 1024 row.  Read at coordinates:

    · row-major position (2048·b + n, j) of the flat product is entry (b, n, j) of the tensor, and row 2048·b + n of
      the flattened activations is row (b, n) of the activations, so the tensor is the fused projection
      ∑ c, X b n c · Wq j c of the specification;
    · the broadcast window weight at (b, 0, k) is the argument at (b, k, 0);
    · a narrowing of the format is the identity on extended reals;
    · the row at (0, j) is the vector at j.

  Hence the attention of the specification taken over these four readings is the specification's result.
-/
import proofs.«414892_j56607668961917_3_alg».proof.Proof.KI_Val0
import proofs.«414892_j56607668961917_3_alg».proof.Proof.Spec
import Idealize.ShloMosaic.Lib.Pipeline.Value
import Idealize.ShloMosaic.Lib.ValueIdx
import Idealize.ShloMosaic.Lib.ValueLayout

noncomputable section

namespace Cert.KernelIdeal.Compose

open Cert.KernelIdeal Cert.KernelIdeal.Val0 Idealize.ShloMosaic Idealize.ShloMosaic.ValueIdx
open Cert.KernelIdeal.Facts₀ Cert.KernelIdeal.Facts

/-! ## The four readings -/

/-- Row 2048·b + n, channel c of the flattened activations is entry (b, n, c) of the activations. -/
theorem act_flat (x0 : Vec Ideal S4x2048x1024 .f32) (b : Fin 4) (n : Fin 2048) (c : Fin 1024) (r : Fin 8192)
    (hr : r.val = 2048 * b.val + n.val) :
    shapeCast S8192x1024 x0 shapeCasts_S4x2048x1024_S8192x1024 (ix2 r c) = x0 (ix3 b n c) :=
  shapeCast_apply x0 shapeCasts_S4x2048x1024_S8192x1024 _ _ (by
    rw [Shape.rowMajor_val_three, Shape.rowMajor_val_two]
    show (b.val * 2048 + n.val) * 1024 + c.val = r.val * 1024 + c.val
    rw [hr]; omega)

/-- The flat product read as a 4 × 2048 × 3072 tensor is the specification's fused projection. -/
theorem qkv_apply (x0 : Vec Ideal S4x2048x1024 .f32) (x2 : Vec Ideal S3072x1024 .f32) (b : Fin 4) (n : Fin 2048) (j : Fin 3072) :
    (shapeCast S4x2048x3072 (qkvFlat (shapeCast S8192x1024 x0 shapeCasts_S4x2048x1024_S8192x1024) (truncf (F := Ideal) (φ := .f32) .bf16 x2 bitsLt_bf16_f32)) shapeCasts_S8192x3072_S4x2048x3072) (ix3 b n j)
      = Cert.Spec.qkv (fun b n c => x0 (ix3 b n c)) (fun j c => x2 (ix2 j c)) b n j := by
  have hlt : 2048 * b.val + n.val < 8192 := by omega
  refine (shapeCast_apply _ shapeCasts_S8192x3072_S4x2048x3072 (ix3 b n j) (ix2 (⟨2048 * b.val + n.val, hlt⟩ : Fin 8192) j) (by
    rw [Shape.rowMajor_val_three, Shape.rowMajor_val_two]
    show (2048 * b.val + n.val) * 3072 + j.val = (b.val * 2048 + n.val) * 3072 + j.val
    omega)).trans ?_
  unfold qkvFlat Cert.Spec.qkv
  refine Finset.sum_congr rfl fun cc _ => ?_
  refine congrArg₂ (· * ·) ?_ ?_
  · exact act_flat x0 b n cc _ rfl
  · rfl

/-- The window weight read as 4 × 2048, then broadcast to 4 × 1 × 2048: at (b, 0, k) it is the argument at (b, k, 0). -/
theorem mask_apply (x1 : Vec Ideal S4x2048x1 .f32) (b : Fin 4) (k : Fin 2048) :
    (broadcastInDim S4x1x2048 ![0, 2] bcast_S4x2048_S4x1x2048_0_2 (shapeCast S4x2048 x1 shapeCasts_S4x2048x1_S4x2048)) (ix3 b (0 : Fin 1) k)
      = x1 (ix3 b k (0 : Fin 1)) := by
  refine (broadcastInDim_apply ![0, 2] bcast_S4x2048_S4x1x2048_0_2 _ (ix3 b (0 : Fin 1) k) (ix2 b k) fun a => ?_).trans ?_
  · match a with
    | ⟨0, _⟩ => exact (if_neg (show ¬((4 : Nat) = 1) by decide)).symm
    | ⟨1, _⟩ => exact (if_neg (show ¬((2048 : Nat) = 1) by decide)).symm
  · exact shapeCast_apply x1 shapeCasts_S4x2048x1_S4x2048 _ _ (by
      rw [Shape.rowMajor_val_three, Shape.rowMajor_val_two]
      show (b.val * 2048 + k.val) * 1 + 0 = b.val * 2048 + k.val
      omega)

/-- The bias vector read as a 1 × 1024 row: at (0, j) it is the vector at j. -/
theorem bias_apply (x4 : Vec Ideal S1024 .f32) (j : Fin 1024) :
    (shapeCast S1x1024 x4 shapeCasts_S1024_S1x1024) (ix2 (0 : Fin 1) j) = x4 (ix1 j) :=
  shapeCast_a_1a_apply x4 shapeCasts_S1024_S1x1024 (0 : Fin 1) j

/-! ## The composition -/

/-- The specification's attention depends on its four arguments only through their values. -/
theorem outOf_congr {Q Q' : Fin 4 → Fin 2048 → Fin 3072 → EReal} {M M' : Fin 4 → Fin 2048 → EReal}
    {Wp Wp' : Fin 1024 → Fin 1024 → EReal} {Bp Bp' : Fin 1024 → EReal}
    (hQ : Q = Q') (hM : M = M') (hW : Wp = Wp') (hB : Bp = Bp') (b : Fin 4) (n : Fin 2048) (j : Fin 1024) :
    Cert.Spec.outOf Q M Wp Bp b n j = Cert.Spec.outOf Q' M' Wp' Bp' b n j := by
  subst hQ hM hW hB; rfl

/-- The second kernel's function of the first kernel's value and of the host's readings of the arguments is the
    specification of the five argument arrays. -/
theorem compose (x0 : Vec Ideal S4x2048x1024 .f32) (x1 : Vec Ideal S4x2048x1 .f32) (x2 : Vec Ideal S3072x1024 .f32)
    (x3 : Vec Ideal S1024x1024 .f32) (x4 : Vec Ideal S1024 .f32) :
    (fun y : S4x2048x1024.Idx =>
      Cert.Spec.outOf
        (fun b n j => (shapeCast S4x2048x3072 (qkvFlat (shapeCast S8192x1024 x0 shapeCasts_S4x2048x1024_S8192x1024) (truncf (F := Ideal) (φ := .f32) .bf16 x2 bitsLt_bf16_f32)) shapeCasts_S8192x3072_S4x2048x3072) (ix3 b n j))
        (fun b k => (broadcastInDim S4x1x2048 ![0, 2] bcast_S4x2048_S4x1x2048_0_2 (shapeCast S4x2048 x1 shapeCasts_S4x2048x1_S4x2048)) (ix3 b (0 : Fin 1) k))
        (fun j cc => (truncf (F := Ideal) (φ := .f32) .bf16 x3 bitsLt_bf16_f32) (ix2 j cc))
        (fun j => (shapeCast S1x1024 x4 shapeCasts_S1024_S1x1024) (ix2 (0 : Fin 1) j))
        ⟨(y 0).val, (y 0).isLt⟩ ⟨(y 1).val, (y 1).isLt⟩ ⟨(y 2).val, (y 2).isLt⟩)
    = Cert.Spec.G x0 x1 x2 x3 x4 := by
  funext y
  unfold Cert.Spec.G Cert.Spec.out
  exact outOf_congr
    (funext fun b => funext fun n => funext fun j => qkv_apply x0 x2 b n j)
    (funext fun b => funext fun k => mask_apply x1 b k)
    (funext fun j => funext fun cc => rfl)
    (funext fun j => bias_apply x4 j) _ _ _

end Cert.KernelIdeal.Compose

end
-- ==== Proof.KI_Final.lean ====
/-
  The value of the idealized kernel's run: the result array ends at the specification of the five argument arrays.
  The run leaves every unscoped buffer at the last boundary's contents; there the result array holds what the
  second pallas_call's write-backs leave, which is the attention of the arrays it read; those are the host
  reshapes of the first pallas_call's product, of the window weights and of the bias, and the cast projection.
-/
import proofs.«414892_j56607668961917_3_alg».proof.Proof.KI_Launch
import proofs.«414892_j56607668961917_3_alg».proof.Proof.KI_Val0
import proofs.«414892_j56607668961917_3_alg».proof.Proof.KI_Val1
import proofs.«414892_j56607668961917_3_alg».proof.Proof.KI_Compose
import Idealize.ShloMosaic.Lib.StableHlo.Run

set_option maxRecDepth 16384

noncomputable section

namespace Cert.KernelIdeal.Final

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the host stretches write -/

theorem v2_read (c : Dev nD) : (Vt1 m c main_v2 : Vec Ideal S8192x1024 .f32)
    = shapeCast S8192x1024 (m ((c : Thread nD τ).loc main_arg0)) shapeCasts_S4x2048x1024_S8192x1024 := by
  show StableHlo.after hostOps0 (Wt0 m c) (Proc.devRef .tc main_v2) = _
  dsimp only [hostOps0]; after_results; all_goals rfl

theorem v0_read (c : Dev nD) : (Vt1 m c main_v0 : Vec Ideal S3072x1024 .bf16)
    = truncf (F := Ideal) (φ := .f32) .bf16 (m ((c : Thread nD τ).loc main_arg2)) bitsLt_bf16_f32 := by
  show StableHlo.after hostOps0 (Wt0 m c) (Proc.devRef .tc main_v0) = _
  dsimp only [hostOps0]; after_results; all_goals rfl

theorem v1_read (c : Dev nD) : (Vt3 m c main_v1 : Vec Ideal S1024x1024 .bf16)
    = truncf (F := Ideal) (φ := .f32) .bf16 (m ((c : Thread nD τ).loc main_arg3)) bitsLt_bf16_f32 := by
  refine (Wt3_of m c main_v1 (by decide)).trans <| (Wt2_of_ne m c main_v1 (by decide)).trans ?_
  show StableHlo.after hostOps0 (Wt0 m c) (Proc.devRef .tc main_v1) = _
  dsimp only [hostOps0]; after_results; all_goals rfl

theorem v4_read (c : Dev nD) : (Vt3 m c main_v4 : Vec Ideal S4x2048x3072 .bf16)
    = shapeCast S4x2048x3072 (Wt2 m c main_v3) shapeCasts_S8192x3072_S4x2048x3072 := by
  show StableHlo.after hostOps1 (Wt2 m c) (Proc.devRef .tc main_v4) = _
  dsimp only [hostOps1]; after_results; all_goals rfl

theorem v6_read (c : Dev nD) : (Vt3 m c main_v6 : Vec Ideal S4x1x2048 .f32)
    = broadcastInDim S4x1x2048 ![0, 2] bcast_S4x2048_S4x1x2048_0_2
        (shapeCast S4x2048 (m ((c : Thread nD τ).loc main_arg1)) shapeCasts_S4x2048x1_S4x2048) := by
  have h1 : Wt2 m c main_arg1 = m ((c : Thread nD τ).loc main_arg1) :=
    (Wt2_of_ne m c main_arg1 (by decide)).trans ((Wt1_of m c main_arg1 (by decide)).trans rfl)
  show StableHlo.after hostOps1 (Wt2 m c) (Proc.devRef .tc main_v6) = _
  dsimp only [hostOps1]; after_results; rw [h1]; all_goals rfl

theorem v7_read (c : Dev nD) : (Vt3 m c main_v7 : Vec Ideal S1x1024 .f32)
    = shapeCast S1x1024 (m ((c : Thread nD τ).loc main_arg4)) shapeCasts_S1024_S1x1024 := by
  have h4 : Wt2 m c main_arg4 = m ((c : Thread nD τ).loc main_arg4) :=
    (Wt2_of_ne m c main_arg4 (by decide)).trans ((Wt1_of m c main_arg4 (by decide)).trans rfl)
  show StableHlo.after hostOps1 (Wt2 m c) (Proc.devRef .tc main_v7) = _
  dsimp only [hostOps1]; after_results; rw [h4]; all_goals rfl

/-! ## The result array -/

/-- At the last boundary the result array holds the specification of the five argument arrays as launched. -/
theorem value (c : Dev nD) :
    Wt4 m c main_v8 = Cert.Spec.G (m ((c : Thread nD τ).loc main_arg0)) (m ((c : Thread nD τ).loc main_arg1))
      (m ((c : Thread nD τ).loc main_arg2)) (m ((c : Thread nD τ).loc main_arg3)) (m ((c : Thread nD τ).loc main_arg4)) := by
  rw [Wt4_res, Cert.KernelIdeal.Val1.arr1_final (Vt3 m) c, v4_read, v6_read, v1_read, v7_read, Wt2_res,
    Cert.KernelIdeal.Val0.arr0_final (Vt1 m) c, v2_read, v0_read]
  exact Cert.KernelIdeal.Compose.compose _ _ _ _ _

/-- THE RUN with its value: every weakly fair execution terminates with the result array at the specification and
    the argument arrays as launched. -/
theorem run_value : θ_run defs (onTc (τ := τ) (main (F := Ideal))) ⟨m, fun _ => 0, ρ⟩ (fun r => ∀ c : Dev nD,
      r.2.mem ((c.tc : Thread nD τ).loc main_v8) = Cert.Spec.G (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v8 (by decide))).trans (value m c),
     (h c _ (mem_uc main_arg0 (by decide))).trans (Wt4_arg m c main_arg0 (by decide) (by decide) (by decide) (by decide)),
     (h c _ (mem_uc main_arg1 (by decide))).trans (Wt4_arg m c main_arg1 (by decide) (by decide) (by decide) (by decide)),
     (h c _ (mem_uc main_arg2 (by decide))).trans (Wt4_arg m c main_arg2 (by decide) (by decide) (by decide) (by decide)),
     (h c _ (mem_uc main_arg3 (by decide))).trans (Wt4_arg m c main_arg3 (by decide) (by decide) (by decide) (by decide)),
     (h c _ (mem_uc main_arg4 (by decide))).trans (Wt4_arg m c main_arg4 (by decide) (by decide) (by decide) (by decide))⟩)
    (run_all (F := Ideal) m ρ)

end Cert.KernelIdeal.Final

end
-- ==== Proof.RefIsSpec.lean ====
/-
  The reference program computes the specification.

  The reference, read one element at a time, is a chain of array operations: a fused projection, a
  regrouping of its 3072 columns into (part, head, lane), the scaled scores of every query row
  against every key row with the window bias added, the softmax of each row of scores (row maximum
  subtracted), the probabilities times the values, the heads laid back side by side along the channel
  axis, and the output projection with its bias. Each stage below is identified, at explicit
  coordinates, with the corresponding function of `Cert.Spec`; the regroupings are row-major index
  arithmetic (column `j` of 3072 is part `j / 1024`, head `j % 1024 / 64`, lane `j % 64`;
  channel `c` of 1024 is head `c / 64`, lane `c % 64`).
-/
import proofs.«414892_j56607668961917_3_alg».proof.Proof.Gen.ReferenceIdeal.Read
import proofs.«414892_j56607668961917_3_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Read Idealize.ShloMosaic Idealize.ShloMosaic.ValueIdx

/-- The activations by coordinates. -/
abbrev aX (x0 : (⟨S4x2048x1024, .f32⟩ : BufTy).Contents (Elt Ideal)) : Fin 4 → Fin 2048 → Fin 1024 → EReal :=
  fun b n c => x0 (ix3 b n c)
/-- The window weights by coordinates (the trailing unit axis at 0). -/
abbrev aM (x1 : (⟨S4x2048x1, .f32⟩ : BufTy).Contents (Elt Ideal)) : Fin 4 → Fin 2048 → EReal :=
  fun b k => x1 (ix3 b k (0 : Fin 1))
/-- The fused projection by coordinates. -/
abbrev aWq (x2 : (⟨S3072x1024, .f32⟩ : BufTy).Contents (Elt Ideal)) : Fin 3072 → Fin 1024 → EReal :=
  fun j c => x2 (ix2 j c)
/-- The output projection by coordinates. -/
abbrev aWp (x3 : (⟨S1024x1024, .f32⟩ : BufTy).Contents (Elt Ideal)) : Fin 1024 → Fin 1024 → EReal :=
  fun j c => x3 (ix2 j c)
/-- The output bias by coordinates. -/
abbrev aBp (x4 : (⟨S1024, .f32⟩ : BufTy).Contents (Elt Ideal)) : Fin 1024 → EReal :=
  fun j => x4 (ix1 j)

/-- The fused query/key/value projection of the arguments. -/
abbrev aQKV (x0 : (⟨S4x2048x1024, .f32⟩ : BufTy).Contents (Elt Ideal)) (x2 : (⟨S3072x1024, .f32⟩ : BufTy).Contents (Elt Ideal)) :
    Fin 4 → Fin 2048 → Fin 3072 → EReal := Cert.Spec.qkv (aX x0) (aWq x2)

variable (x0 : (⟨S4x2048x1024, .f32⟩ : BufTy).Contents (Elt Ideal)) (x1 : (⟨S4x2048x1, .f32⟩ : BufTy).Contents (Elt Ideal))
  (x2 : (⟨S3072x1024, .f32⟩ : BufTy).Contents (Elt Ideal)) (x3 : (⟨S1024x1024, .f32⟩ : BufTy).Contents (Elt Ideal))
  (x4 : (⟨S1024, .f32⟩ : BufTy).Contents (Elt Ideal))

/-! ## The fused projection, regrouped -/

/-- Dropping the leading unit axis: (b, h, q, d) of the rank-4 array is (0, b, h, q, d) of the rank-5 one. -/
theorem idx_v4_ix (b : Fin 4) (h : Fin 16) (q : Fin 2048) (d : Fin 64) :
    idx_main_v4 (ix4 b h q d) = ix5 (0 : Fin 1) b h q d := by
  funext a
  have hb := b.isLt; have hh := h.isLt; have hq := q.isLt; have hd := d.isLt
  match a with
  | ⟨0, _⟩ => rfl
  | ⟨1, _⟩ => exact Fin.ext (by show (((b.val * 16 + h.val) * 2048 + q.val) * 64 + d.val) / 2097152 % 4 = b.val; omega)
  | ⟨2, _⟩ => exact Fin.ext (by show (((b.val * 16 + h.val) * 2048 + q.val) * 64 + d.val) / 131072 % 16 = h.val; omega)
  | ⟨3, _⟩ => exact Fin.ext (by show (((b.val * 16 + h.val) * 2048 + q.val) * 64 + d.val) / 64 % 2048 = q.val; omega)
  | ⟨4, _⟩ => exact Fin.ext (by show (((b.val * 16 + h.val) * 2048 + q.val) * 64 + d.val) % 64 = d.val; omega)

/-- The three slices read part 0, 1, 2 of the regrouped projection. -/
theorem idx_v3_ix (b : Fin 4) (h : Fin 16) (q : Fin 2048) (d : Fin 64) :
    idx_main_v3 (ix5 (0 : Fin 1) b h q d) = ix5 (0 : Fin 3) b h q d := by
  funext a
  match a with
  | ⟨0, _⟩ => rfl | ⟨1, _⟩ => rfl | ⟨2, _⟩ => rfl | ⟨3, _⟩ => rfl | ⟨4, _⟩ => rfl
theorem idx_v5_ix (b : Fin 4) (h : Fin 16) (q : Fin 2048) (d : Fin 64) :
    idx_main_v5 (ix5 (0 : Fin 1) b h q d) = ix5 (1 : Fin 3) b h q d := by
  funext a
  match a with
  | ⟨0, _⟩ => rfl | ⟨1, _⟩ => rfl | ⟨2, _⟩ => rfl | ⟨3, _⟩ => rfl | ⟨4, _⟩ => rfl
theorem idx_v7_ix (b : Fin 4) (h : Fin 16) (q : Fin 2048) (d : Fin 64) :
    idx_main_v7 (ix5 (0 : Fin 1) b h q d) = ix5 (2 : Fin 3) b h q d := by
  funext a
  match a with
  | ⟨0, _⟩ => rfl | ⟨1, _⟩ => rfl | ⟨2, _⟩ => rfl | ⟨3, _⟩ => rfl | ⟨4, _⟩ => rfl

/-- The transposition (part, b, head, row, lane) ↦ (b, row, part, head, lane). -/
theorem idx_v2_ix (s : Fin 3) (b : Fin 4) (h : Fin 16) (q : Fin 2048) (d : Fin 64) :
    idx_main_v2 (ix5 s b h q d) = ix5 b q s h d := by
  funext a
  match a with
  | ⟨0, _⟩ => rfl | ⟨1, _⟩ => rfl | ⟨2, _⟩ => rfl | ⟨3, _⟩ => rfl | ⟨4, _⟩ => rfl

/-- The regrouping of the columns: (part, head, lane) is column part·1024 + head·64 + lane. -/
theorem idx_v1_ix (s : Fin 3) (b : Fin 4) (h : Fin 16) (q : Fin 2048) (d : Fin 64) (j : Fin 3072)
    (hj : j.val = s.val * 1024 + (h.val * 64 + d.val)) :
    idx_main_v1 (ix5 b q s h d) = ix3 b q j := by
  funext a
  have hs := s.isLt; have hb := b.isLt; have hh := h.isLt; have hq := q.isLt; have hd := d.isLt
  match a with
  | ⟨0, _⟩ => exact Fin.ext (by show ((((b.val * 2048 + q.val) * 3 + s.val) * 16 + h.val) * 64 + d.val) / 6291456 = b.val; omega)
  | ⟨1, _⟩ => exact Fin.ext (by show ((((b.val * 2048 + q.val) * 3 + s.val) * 16 + h.val) * 64 + d.val) / 3072 % 2048 = q.val; omega)
  | ⟨2, _⟩ => exact Fin.ext (by show ((((b.val * 2048 + q.val) * 3 + s.val) * 16 + h.val) * 64 + d.val) % 3072 = j.val; omega)

theorem lidx_v0_ix (b : Fin 4) (q : Fin 2048) (j : Fin 3072) (c : Fin 1024) :
    lidx_main_v0 (ix3 b q j) c = ix3 b q c := by
  funext a
  match a with
  | ⟨0, _⟩ => rfl | ⟨1, _⟩ => rfl | ⟨2, _⟩ => rfl
theorem ridx_v0_ix (b : Fin 4) (q : Fin 2048) (j : Fin 3072) (c : Fin 1024) :
    ridx_main_v0 (ix3 b q j) c = ix2 j c := by
  funext a
  match a with
  | ⟨0, _⟩ => rfl | ⟨1, _⟩ => rfl

/-- The regrouped, transposed projection at (part, b, head, row, lane) is the projection's column
    part·1024 + head·64 + lane at (b, row). -/
theorem v2_read (s : Fin 3) (b : Fin 4) (h : Fin 16) (q : Fin 2048) (d : Fin 64) (j : Fin 3072)
    (hj : j.val = s.val * 1024 + (h.val * 64 + d.val)) :
    val_main_v2 (F := Ideal) x0 x2 (ix5 s b h q d) = Cert.Spec.qkv (aX x0) (aWq x2) b q j := by
  rw [val_main_v2_apply, idx_v2_ix, val_main_v1_apply, idx_v1_ix s b h q d j hj, val_main_v0_apply]
  unfold Cert.Spec.qkv
  refine Finset.sum_congr rfl fun c _ => ?_
  rw [lidx_v0_ix, ridx_v0_ix]

/-- The queries. -/
theorem v4_read (b : Fin 4) (h : Fin 16) (q : Fin 2048) (d : Fin 64) :
    val_main_v4 (F := Ideal) x0 x2 (ix4 b h q d) = Cert.Spec.qkv (aX x0) (aWq x2) b q (Cert.Spec.colQ h d) := by
  rw [val_main_v4_apply, idx_v4_ix, val_main_v3_apply, idx_v3_ix]
  exact v2_read x0 x2 0 b h q d _ (by show h.val * 64 + d.val = (0 : Fin 3).val * 1024 + (h.val * 64 + d.val); simp)
/-- The keys. -/
theorem v6_read (b : Fin 4) (h : Fin 16) (q : Fin 2048) (d : Fin 64) :
    val_main_v6 (F := Ideal) x0 x2 (ix4 b h q d) = Cert.Spec.qkv (aX x0) (aWq x2) b q (Cert.Spec.colK h d) := by
  rw [val_main_v6_apply, show idx_main_v6 (ix4 b h q d) = ix5 (0 : Fin 1) b h q d from idx_v4_ix b h q d,
    val_main_v5_apply, idx_v5_ix]
  exact v2_read x0 x2 1 b h q d _ (by show 1024 + (h.val * 64 + d.val) = (1 : Fin 3).val * 1024 + (h.val * 64 + d.val); simp)
/-- The values. -/
theorem v8_read (b : Fin 4) (h : Fin 16) (q : Fin 2048) (d : Fin 64) :
    val_main_v8 (F := Ideal) x0 x2 (ix4 b h q d) = Cert.Spec.qkv (aX x0) (aWq x2) b q (Cert.Spec.colV h d) := by
  rw [val_main_v8_apply, show idx_main_v8 (ix4 b h q d) = ix5 (0 : Fin 1) b h q d from idx_v4_ix b h q d,
    val_main_v7_apply, idx_v7_ix]
  exact v2_read x0 x2 2 b h q d _ (by show 2048 + (h.val * 64 + d.val) = (2 : Fin 3).val * 1024 + (h.val * 64 + d.val); simp)

/-! ## The scores -/

theorem lidx_v11_ix (b : Fin 4) (h : Fin 16) (q k : Fin 2048) (d : Fin 64) :
    lidx_main_v11 (ix4 b h q k) d = ix4 b h q d := by
  funext a
  match a with
  | ⟨0, _⟩ => rfl | ⟨1, _⟩ => rfl | ⟨2, _⟩ => rfl | ⟨3, _⟩ => rfl
theorem ridx_v11_ix (b : Fin 4) (h : Fin 16) (q k : Fin 2048) (d : Fin 64) :
    ridx_main_v11 (ix4 b h q k) d = ix4 b h k d := by
  funext a
  match a with
  | ⟨0, _⟩ => rfl | ⟨1, _⟩ => rfl | ⟨2, _⟩ => rfl | ⟨3, _⟩ => rfl

/-- The scaled queries. -/
theorem v10_read (b : Fin 4) (h : Fin 16) (q : Fin 2048) (d : Fin 64) :
    val_main_v10 (F := Ideal) x0 x2 (ix4 b h q d)
      = Cert.Spec.qkv (aX x0) (aWq x2) b q (Cert.Spec.colQ h d) * Cert.Spec.cScale := by
  rw [val_main_v10_apply, v4_read, val_main_v9_apply, val_main_cst_apply]
  rfl

/-- The scaled dot products of query row `q` with key row `k`. -/
theorem v11_read (b : Fin 4) (h : Fin 16) (q k : Fin 2048) :
    val_main_v11 (F := Ideal) x0 x2 (ix4 b h q k)
      = ∑ d : Fin 64, (Cert.Spec.qkv (aX x0) (aWq x2) b q (Cert.Spec.colQ h d) * Cert.Spec.cScale)
          * Cert.Spec.qkv (aX x0) (aWq x2) b k (Cert.Spec.colK h d) := by
  rw [val_main_v11_apply]
  refine Finset.sum_congr rfl fun d _ => ?_
  rw [lidx_v11_ix, ridx_v11_ix, v10_read, v6_read]

theorem idx_v18_ix (b : Fin 4) (h : Fin 16) (q k : Fin 2048) :
    idx_main_v18 (ix4 b h q k) = ix4 b (0 : Fin 1) (0 : Fin 1) k := by
  funext a
  match a with
  | ⟨0, _⟩ => rfl | ⟨1, _⟩ => rfl | ⟨2, _⟩ => rfl | ⟨3, _⟩ => rfl
theorem idx_v13_ix (b : Fin 4) (k : Fin 2048) :
    idx_main_v13 (ix4 b (0 : Fin 1) (0 : Fin 1) k) = ix2 b k := by
  funext a
  match a with
  | ⟨0, _⟩ => rfl | ⟨1, _⟩ => rfl
theorem idx_v12_ix (b : Fin 4) (k : Fin 2048) :
    idx_main_v12 (ix2 b k) = ix3 b k (0 : Fin 1) := by
  funext a
  have hb := b.isLt; have hk := k.isLt
  match a with
  | ⟨0, _⟩ => exact Fin.ext (by show (b.val * 2048 + k.val) / 2048 = b.val; omega)
  | ⟨1, _⟩ => exact Fin.ext (by show (b.val * 2048 + k.val) / 1 % 2048 = k.val; omega)
  | ⟨2, _⟩ => rfl

/-- The window bias, broadcast over heads and query rows. -/
theorem v18_read (b : Fin 4) (h : Fin 16) (q k : Fin 2048) :
    val_main_v18 (F := Ideal) x1 (ix4 b h q k) = Cert.Spec.bias (aM x1) b k := by
  rw [val_main_v18_apply, idx_v18_ix, val_main_v17_apply, val_main_v15_apply, val_main_v13_apply, idx_v13_ix,
    val_main_v12_apply, idx_v12_ix, val_main_v14_apply, val_main_cst_0_apply, val_main_v16_apply, val_main_cst_1_apply]
  rfl

/-- The scores. -/
theorem v19_read (b : Fin 4) (h : Fin 16) (q k : Fin 2048) :
    val_main_v19 (F := Ideal) x0 x1 x2 (ix4 b h q k) = Cert.Spec.score (aQKV x0 x2) (aM x1) b h q k := by
  rw [val_main_v19_apply, v11_read, v18_read]
  rfl

/-! ## The softmax of a row of scores -/

/-- The row maximum, taken from −∞ over the key rows. -/
theorem v20_read (b : Fin 4) (h : Fin 16) (q : Fin 2048) :
    val_main_v20 (F := Ideal) x0 x1 x2 (ix3 b h q) = Cert.Spec.rowMax (aQKV x0 x2) (aM x1) b h q := by
  unfold val_main_v20
  rw [Host.reduce_eq_fold_single FloatOps.maximumf _ _ _ (by decide : S4x16x2048x2048.Reduces [3] S4x16x2048) _ (ix3 b h q)]
  unfold Cert.Spec.rowMax
  refine Finset.fold_congr fun k _ => ?_
  show val_main_v19 (F := Ideal) x0 x1 x2 _ = _
  rw [← v19_read x0 x1 x2 b h q k]
  refine congrArg _ (funext fun a => ?_)
  match a with
  | ⟨0, _⟩ => rfl | ⟨1, _⟩ => rfl | ⟨2, _⟩ => rfl | ⟨3, _⟩ => rfl

/-- Taking the maximum with −∞ once more changes nothing. -/
theorem v22_read (b : Fin 4) (h : Fin 16) (q : Fin 2048) :
    val_main_v22 (F := Ideal) x0 x1 x2 (ix3 b h q) = Cert.Spec.rowMax (aQKV x0 x2) (aM x1) b h q := by
  rw [val_main_v22_apply, val_main_v21_apply, val_main_cst_3_apply, v20_read]
  show max Cert.Spec.cBot (Cert.Spec.rowMax (aQKV x0 x2) (aM x1) b h q) = _
  refine max_eq_right ?_
  unfold Cert.Spec.rowMax
  exact (Finset.le_fold_max _).mpr (Or.inl le_rfl)

theorem idx_v24_ix (b : Fin 4) (h : Fin 16) (q k : Fin 2048) :
    idx_main_v24 (ix4 b h q k) = ix4 b h q (0 : Fin 1) := by
  funext a
  match a with
  | ⟨0, _⟩ => rfl | ⟨1, _⟩ => rfl | ⟨2, _⟩ => rfl | ⟨3, _⟩ => rfl
theorem idx_v23_ix (b : Fin 4) (h : Fin 16) (q : Fin 2048) :
    idx_main_v23 (ix4 b h q (0 : Fin 1)) = ix3 b h q := by
  funext a
  match a with
  | ⟨0, _⟩ => rfl | ⟨1, _⟩ => rfl | ⟨2, _⟩ => rfl

/-- The shifted exponentials. -/
theorem v26_read (b : Fin 4) (h : Fin 16) (q k : Fin 2048) :
    val_main_v26 (F := Ideal) x0 x1 x2 (ix4 b h q k) = Cert.Spec.expo (aQKV x0 x2) (aM x1) b h q k := by
  rw [val_main_v26_apply, val_main_v25_apply, v19_read, val_main_v24_apply, idx_v24_ix, val_main_v23_apply, idx_v23_ix,
    v22_read]
  rfl

theorem idx_v27_ix (b : Fin 4) (h : Fin 16) (q k : Fin 2048) :
    idx_main_v27 (ix3 b h q) k = ix4 b h q k := by
  funext a
  match a with
  | ⟨0, _⟩ => rfl | ⟨1, _⟩ => rfl | ⟨2, _⟩ => rfl | ⟨3, _⟩ => rfl

/-- The row's sum of exponentials (the sum starts from 0). -/
theorem v27_read (b : Fin 4) (h : Fin 16) (q : Fin 2048) :
    val_main_v27 (F := Ideal) x0 x1 x2 (ix3 b h q) = Cert.Spec.denom (aQKV x0 x2) (aM x1) b h q := by
  rw [val_main_v27_apply, val_main_cst_4_apply, Ideal.ofBits_def, Ideal.ofBits_zero_f32, zero_add]
  unfold Cert.Spec.denom
  refine Finset.sum_congr rfl fun k _ => ?_
  rw [idx_v27_ix, v26_read]

/-- The probabilities. -/
theorem v30_read (b : Fin 4) (h : Fin 16) (q k : Fin 2048) :
    val_main_v30 (F := Ideal) x0 x1 x2 (ix4 b h q k) = Cert.Spec.prob (aQKV x0 x2) (aM x1) b h q k := by
  rw [val_main_v30_apply, v26_read, val_main_v29_apply,
    show idx_main_v29 (ix4 b h q k) = ix4 b h q (0 : Fin 1) from idx_v24_ix b h q k, val_main_v28_apply,
    show idx_main_v28 (ix4 b h q (0 : Fin 1)) = ix3 b h q from idx_v23_ix b h q, v27_read]
  rfl

/-! ## Probabilities times values, heads side by side, output projection -/

theorem lidx_v31_ix (b : Fin 4) (h : Fin 16) (q : Fin 2048) (d : Fin 64) (k : Fin 2048) :
    lidx_main_v31 (ix4 b h q d) k = ix4 b h q k := by
  funext a
  match a with
  | ⟨0, _⟩ => rfl | ⟨1, _⟩ => rfl | ⟨2, _⟩ => rfl | ⟨3, _⟩ => rfl
theorem ridx_v31_ix (b : Fin 4) (h : Fin 16) (q : Fin 2048) (d : Fin 64) (k : Fin 2048) :
    ridx_main_v31 (ix4 b h q d) k = ix4 b h k d := by
  funext a
  match a with
  | ⟨0, _⟩ => rfl | ⟨1, _⟩ => rfl | ⟨2, _⟩ => rfl | ⟨3, _⟩ => rfl

/-- A head's output. -/
theorem v31_read (b : Fin 4) (h : Fin 16) (q : Fin 2048) (d : Fin 64) :
    val_main_v31 (F := Ideal) x0 x1 x2 (ix4 b h q d) = Cert.Spec.head (aQKV x0 x2) (aM x1) b h q d := by
  rw [val_main_v31_apply]
  unfold Cert.Spec.head
  refine Finset.sum_congr rfl fun k _ => ?_
  rw [lidx_v31_ix, ridx_v31_ix, v30_read, v8_read]

/-- Channel `c` of a row is lane `c % 64` of head `c / 64`. -/
theorem idx_v33_ix (b : Fin 4) (n : Fin 2048) (c : Fin 1024) :
    idx_main_v33 (ix3 b n c) = ix4 b n (Cert.Spec.headOf c) (Cert.Spec.laneOf c) := by
  funext a
  have hb := b.isLt; have hn := n.isLt; have hc := c.isLt
  match a with
  | ⟨0, _⟩ => exact Fin.ext (by show ((b.val * 2048 + n.val) * 1024 + c.val) / 2097152 = b.val; omega)
  | ⟨1, _⟩ => exact Fin.ext (by show ((b.val * 2048 + n.val) * 1024 + c.val) / 1024 % 2048 = n.val; omega)
  | ⟨2, _⟩ => exact Fin.ext (by show ((b.val * 2048 + n.val) * 1024 + c.val) / 64 % 16 = c.val / 64; omega)
  | ⟨3, _⟩ => exact Fin.ext (by show ((b.val * 2048 + n.val) * 1024 + c.val) % 64 = c.val % 64; omega)
theorem idx_v32_ix (b : Fin 4) (n : Fin 2048) (h : Fin 16) (d : Fin 64) :
    idx_main_v32 (ix4 b n h d) = ix4 b h n d := by
  funext a
  match a with
  | ⟨0, _⟩ => rfl | ⟨1, _⟩ => rfl | ⟨2, _⟩ => rfl | ⟨3, _⟩ => rfl

/-- The attention rows. -/
theorem v33_read (b : Fin 4) (n : Fin 2048) (c : Fin 1024) :
    val_main_v33 (F := Ideal) x0 x1 x2 (ix3 b n c) = Cert.Spec.attn (aQKV x0 x2) (aM x1) b n c := by
  rw [val_main_v33_apply, idx_v33_ix, val_main_v32_apply, idx_v32_ix, v31_read]
  rfl

theorem lidx_v34_ix (b : Fin 4) (n : Fin 2048) (j c : Fin 1024) :
    lidx_main_v34 (ix3 b n j) c = ix3 b n c := by
  funext a
  match a with
  | ⟨0, _⟩ => rfl | ⟨1, _⟩ => rfl | ⟨2, _⟩ => rfl
theorem ridx_v34_ix (b : Fin 4) (n : Fin 2048) (j c : Fin 1024) :
    ridx_main_v34 (ix3 b n j) c = ix2 j c := by
  funext a
  match a with
  | ⟨0, _⟩ => rfl | ⟨1, _⟩ => rfl
theorem idx_v36_ix (b : Fin 4) (n : Fin 2048) (j : Fin 1024) :
    idx_main_v36 (ix3 b n j) = ix3 (0 : Fin 1) (0 : Fin 1) j := by
  funext a
  match a with
  | ⟨0, _⟩ => rfl | ⟨1, _⟩ => rfl | ⟨2, _⟩ => rfl
theorem idx_v35_ix (j : Fin 1024) :
    idx_main_v35 (ix3 (0 : Fin 1) (0 : Fin 1) j) = ix1 j := by
  funext a
  match a with
  | ⟨0, _⟩ => rfl

/-- The result at (b, n, j). -/
theorem v37_read (b : Fin 4) (n : Fin 2048) (j : Fin 1024) :
    val_main_v37 (F := Ideal) x0 x1 x2 x3 x4 (ix3 b n j)
      = Cert.Spec.out (aX x0) (aM x1) (aWq x2) (aWp x3) (aBp x4) b n j := by
  rw [val_main_v37_apply, val_main_v34_apply, val_main_v36_apply, idx_v36_ix, val_main_v35_apply, idx_v35_ix]
  unfold Cert.Spec.out Cert.Spec.outOf
  rw [Ideal.addf_def]
  refine congrArg (· + _) (Finset.sum_congr rfl fun c _ => ?_)
  rw [lidx_v34_ix, ridx_v34_ix, v33_read]

/-- THE REFERENCE IS THE SPECIFICATION: the reference program's result is `Cert.Spec.G` of its five arguments. -/
theorem ref_is_spec (x0 : (⟨S4x2048x1024, .f32⟩ : BufTy).Contents (Elt Ideal)) (x1 : (⟨S4x2048x1, .f32⟩ : BufTy).Contents (Elt Ideal))
    (x2 : (⟨S3072x1024, .f32⟩ : BufTy).Contents (Elt Ideal)) (x3 : (⟨S1024x1024, .f32⟩ : BufTy).Contents (Elt Ideal))
    (x4 : (⟨S1024, .f32⟩ : BufTy).Contents (Elt Ideal)) :
    val_main_v37 (F := Ideal) x0 x1 x2 x3 x4 = Cert.Spec.G x0 x1 x2 x3 x4 := by
  funext i
  have hi : i = ix3 (⟨(i 0).val, (i 0).isLt⟩ : Fin 4) (⟨(i 1).val, (i 1).isLt⟩ : Fin 2048) (⟨(i 2).val, (i 2).isLt⟩ : Fin 1024) := by
    funext a
    match a with
    | ⟨0, _⟩ => rfl | ⟨1, _⟩ => rfl | ⟨2, _⟩ => rfl
  exact (congrArg (val_main_v37 (F := Ideal) x0 x1 x2 x3 x4) hi).trans (v37_read x0 x1 x2 x3 x4 _ _ _)

end Cert.ReferenceIdeal.RefValue

end
-- ==== Proof.lean ====
/-
  The certificate.  Both printed kernels run to the end, faulting nowhere, with their argument arrays unchanged
  (the run of their four stretches: host casts and reshapes, the fused projection, more reshapes, the fused
  attention and output projection); so does the reference (its generated run).  The idealization rewrote nothing.
  And at the ideal instance both programs end with the same result: each is the specification `Cert.Spec.G` of the
  five argument arrays — for the kernel by reading the two pallas_calls' write-backs as whole-array functions and
  composing them through the host reshapes, for the reference by reading its forty-four host operations one at a
  time — a softmax attention over sixteen heads of a fused projection, every scalar operation the same extended-real
  one on both sides, so that no finiteness of the inputs is used.
-/
import proofs.«414892_j56607668961917_3_alg».proof.Defs
import proofs.«414892_j56607668961917_3_alg».proof.Proof.Gen.Kernel
import proofs.«414892_j56607668961917_3_alg».proof.Proof.Gen.KernelIdeal
import proofs.«414892_j56607668961917_3_alg».proof.Proof.Gen.ReferenceIdeal
import proofs.«414892_j56607668961917_3_alg».proof.Proof.Gen.Pre_finite_inputs
import proofs.«414892_j56607668961917_3_alg».proof.Proof.Gen.ReferenceIdeal.Run
import proofs.«414892_j56607668961917_3_alg».proof.Proof.Gen.ReferenceIdeal.Read
import proofs.«414892_j56607668961917_3_alg».proof.Proof.K_Launch
import proofs.«414892_j56607668961917_3_alg».proof.Proof.KI_Launch
import proofs.«414892_j56607668961917_3_alg».proof.Proof.KI_Final
import proofs.«414892_j56607668961917_3_alg».proof.Proof.RefIsSpec
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the specification of arguments that agree. -/
theorem algebraic : Cert.algebraic_KernelIdeal_ReferenceIdeal := by
  intro m ρ m' ρ' _ hagree
  refine ⟨_, Cert.KernelIdeal.Final.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefValue.ref_is_spec,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
